-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_temperature" .f32 0x41649249#32 ((134217728 / 9395241 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel

variable [Facts]

def fn {F : FTy → Type} [FloatOps F] (main_arg0 : FVec F S4096x256 .f32) (main_arg1 : FVec F S4096x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  main_v8
-- ==== Kernel.lean ====
abbrev S4096x256 : Shape := ⟨2, ![4096, 256]⟩
abbrev S8192x256 : Shape := ⟨2, ![8192, 256]⟩
abbrev S_ : Shape := ⟨0, ![]⟩
abbrev S4096 : Shape := ⟨1, ![4096]⟩
abbrev S4096x1 : Shape := ⟨2, ![4096, 1]⟩
abbrev S8192 : Shape := ⟨1, ![8192]⟩
abbrev S8192x1 : Shape := ⟨2, ![8192, 1]⟩
abbrev S2048x256 : Shape := ⟨2, ![2048, 256]⟩
abbrev S512x256 : Shape := ⟨2, ![512, 256]⟩
abbrev S2048x1 : Shape := ⟨2, ![2048, 1]⟩
abbrev S2048 : Shape := ⟨1, ![2048]⟩
abbrev S512 : Shape := ⟨1, ![512]⟩
abbrev S512x1 : Shape := ⟨2, ![512, 1]⟩
abbrev S2048x512 : Shape := ⟨2, ![2048, 512]⟩

abbrev nBuf : Space → Nat
  | .hbm => 58
  | .vmem => 7
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S8192x256, .f32⟩
  | .hbm, ⟨3, _⟩ => ⟨S4096x256, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x256, .f32⟩
  | .hbm, ⟨12, _⟩ => ⟨S4096x256, .f32⟩
  | .hbm, ⟨13, _⟩ => ⟨S4096x256, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x256, .f32⟩
  | .hbm, ⟨22, _⟩ => ⟨S4096x256, .f32⟩
  | .hbm, ⟨23, _⟩ => ⟨S4096x256, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x256, .f32⟩
  | .hbm, ⟨32, _⟩ => ⟨S4096x256, .f32⟩
  | .hbm, ⟨33, _⟩ => ⟨S4096x256, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S4096x256, .f32⟩
  | .hbm, ⟨42, _⟩ => ⟨S4096x256, .f32⟩
  | .hbm, ⟨43, _⟩ => ⟨S4096x256, .f32⟩
  | .hbm, ⟨44, _⟩ => ⟨S_, .f32⟩
  | .hbm, ⟨45, _⟩ => ⟨S4096, .f32⟩
  | .hbm, ⟨46, _⟩ => ⟨S_, .f32⟩
  | .hbm, ⟨47, _⟩ => ⟨S4096, .f32⟩
  | .hbm, ⟨48, _⟩ => ⟨S4096, .f32⟩
  | .hbm, ⟨49, _⟩ => ⟨S8192, .f32⟩
  | .hbm, ⟨50, _⟩ => ⟨S8192x1, .f32⟩
  | .hbm, ⟨51, _⟩ => ⟨S8192, .f32⟩
  | .hbm, ⟨52, _⟩ => ⟨S8192, .f32⟩
  | .hbm, ⟨53, _⟩ => ⟨S8192, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .local _ .vmem, ⟨0, _⟩ => ⟨S2048x256, .f32⟩
  | .local _ .vmem, ⟨1, _⟩ => ⟨S2048x256, .f32⟩
  | .local _ .vmem, ⟨2, _⟩ => ⟨S512x256, .f32⟩
  | .local _ .vmem, ⟨3, _⟩ => ⟨S512x256, .f32⟩
  | .local _ .vmem, ⟨4, _⟩ => ⟨S2048x1, .f32⟩
  | .local _ .vmem, ⟨5, _⟩ => ⟨S2048x1, .f32⟩
  | .local _ .vmem, ⟨6, _⟩ => ⟨S2048x1, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_5 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_6 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_7 : Ref sig .tc := ⟨.hbm, 44, rfl⟩
abbrev main_v34 : Ref sig .tc := ⟨.hbm, 45, rfl⟩
abbrev main_cst_8 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_9 : Ref sig .tc := ⟨.hbm, 54, rfl⟩
abbrev main_v42 : Ref sig .tc := ⟨.hbm, 55, rfl⟩
abbrev main_cst_10 : Ref sig .tc := ⟨.hbm, 56, rfl⟩
abbrev main_v43 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  concatenates_S4096x256_S4096x256_S8192x256_d0 : Shape.Concatenates [S4096x256, S4096x256] S8192x256 0
  reducesTo_S4096x256_S4096_d1 : S4096x256.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  bcast_S_S4096 : S_.BroadcastsInDim S4096 (![] : Fin 0 → Fin S4096.rank)
  concatenates_S4096_S4096_S8192_d0 : Shape.Concatenates [S4096, S4096] S8192 0
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  reduces_S2048x256_S2048 : S2048x256.Reduces [1] S2048
  shapeCasts_S2048_S2048x1 : S2048.ShapeCasts S2048x1
  broadcasts_S2048x1_S2048x256 : S2048x1.Broadcasts S2048x256
  reduces_S512x256_S512 : S512x256.Reduces [1] S512
  shapeCasts_S512_S512x1 : S512.ShapeCasts S512x1
  broadcasts_S512x1_S512x256 : S512x1.Broadcasts S512x256
  bitsLt_bf16_f32 : FTy.bits .bf16 < FTy.bits .f32
  iota_S2048x512_d0_w32 : S2048x512.Iotas .tc 32 [0]
  iota_S2048x512_d1_w32 : S2048x512.Iotas .tc 32 [1]
  reduces_S2048x512_S2048 : S2048x512.Reduces [1] S2048
  shapeCasts_S8192x1_S8192 : S8192x1.ShapeCasts S8192
  reducesTo_S8192_S_d0 : S8192.ReducesTo [0] S_
  dot_S2048x256_S512x256_S2048x512_1_1_0_0_n_n_wf : DotDims.WF S2048x256 S512x256 S2048x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x256.size a
  hwx0_0 : ∀ i : grid0.Coords, EltTy.bits .f32 = 32 ∨ (Rect.block (s := S8192x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S8192x256.size a
  hwx0_1 : ∀ i : grid0.Coords, EltTy.bits .f32 = 32 ∨ (Rect.block (s := S8192x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S8192x1.size a
  hwx0_2 : ∀ i : grid0.Coords, EltTy.bits .f32 = 32 ∨ (Rect.block (s := S8192x1) S2048x1.size (cc0_transform_2 i) (hinb0_2 i)).WholeWords (EltTy.packing .f32)

variable [Facts₀]

def dot_S2048x256_S512x256_S2048x512_1_1_0_0_n_n : DotDims S2048x256 S512x256 S2048x512 where
  lhsContracting := [1]
  rhsContracting := [1]
  lhsNonContracting := [0]
  rhsNonContracting := [0]
  lhsBatch := []
  rhsBatch := []
  wf := dot_S2048x256_S512x256_S2048x512_1_1_0_0_n_n_wf

abbrev win0_0 : Pipeline.Window sig grid0 :=
  Pipeline.Window.ofSpec (Memref.whole main_v0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v38) S2048x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x256 : Shape := ⟨2, ![4096, 256]⟩
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S8192x8192 : Shape := ⟨2, ![8192, 8192]⟩
abbrev S4096 : Shape := ⟨1, ![4096]⟩
abbrev S4096x1 : Shape := ⟨2, ![4096, 1]⟩
abbrev S4096x2 : Shape := ⟨2, ![4096, 2]⟩

abbrev nBuf : Space → Nat
  | .hbm => 94
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S8192x256, .f32⟩
  | .hbm, ⟨3, _⟩ => ⟨S8192x256, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x256, .f32⟩
  | .hbm, ⟨12, _⟩ => ⟨S8192x256, .f32⟩
  | .hbm, ⟨13, _⟩ => ⟨S8192x256, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x256, .f32⟩
  | .hbm, ⟨22, _⟩ => ⟨S8192x256, .f32⟩
  | .hbm, ⟨23, _⟩ => ⟨S8192x8192, .f32⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S4096, .i32⟩
  | .hbm, ⟨28, _⟩ => ⟨S4096, .i32⟩
  | .hbm, ⟨29, _⟩ => ⟨S_, .i32⟩
  | .hbm, ⟨30, _⟩ => ⟨S4096, .i32⟩
  | .hbm, ⟨31, _⟩ => ⟨S4096, .i32⟩
  | .hbm, ⟨32, _⟩ => ⟨S_, .i32⟩
  | .hbm, ⟨33, _⟩ => ⟨S4096, .i32⟩
  | .hbm, ⟨34, _⟩ => ⟨S4096, .i1⟩
  | .hbm, ⟨35, _⟩ => ⟨S_, .i32⟩
  | .hbm, ⟨36, _⟩ => ⟨S4096, .i32⟩
  | .hbm, ⟨37, _⟩ => ⟨S4096, .i32⟩
  | .hbm, ⟨38, _⟩ => ⟨S4096, .i32⟩
  | .hbm, ⟨39, _⟩ => ⟨S_, .i32⟩
  | .hbm, ⟨40, _⟩ => ⟨S4096, .i32⟩
  | .hbm, ⟨41, _⟩ => ⟨S4096, .i1⟩
  | .hbm, ⟨42, _⟩ => ⟨S_, .i32⟩
  | .hbm, ⟨43, _⟩ => ⟨S4096, .i32⟩
  | .hbm, ⟨44, _⟩ => ⟨S4096, .i32⟩
  | .hbm, ⟨45, _⟩ => ⟨S4096, .i32⟩
  | .hbm, ⟨46, _⟩ => ⟨S4096x1, .i32⟩
  | .hbm, ⟨47, _⟩ => ⟨S4096x1, .i32⟩
  | .hbm, ⟨48, _⟩ => ⟨S4096x2, .i32⟩
  | .hbm, ⟨49, _⟩ => ⟨S4096, .f32⟩
  | .hbm, ⟨50, _⟩ => ⟨S4096, .i32⟩
  | .hbm, ⟨51, _⟩ => ⟨S4096, .i32⟩
  | .hbm, ⟨52, _⟩ => ⟨S_, .i32⟩
  | .hbm, ⟨53, _⟩ => ⟨S4096, .i32⟩
  | .hbm, ⟨54, _⟩ => ⟨S4096, .i32⟩
  | .hbm, ⟨55, _⟩ => ⟨S_, .i32⟩
  | .hbm, ⟨56, _⟩ => ⟨S4096, .i32⟩
  | .hbm, ⟨57, _⟩ => ⟨S4096, .i1⟩
  | .hbm, ⟨58, _⟩ => ⟨S_, .i32⟩
  | .hbm, ⟨59, _⟩ => ⟨S4096, .i32⟩
  | .hbm, ⟨60, _⟩ => ⟨S4096, .i32⟩
  | .hbm, ⟨61, _⟩ => ⟨S4096, .i32⟩
  | .hbm, ⟨62, _⟩ => ⟨S_, .i32⟩
  | .hbm, ⟨63, _⟩ => ⟨S4096, .i32⟩
  | .hbm, ⟨64, _⟩ => ⟨S4096, .i1⟩
  | .hbm, ⟨65, _⟩ => ⟨S_, .i32⟩
  | .hbm, ⟨66, _⟩ => ⟨S4096, .i32⟩
  | .hbm, ⟨67, _⟩ => ⟨S4096, .i32⟩
  | .hbm, ⟨68, _⟩ => ⟨S4096, .i32⟩
  | .hbm, ⟨69, _⟩ => ⟨S4096x1, .i32⟩
  | .hbm, ⟨70, _⟩ => ⟨S4096x1, .i32⟩
  | .hbm, ⟨71, _⟩ => ⟨S4096x2, .i32⟩
  | .hbm, ⟨72, _⟩ => ⟨S4096, .f32⟩
  | .hbm, ⟨73, _⟩ => ⟨S8192, .f32⟩
  | .hbm, ⟨74, _⟩ => ⟨S8192x8192, .i32⟩
  | .hbm, ⟨75, _⟩ => ⟨S8192x8192, .i32⟩
  | .hbm, ⟨76, _⟩ => ⟨S_, .i32⟩
  | .hbm, ⟨77, _⟩ => ⟨S8192x8192, .i32⟩
  | .hbm, ⟨78, _⟩ => ⟨S8192x8192, .i32⟩
  | .hbm, ⟨79, _⟩ => ⟨S8192x8192, .i1⟩
  | .hbm, ⟨80, _⟩ => ⟨S8192x8192, .f32⟩
  | .hbm, ⟨81, _⟩ => ⟨S_, .f32⟩
  | .hbm, ⟨82, _⟩ => ⟨S8192x8192, .f32⟩
  | .hbm, ⟨83, _⟩ => ⟨S8192x8192, .f32⟩
  | .hbm, ⟨84, _⟩ => ⟨S8192x8192, .f32⟩
  | .hbm, ⟨85, _⟩ => ⟨S8192x8192, .f32⟩
  | .hbm, ⟨86, _⟩ => ⟨S_, .f32⟩
  | .hbm, ⟨87, _⟩ => ⟨S8192, .f32⟩
  | .hbm, ⟨88, _⟩ => ⟨S8192, .f32⟩
  | .hbm, ⟨89, _⟩ => ⟨S8192, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call1_v0 : Ref sig .tc := ⟨.hbm, 13, rfl⟩
abbrev main_call1_cst : Ref sig .tc := ⟨.hbm, 14, rfl⟩
abbrev main_call1_v1 : Ref sig .tc := ⟨.hbm, 15, rfl⟩
abbrev main_call1_v2 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_call2_v0 : Ref sig .tc := ⟨.hbm, 27, rfl⟩
abbrev main_call2_v1 : Ref sig .tc := ⟨.hbm, 28, rfl⟩
abbrev main_call2_c : Ref sig .tc := ⟨.hbm, 29, rfl⟩
abbrev main_call2_v2 : Ref sig .tc := ⟨.hbm, 30, rfl⟩
abbrev main_call2_v3 : Ref sig .tc := ⟨.hbm, 31, rfl⟩
abbrev main_call2_c_0 : Ref sig .tc := ⟨.hbm, 32, rfl⟩
abbrev main_call2_v4 : Ref sig .tc := ⟨.hbm, 33, rfl⟩
abbrev main_call2_v5 : Ref sig .tc := ⟨.hbm, 34, rfl⟩
abbrev main_call2_c_1 : Ref sig .tc := ⟨.hbm, 35, rfl⟩
abbrev main_call2_v6 : Ref sig .tc := ⟨.hbm, 36, rfl⟩
abbrev main_call2_v7 : Ref sig .tc := ⟨.hbm, 37, rfl⟩
abbrev main_call2_v8 : Ref sig .tc := ⟨.hbm, 38, rfl⟩
abbrev main_call2_c_2 : Ref sig .tc := ⟨.hbm, 39, rfl⟩
abbrev main_call2_v9 : Ref sig .tc := ⟨.hbm, 40, rfl⟩
abbrev main_call2_v10 : Ref sig .tc := ⟨.hbm, 41, rfl⟩
abbrev main_call2_c_3 : Ref sig .tc := ⟨.hbm, 42, rfl⟩
abbrev main_call2_v11 : Ref sig .tc := ⟨.hbm, 43, rfl⟩
abbrev main_call2_v12 : Ref sig .tc := ⟨.hbm, 44, rfl⟩
abbrev main_call2_v13 : Ref sig .tc := ⟨.hbm, 45, rfl⟩
abbrev main_call2_v14 : Ref sig .tc := ⟨.hbm, 46, rfl⟩
abbrev main_call2_v15 : Ref sig .tc := ⟨.hbm, 47, rfl⟩
abbrev main_call2_v16 : Ref sig .tc := ⟨.hbm, 48, rfl⟩
abbrev main_v14 : Ref sig .tc := ⟨.hbm, 49, rfl⟩
abbrev main_call3_v0 : Ref sig .tc := ⟨.hbm, 50, rfl⟩
abbrev main_call3_v1 : Ref sig .tc := ⟨.hbm, 51, rfl⟩
abbrev main_call3_c : Ref sig .tc := ⟨.hbm, 52, rfl⟩
abbrev main_call3_v2 : Ref sig .tc := ⟨.hbm, 53, rfl⟩
abbrev main_call3_v3 : Ref sig .tc := ⟨.hbm, 54, rfl⟩
abbrev main_call3_c_0 : Ref sig .tc := ⟨.hbm, 55, rfl⟩
abbrev main_call3_v4 : Ref sig .tc := ⟨.hbm, 56, rfl⟩
abbrev main_call3_v5 : Ref sig .tc := ⟨.hbm, 57, rfl⟩
abbrev main_call3_c_1 : Ref sig .tc := ⟨.hbm, 58, rfl⟩
abbrev main_call3_v6 : Ref sig .tc := ⟨.hbm, 59, rfl⟩
abbrev main_call3_v7 : Ref sig .tc := ⟨.hbm, 60, rfl⟩
abbrev main_call3_v8 : Ref sig .tc := ⟨.hbm, 61, rfl⟩
abbrev main_call3_c_2 : Ref sig .tc := ⟨.hbm, 62, rfl⟩
abbrev main_call3_v9 : Ref sig .tc := ⟨.hbm, 63, rfl⟩
abbrev main_call3_v10 : Ref sig .tc := ⟨.hbm, 64, rfl⟩
abbrev main_call3_c_3 : Ref sig .tc := ⟨.hbm, 65, rfl⟩
abbrev main_call3_v11 : Ref sig .tc := ⟨.hbm, 66, rfl⟩
abbrev main_call3_v12 : Ref sig .tc := ⟨.hbm, 67, rfl⟩
abbrev main_call3_v13 : Ref sig .tc := ⟨.hbm, 68, rfl⟩
abbrev main_call3_v14 : Ref sig .tc := ⟨.hbm, 69, rfl⟩
abbrev main_call3_v15 : Ref sig .tc := ⟨.hbm, 70, rfl⟩
abbrev main_call3_v16 : Ref sig .tc := ⟨.hbm, 71, rfl⟩
abbrev main_v15 : Ref sig .tc := ⟨.hbm, 72, rfl⟩
abbrev main_v16 : Ref sig .tc := ⟨.hbm, 73, rfl⟩
abbrev main_v17 : Ref sig .tc := ⟨.hbm, 74, rfl⟩
abbrev main_v18 : Ref sig .tc := ⟨.hbm, 75, rfl⟩
abbrev main_c : Ref sig .tc := ⟨.hbm, 76, rfl⟩
abbrev main_v19 : Ref sig .tc := ⟨.hbm, 77, rfl⟩
abbrev main_v20 : Ref sig .tc := ⟨.hbm, 78, rfl⟩
abbrev main_v21 : Ref sig .tc := ⟨.hbm, 79, rfl⟩
abbrev main_v22 : Ref sig .tc := ⟨.hbm, 80, rfl⟩
abbrev main_cst_2 : Ref sig .tc := ⟨.hbm, 81, rfl⟩
abbrev main_v23 : Ref sig .tc := ⟨.hbm, 82, rfl⟩
abbrev main_v24 : Ref sig .tc := ⟨.hbm, 83, rfl⟩
abbrev main_v25 : Ref sig .tc := ⟨.hbm, 84, rfl⟩
abbrev main_v26 : Ref sig .tc := ⟨.hbm, 85, rfl⟩
abbrev main_cst_3 : Ref sig .tc := ⟨.hbm, 86, rfl⟩
abbrev main_v27 : Ref sig .tc := ⟨.hbm, 87, rfl⟩
abbrev main_v28 : Ref sig .tc := ⟨.hbm, 88, rfl⟩
abbrev main_v29 : Ref sig .tc := ⟨.hbm, 89, rfl⟩
abbrev main_cst_4 : Ref sig .tc := ⟨.hbm, 90, rfl⟩
abbrev main_v30 : Ref sig .tc := ⟨.hbm, 91, rfl⟩
abbrev main_cst_5 : Ref sig .tc := ⟨.hbm, 92, rfl⟩
abbrev main_v31 : Ref sig .tc := ⟨.hbm, 93, rfl⟩

abbrev nD : Nat := 1
abbrev τ : Topo := Topo.v7x

variable {F : FTy → Type} [FloatOps F]

class Facts₀ : Prop where
  concatenates_S4096x256_S4096x256_S8192x256_d0 : Shape.Concatenates [S4096x256, S4096x256] S8192x256 0
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  bcast_S_S8192x8192 : S_.BroadcastsInDim S8192x8192 (![] : Fin 0 → Fin S8192x8192.rank)
  bcast_S_S4096 : S_.BroadcastsInDim S4096 (![] : Fin 0 → Fin S4096.rank)
  bcast_S4096_S4096x1_0 : S4096.BroadcastsInDim S4096x1 (![0] : Fin 1 → Fin S4096x1.rank)
  concatenates_S4096x1_S4096x1_S4096x2_d1 : Shape.Concatenates [S4096x1, S4096x1] S4096x2 1
  concatenates_S4096_S4096_S8192_d0 : Shape.Concatenates [S4096, S4096] S8192 0
  reducesTo_S8192x8192_S8192_d1 : S8192x8192.ReducesTo [1] S8192
  reducesTo_S8192_S_d0 : S8192.ReducesTo [0] S_
  dot_S8192x256_S8192x256_S8192x8192_1_1_0_0_n_n_wf : DotDims.WF S8192x256 S8192x256 S8192x8192 [1] [1] [0] [0] [] []
  gather_S8192x8192_S4096x2_S4096_n_01_n_n_01_1_11_wf : GatherDims.WF S8192x8192 S4096x2 S4096 [] [0, 1] [] [0, 1] [] 1 ![1, 1]

variable [Facts₀]

def dot_S8192x256_S8192x256_S8192x8192_1_1_0_0_n_n : DotDims S8192x256 S8192x256 S8192x8192 where
  lhsContracting := [1]
  rhsContracting := [1]
  lhsNonContracting := [0]
  rhsNonContracting := [0]
  lhsBatch := []
  rhsBatch := []
  wf := dot_S8192x256_S8192x256_S8192x8192_1_1_0_0_n_n_wf
def gather_S8192x8192_S4096x2_S4096_n_01_n_n_01_1_11 : GatherDims S8192x8192 S4096x2 S4096 where
  offsetDims := []
  collapsedSliceDims := [0, 1]
  operandBatchingDims := []
  startIndicesBatchingDims := []
  startIndexMap := [0, 1]
  indexVectorDim := 1
  sliceSizes := ![1, 1]
  wf := gather_S8192x8192_S4096x2_S4096_n_01_n_n_01_1_11_wf

class Facts : Prop extends Facts₀ where

variable [Facts]
-- ==== Proof.Kernel.Kit.lean ====
/-
  The region of the contrastive-loss program as the launch sees it.

  @main is three stretches: 48 host operations (the stacked rows z, and the positive pair's term from the two
  batches normalised row by row), the one region, and 7 host operations (a reshape of the region's result, the
  logarithm, the difference with the positive term, the sum and the mean). The region walks a 4 × 16 grid, point
  t = 16·i + j: window 0 is rows 2048·i … of z, window 1 rows 512·j … of the SAME array z, window 2 rows 2048·i …
  of the result column, written back when j = 15. Between points the body keeps a column of 2048 partial sums in
  a scratch buffer: cleared when j = 0, added to at every point, copied into window 2's buffer each time.

  Here: the memory as the region finds it, @main around the region, the three facts the lines after the region owe
  (they touch unscoped TensorCore buffers only, allocate nothing, write no array of the region), each window's
  block at a point, the one branch condition of the body in closed form over the grid, and the invariant the
  launch hands the body (the scratch at some contents, the generator register at some state).
-/
import proofs.«159962_j63264868270602_1_alg».proof.Proof.Gen.Kernel.Launch
import proofs.«159962_j63264868270602_1_alg».proof.Proof.Gen.Kernel.Skeleton
import proofs.«159962_j63264868270602_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s TensorCore buffers when the region is entered: the launch memory after the 48 host operations. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

/-- @main is the host operations before the region, the region, and the host operations after it; so a run of
    @main reduces to a run of the region continued by the later operations, from the memory `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (show List.Forall _ [hostOps0] from hostOps0_sub)
    (show List.Forall _ [hostOps0] from hostOps0_fresh) main_chain

/-- The operations after the region touch TensorCore buffers only. -/
theorem tail_sub : ∀ ops ∈ ([hostOps1] : List (List (HloOp τ sig (Elt F)))), ∀ op ∈ ops,
    op.bufs ⊆ StableHlo.tcRefs τ sig := by
  intro ops hops op hop
  simp only [List.mem_cons, List.mem_nil_iff, or_false] at hops
  rcases hops with rfl
  exact (List.forall_iff_forall_mem.mp hostOps1_sub) op hop

/-- They allocate nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- And write neither z nor the region's result: each writes its own result buffer only. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl
  all_goals intro w; fin_cases w <;> simp only [StableHlo.nullary_writes, StableHlo.unary_writes, StableHlo.binary_writes, StableHlo.reshape_writes, Finset.mem_singleton] <;> exact StableHlo.devRef_ne_of_ne (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or carried over from the
    point before (window 0 is fetched only when its row tile changes), for any proof data whose array is `V`'s and
    whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's one branch -/

/-- The condition of the body's branch, from the grid coordinates: the column tile is the first. -/
abbrev firstTile (i : grid0.Coords) : Prop := (Scalar.cmpi .ne (Scalar.extui (Scalar.cmpi .eq (BitVec.ofNat 32 (i 1).val) 0#32)) 0#32) = 1#1
/-- It holds at the points 0, 16, 32, 48. -/
theorem firstTile_iff : ∀ t : Fin cfg0.N, firstTile (grid0.coords t) ↔ t.val % 16 = 0 :=
  (by decide +kernel : ∀ t : Fin grid0.N, firstTile (grid0.coords t) ↔ t.val % 16 = 0)

/-- No window is idle at any point: the body loads both inputs and stores the result column every time. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel

/-! ## The memrefs the body is called with -/

abbrev ms0 (t : Fin cfg0.N) : Memref sig .tc .vmem S2048x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x1 .f32 := win0_2.stage (cfg0.slots t 2)
abbrev hs2 (t : Fin cfg0.N) : (ms2 t).IsWhole := hstage0_2 ((cfg0.slots t 2).cast nbuf0_2)
/-- The column of partial sums: a whole scoped buffer of the kernel's own. -/
abbrev accM : Memref sig .tc .vmem S2048x1 .f32 := Memref.whole cc0_scratch0

/-- What the launch hands the body before the first point and takes back after the last: the scratch at some
    contents and the generator register at some state. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.Kernel.Region

end
-- ==== Proof.Kernel.Runs.lean ====
/-
  The body of the region run once, in each of its two cases.

  At a point the body is handed its row block `x0` (2048 rows of z), its column block `x1` (512 rows of z), the
  result column's staging buffer and the scratch column. When the column tile is the first it clears the scratch;
  in either case it then adds this point's 2048 partial sums to the scratch and copies the scratch into the result
  buffer. So both buffers end with one store each over their whole extent; the stores, as pieces, are what the run
  finds, and the two input buffers are handed back as they were.
-/
import proofs.«159962_j63264868270602_1_alg».proof.Proof.Kernel.Kit

set_option maxRecDepth 16384

noncomputable section

namespace Cert.Kernel.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- THE FIRST COLUMN TILE. From the inputs at `x0`, `x1` and the result buffer and the scratch at anything, the body runs
    to the inputs as they were and the two columns with their pieces written. -/
noncomputable def runFirst (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S2048x1 .f32) (harg4 : arg4.IsWhole) (arg5 : Memref sig .tc .vmem S2048x1 .f32) (harg5 : arg5.IsWhole) (hc : firstTile i)
    (x0 : Vec F S2048x256 .f32) (x1 : Vec F S512x256 .f32) :
    Σ' (LO : List (View.Piece (Elt F) S2048x1 .f32)), { LS : List (View.Piece (Elt F) S2048x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc0_ntxent_kernel i arg2 harg2 arg3 harg3 arg4 harg4 arg5 harg5) K } := by
  refine ⟨?_, ?_, fun E K => ?run⟩
  case run =>
    simp only [cc0_ntxent_kernel_eq_skeleton]; unfold cc0_ntxent_kernel_skel
    simp only [k0_part1_eq_skeleton]
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact H3

set_option maxHeartbeats 1000000 in
/-- A LATER COLUMN TILE. The same, from the scratch at `xs`, what the point before left in it. -/
noncomputable def runLater (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S2048x1 .f32) (harg4 : arg4.IsWhole) (arg5 : Memref sig .tc .vmem S2048x1 .f32) (harg5 : arg5.IsWhole) (hc : ¬firstTile i)
    (x0 : Vec F S2048x256 .f32) (x1 : Vec F S512x256 .f32) (xs : Vec F S2048x1 .f32) :
    Σ' (LO : List (View.Piece (Elt F) S2048x1 .f32)), { LS : List (View.Piece (Elt F) S2048x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc0_ntxent_kernel i arg2 harg2 arg3 harg3 arg4 harg4 arg5 harg5) K } := by
  refine ⟨?_, ?_, fun E K => ?run⟩
  case run =>
    simp only [cc0_ntxent_kernel_eq_skeleton]; unfold cc0_ntxent_kernel_skel
    simp only [k0_part1_eq_skeleton]
    unfold owns
    iintro ⟨⟨%f0, %hf0, H0⟩, ⟨%f1, %hf1, H1⟩, ⟨%d2, %f2, -, H2⟩, ⟨%f3, %hf3, H3⟩, Hk⟩
    obtain rfl := harg2.eq_unread hf0; obtain rfl := harg3.eq_unread hf1; obtain rfl := harg5.eq_unread hf3
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact H3

end Cert.Kernel.Region

end
-- ==== Proof.Kernel.Frame.lean ====
/-
  The region's proof data and its body, point by point.

  After the body has run at point t = 16·i + j, the result column's staging buffer and the scratch column hold the
  same 2048 numbers: this row tile's partial sums over the column tiles 0 … j. They are obtained by recursion on
  the point: at j = 0 from the cleared column, otherwise from what the point before left in the scratch. The two
  input windows' buffers hold their blocks of z at every point and are handed back untouched. The invariant
  between points is the scratch at what the point before left (before the first point: at anything). Both input
  windows read one array; the first holds it at the left half of the full share, the second at the right half.
-/
import proofs.«159962_j63264868270602_1_alg».proof.Proof.Kernel.Runs

set_option maxRecDepth 16384

noncomputable section

namespace Cert.Kernel.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the two columns -/

/-- One staging buffer of the result column, and the scratch, as views: what a column holds is stated through one
    (the choice of buffer does not matter once the stores cover the column). -/
abbrev VO : View sig .tc .vmem S2048x1 .f32 := (Memref.whole cc0_stg2_0 : Memref sig .tc .vmem S2048x1 .f32).view
abbrev VS : View sig .tc .vmem S2048x1 .f32 := accM.view

/-- In either case the one store into each column covers it. -/
theorem coverFirstO (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S2048x1 .f32) (harg4 : arg4.IsWhole) (arg5 : Memref sig .tc .vmem S2048x1 .f32) (harg5 : arg5.IsWhole) (hc : firstTile i) (x0 : Vec F S2048x256 .f32) (x1 : Vec F S512x256 .f32) (y : S2048x1.Idx) :
    ∃ pc ∈ (runFirst c i arg2 harg2 arg3 harg3 arg4 harg4 arg5 harg5 hc x0 x1).1, y ∈ pc.1.set :=
  View.cover_of_tiledL (runFirst c i arg2 harg2 arg3 harg3 arg4 harg4 arg5 harg5 hc x0 x1).1 S2048x1.size (by sl_kernel_rfl) y
theorem coverFirstS (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S2048x1 .f32) (harg4 : arg4.IsWhole) (arg5 : Memref sig .tc .vmem S2048x1 .f32) (harg5 : arg5.IsWhole) (hc : firstTile i) (x0 : Vec F S2048x256 .f32) (x1 : Vec F S512x256 .f32) (y : S2048x1.Idx) :
    ∃ pc ∈ (runFirst c i arg2 harg2 arg3 harg3 arg4 harg4 arg5 harg5 hc x0 x1).2.1, y ∈ pc.1.set :=
  View.cover_of_tiledL (runFirst c i arg2 harg2 arg3 harg3 arg4 harg4 arg5 harg5 hc x0 x1).2.1 S2048x1.size (by sl_kernel_rfl) y
theorem coverLaterO (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S2048x1 .f32) (harg4 : arg4.IsWhole) (arg5 : Memref sig .tc .vmem S2048x1 .f32) (harg5 : arg5.IsWhole) (hc : ¬firstTile i) (x0 : Vec F S2048x256 .f32) (x1 : Vec F S512x256 .f32) (xs : Vec F S2048x1 .f32) (y : S2048x1.Idx) :
    ∃ pc ∈ (runLater c i arg2 harg2 arg3 harg3 arg4 harg4 arg5 harg5 hc x0 x1 xs).1, y ∈ pc.1.set :=
  View.cover_of_tiledL (runLater c i arg2 harg2 arg3 harg3 arg4 harg4 arg5 harg5 hc x0 x1 xs).1 S2048x1.size (by sl_kernel_rfl) y
theorem coverLaterS (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S2048x1 .f32) (harg4 : arg4.IsWhole) (arg5 : Memref sig .tc .vmem S2048x1 .f32) (harg5 : arg5.IsWhole) (hc : ¬firstTile i) (x0 : Vec F S2048x256 .f32) (x1 : Vec F S512x256 .f32) (xs : Vec F S2048x1 .f32) (y : S2048x1.Idx) :
    ∃ pc ∈ (runLater c i arg2 harg2 arg3 harg3 arg4 harg4 arg5 harg5 hc x0 x1 xs).2.1, y ∈ pc.1.set :=
  View.cover_of_tiledL (runLater c i arg2 harg2 arg3 harg3 arg4 harg4 arg5 harg5 hc x0 x1 xs).2.1 S2048x1.size (by sl_kernel_rfl) y

/-- The result column and the scratch after the body at a first column tile: the stores read back. -/
def outFirst (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S2048x1 .f32) (harg4 : arg4.IsWhole) (arg5 : Memref sig .tc .vmem S2048x1 .f32) (harg5 : arg5.IsWhole) (hc : firstTile i) (x0 : Vec F S2048x256 .f32) (x1 : Vec F S512x256 .f32) : Vec F S2048x1 .f32 :=
  VO.read (Elt F) (VO.writes (Elt F) VO.junk (runFirst c i arg2 harg2 arg3 harg3 arg4 harg4 arg5 harg5 hc x0 x1).1)
def accFirst (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S2048x1 .f32) (harg4 : arg4.IsWhole) (arg5 : Memref sig .tc .vmem S2048x1 .f32) (harg5 : arg5.IsWhole) (hc : firstTile i) (x0 : Vec F S2048x256 .f32) (x1 : Vec F S512x256 .f32) : Vec F S2048x1 .f32 :=
  VS.read (Elt F) (VS.writes (Elt F) VS.junk (runFirst c i arg2 harg2 arg3 harg3 arg4 harg4 arg5 harg5 hc x0 x1).2.1)
/-- And at a later one, over what the point before left in the scratch. -/
def outLater (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S2048x1 .f32) (harg4 : arg4.IsWhole) (arg5 : Memref sig .tc .vmem S2048x1 .f32) (harg5 : arg5.IsWhole) (hc : ¬firstTile i) (x0 : Vec F S2048x256 .f32) (x1 : Vec F S512x256 .f32) (xs : Vec F S2048x1 .f32) : Vec F S2048x1 .f32 :=
  VO.read (Elt F) (VO.writes (Elt F) VO.junk (runLater c i arg2 harg2 arg3 harg3 arg4 harg4 arg5 harg5 hc x0 x1 xs).1)
def accLater (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S2048x1 .f32) (harg4 : arg4.IsWhole) (arg5 : Memref sig .tc .vmem S2048x1 .f32) (harg5 : arg5.IsWhole) (hc : ¬firstTile i) (x0 : Vec F S2048x256 .f32) (x1 : Vec F S512x256 .f32) (xs : Vec F S2048x1 .f32) : Vec F S2048x1 .f32 :=
  VS.read (Elt F) (VS.writes (Elt F) VS.junk (runLater c i arg2 harg2 arg3 harg3 arg4 harg4 arg5 harg5 hc x0 x1 xs).2.1)

/-! ## The two columns after each point -/

/-- THE ACCUMULATION. The result column's buffer and the scratch after the body at position `n`: at a first column
    tile from nothing, otherwise from what position `n - 1` left in the scratch. -/
def colsAt (c : Dev nD) : (n : ℕ) → n < cfg0.N → Vec F S2048x1 .f32 × Vec F S2048x1 .f32
  | 0, hn => (outFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) accM (Memref.isWhole_whole _) ((firstTile_iff ⟨0, hn⟩).mpr (Nat.zero_mod _)) (iblk m c 0 ⟨0, hn⟩) (iblk m c 1 ⟨0, hn⟩),
              accFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) accM (Memref.isWhole_whole _) ((firstTile_iff ⟨0, hn⟩).mpr (Nat.zero_mod _)) (iblk m c 0 ⟨0, hn⟩) (iblk m c 1 ⟨0, hn⟩))
  | n + 1, hn =>
    if h : (n + 1) % 16 = 0 then
      (outFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) accM (Memref.isWhole_whole _) ((firstTile_iff ⟨n + 1, hn⟩).mpr h) (iblk m c 0 ⟨n + 1, hn⟩) (iblk m c 1 ⟨n + 1, hn⟩),
       accFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) accM (Memref.isWhole_whole _) ((firstTile_iff ⟨n + 1, hn⟩).mpr h) (iblk m c 0 ⟨n + 1, hn⟩) (iblk m c 1 ⟨n + 1, hn⟩))
    else
      (outLater c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) accM (Memref.isWhole_whole _) (fun hh => h ((firstTile_iff ⟨n + 1, hn⟩).mp hh)) (iblk m c 0 ⟨n + 1, hn⟩) (iblk m c 1 ⟨n + 1, hn⟩) (colsAt c n (Nat.lt_of_succ_lt hn)).2,
       accLater c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) accM (Memref.isWhole_whole _) (fun hh => h ((firstTile_iff ⟨n + 1, hn⟩).mp hh)) (iblk m c 0 ⟨n + 1, hn⟩) (iblk m c 1 ⟨n + 1, hn⟩) (colsAt c n (Nat.lt_of_succ_lt hn)).2)

/-- `colsAt` at a first column tile. -/
theorem colsAt_first (c : Dev nD) (t : Fin cfg0.N) (h : t.val % 16 = 0) :
    colsAt m c t.val t.isLt = (outFirst c (grid0.coords t) (ms0 t) (hs0 t) (ms1 t) (hs1 t) (ms2 t) (hs2 t) accM (Memref.isWhole_whole _) ((firstTile_iff t).mpr h) (iblk m c 0 t) (iblk m c 1 t),
                               accFirst c (grid0.coords t) (ms0 t) (hs0 t) (ms1 t) (hs1 t) (ms2 t) (hs2 t) accM (Memref.isWhole_whole _) ((firstTile_iff t).mpr h) (iblk m c 0 t) (iblk m c 1 t)) := by
  obtain ⟨n, hn⟩ := t
  cases n with
  | zero => exact rfl
  | succ n => exact (dif_pos h).trans rfl

/-- `colsAt` at a later column tile: over what the point before left. -/
theorem colsAt_later (c : Dev nD) (t : Fin cfg0.N) (h : ¬t.val % 16 = 0) :
    colsAt m c t.val t.isLt = (outLater c (grid0.coords t) (ms0 t) (hs0 t) (ms1 t) (hs1 t) (ms2 t) (hs2 t) accM (Memref.isWhole_whole _) (fun hh => h ((firstTile_iff t).mp hh)) (iblk m c 0 t) (iblk m c 1 t) (colsAt m c (t.val - 1) (Nat.lt_of_le_of_lt (Nat.sub_le _ _) t.isLt)).2,
                               accLater c (grid0.coords t) (ms0 t) (hs0 t) (ms1 t) (hs1 t) (ms2 t) (hs2 t) accM (Memref.isWhole_whole _) (fun hh => h ((firstTile_iff t).mp hh)) (iblk m c 0 t) (iblk m c 1 t) (colsAt m c (t.val - 1) (Nat.lt_of_le_of_lt (Nat.sub_le _ _) t.isLt)).2) := by
  obtain ⟨n, hn⟩ := t
  cases n with
  | zero => exact (by exfalso; (try dsimp only at h); exact absurd (Nat.zero_mod _) h)
  | succ n => exact (dif_neg h).trans rfl

/-! ## The invariant between points -/

/-- The scoped buffer that is no staging buffer is the scratch column, whole, at some contents. -/
theorem scopedRest_eq (c : Dev nD) :
    (Pipeline.scopedRest (Ix := Unit) (Name := ℕ) (U := UR sig nD τ) (Lvl := ℕ) (Val := Elt F) spec0 c : sProp 𝕄)
      = iprop(∃ d, owns (c : Thread nD τ) accM fullShare d) := by
  rw [scopedRest0_eq]; simp only [accM, owns_whole]; try rfl

/-- Before position `n`: the scratch at anything before the first point, then at what position `n - 1` left. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => owns (c : Thread nD τ) accM fullShare ((colsAt m c n hn).2)

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = owns (c : Thread nD τ) accM fullShare ((colsAt m c n hn).2) := rfl

theorem PhiS_pos (c : Dev nD) (n : ℕ) (h : n ≤ cfg0.N) (hz : n ≠ 0) :
    PhiS m c n h = owns (c : Thread nD τ) accM fullShare ((colsAt m c (n - 1) (by omega)).2) := by
  cases n with
  | zero => exact absurd rfl hz
  | succ n => rfl

/-! ## The proof data -/

/-- The proof data of the region on core `c`: the arrays as the region finds them; after the body each input's buffer
    at its block and the result column's at `colsAt`; the invariant `PhiS`; nothing owed; z held half and half by
    the two windows that read it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (colsAt m c t.val t.isLt).1
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem q_0 (c : Dev nD) : (dats m 0 c).q 0 = fullShare.left := by dsimp only [dats]
theorem q_1 (c : Dev nD) : (dats m 0 c).q 1 = fullShare.right := by dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = (colsAt m c t.val t.isLt).1 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point. The inputs' buffers hold their blocks; the grid says which case the point is in; the
    invariant hands the body the scratch (at anything at a first column tile, at what the point before left
    otherwise) and takes it back at this point's contents; the result column's buffer, whatever it held, ends at this
    point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after_0]
  rw [show (dats m 0 c).leavesExact 1 t = owns (c : Thread nD τ) (ms1 t) fullShare ((dats m 0 c).after 1 t) from by
    unfold Dat.leavesExact; rw [live1 t], after_1]
  rw [show (dats m 0 c).leavesExact 2 t = owns (c : Thread nD τ) (ms2 t) fullShare ((dats m 0 c).after 2 t) from by
    unfold Dat.leavesExact; rw [live2 t], after_2]
  by_cases h0 : t.val % 16 = 0
  · rw [colsAt_first m c t h0]
    unfold outFirst accFirst; (try dsimp only)
    have hS : (dats m 0 c).Φ t.castSucc ⊢ (iprop(∃ d, owns (c : Thread nD τ) accM fullShare d) : sProp 𝕄) := by
      rw [PhiS_castSucc m c t]
      by_cases hz : t.val = 0
      · rw [PhiS_zero m c _ _ hz, scopedRest_eq]; try exact Idealize.SL.BI.Entails.refl _
      · rw [PhiS_pos m c _ _ hz]; iintro HS; iexists _; iexact HS
    iintro ⟨HS, Ho, ⟨%d0, H0⟩, ⟨%d1, H1⟩, ⟨%d2, H2⟩⟩
    iapply ((runFirst c (grid0.coords t) _ _ _ _ _ _ _ _ ((firstTile_iff t).mpr h0) (iblk m c 0 t) (iblk m c 1 t)).2.2 Set.univ _)
    isplitl [H0]; · iexact H0
    isplitl [H1]; · iexact H1
    isplitl [H2]; · iexists _; iexact H2
    isplitl [HS]; · iapply hS; iexact HS
    iintro ⟨H0, H1, ⟨%e2, H2⟩, ⟨%es, HS⟩⟩
    isplitl [HS]
    · unfold owns; iexists _; isplitr
      swap; · iexact HS
      ipureintro; exact View.read_writes_of_cover _ _ _ _ _ (coverFirstS c _ _ _ _ _ _ _ _ _ _ _ _)
    isplitl [Ho]; · iexact Ho
    isplitl [H0]; · iexact H0
    isplitl [H1]; · iexact H1
    unfold owns; iexists _; isplitr
    swap; · iexact H2
    ipureintro; exact View.read_writes_of_cover _ _ _ _ _ (coverFirstO c _ _ _ _ _ _ _ _ _ _ _ _)
  · rw [colsAt_later m c t h0]
    unfold outLater accLater; (try dsimp only)
    have hz : t.val ≠ 0 := fun hz => h0 (by rw [hz])
    rw [PhiS_castSucc m c t, PhiS_pos m c _ _ hz]
    iintro ⟨HS, Ho, ⟨%d0, H0⟩, ⟨%d1, H1⟩, ⟨%d2, H2⟩⟩
    iapply ((runLater c (grid0.coords t) _ _ _ _ _ _ _ _ (fun hh => h0 ((firstTile_iff t).mp hh)) (iblk m c 0 t) (iblk m c 1 t) _).2.2 Set.univ _)
    isplitl [H0]; · iexact H0
    isplitl [H1]; · iexact H1
    isplitl [H2]; · iexists _; iexact H2
    isplitl [HS]; · iexact HS
    iintro ⟨H0, H1, ⟨%e2, H2⟩, ⟨%es, HS⟩⟩
    isplitl [HS]
    · unfold owns; iexists _; isplitr
      swap; · iexact HS
      ipureintro; exact View.read_writes_of_cover _ _ _ _ _ (coverLaterS c _ _ _ _ _ _ _ _ _ _ _ _ _)
    isplitl [Ho]; · iexact Ho
    isplitl [H0]; · iexact H0
    isplitl [H1]; · iexact H1
    unfold owns; iexists _; isplitr
    swap; · iexact H2
    ipureintro; exact View.read_writes_of_cover _ _ _ _ _ (coverLaterO c _ _ _ _ _ _ _ _ _ _ _ _ _)

/-- The body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) :
    (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the scratch back, its contents forgotten. -/
theorem hout (c : Dev nD) :
    (dats m 0 c).Φ (Fin.last cfg0.N) ⊢ (Pipeline.scopedRest (Ix := Unit) (Name := ℕ) (U := UR sig nD τ) (Lvl := ℕ) (Val := Elt F) spec0 c : sProp 𝕄) := by
  have hN : (Fin.last cfg0.N).val ≠ 0 := by rw [Fin.val_last]; have : cfg0.N = 64 := N_0; omega
  rw [show (dats m 0 c).Φ (Fin.last cfg0.N) = PhiS m c (Fin.last cfg0.N).val (Nat.le_of_lt_succ (Fin.last cfg0.N).isLt) from rfl, PhiS_pos m c _ _ hN, scopedRest_eq]
  iintro HS; iexists _; iexact HS

end Cert.Kernel.Region

end
-- ==== Proof.Kernel.Shares.lean ====
/-
  The shares of the region's arrays.

  The region's two input windows read ONE array: at a grid point window 0's block is rows 2048·i … and window 1's
  rows 512·j … of the same stacked matrix z, and each window's array is the whole of z; window 2's array is the whole
  result column. The launch hands the pipeline the DISTINCT buffers behind the
  windows' arrays, each whole at the full share; the pipeline's proof data holds one points-to PER WINDOW, an input
  window's at the share the proof data names for it, the output window's at the full share. A buffer's full share
  is its left half and its right half, so z's buffer at the full share is window 0's points-to at the left half and
  window 1's at the right half, as long as both windows are said to hold what the buffer holds; the result's buffer
  is window 2's points-to as it stands. Read in the other direction, the three windows' points-tos at the region's
  exit join to the two buffers whole.
-/
import proofs.«159962_j63264868270602_1_alg».proof.Proof.Kernel.Kit
import Idealize.ShloMosaic.Rules.PointsTo
import Idealize.SL.RA.TreeShare
import Idealize.SL.ProofMode.BigOp

set_option maxRecDepth 16384

noncomputable section

namespace Cert.Kernel.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The three windows sit on two buffers: z (windows 0 and 1) and the result column (window 2). -/
theorem arrRefs_eq : Finset.univ.image (Pipeline.arrRef spec0) = {main_v0, main_v38} := by decide

/-- The buffer behind z at the full share is its two windows' halves, and the result's buffer its window's: the
    buffers behind the arrays at contents `W` are the proof data's arrays at contents `G`, when `G` is `W` window by
    window. Window 0 holds z at the left half of the full share and window 1 at the right half (`hq0`, `hq1`);
    window 2, an output, holds the result column at the full share whatever the proof data says. -/
theorem deal {c : Dev nD} (dat : Dat τ (Elt F) Unit ℕ (UR sig nD τ) ℕ cfg0 c)
    (hq0 : dat.q 0 = fullShare.left) (hq1 : dat.q 1 = fullShare.right)
    (W : (b : Ref sig .tc) → Buf (Elt F) ((c.tc : Thread nD τ).loc b))
    (G : (w : Fin cfg0.W) → Buf (Elt F) ((cfg0.win w).arr.view.loc (c.tc : Thread nD τ)))
    (hG : ∀ w, G w = W (Pipeline.arrRef spec0 w)) :
    (Pipeline.arrBufs spec0 c W : sProp 𝕄) ⊣⊢ dat.arrays G := by
  -- each window's share: the two inputs' are the proof data's, the output's is the full share
  have hs0 : dat.share 0 = fullShare.left := (if_neg (by decide)).trans hq0
  have hs1 : dat.share 1 = fullShare.right := (if_neg (by decide)).trans hq1
  have hs2 : dat.share 2 = fullShare := if_pos (by decide)
  -- each window's points-to, over its buffer: the array is the whole buffer, so the element set is every index
  have e0 : ((cfg0.win 0).arr.view.loc (c.tc : Thread nD τ) ↦[(cfg0.win 0).arr.view.set]{dat.share 0} G 0 : sProp 𝕄)
      = ((c.tc : Thread nD τ).loc main_v0 ↦{fullShare.left} W main_v0) := by
    rw [hs0, hG 0, show (cfg0.win 0).arr.view.set = Finset.univ from (arr_whole0 0).set_eq_univ]
  have e1 : ((cfg0.win 1).arr.view.loc (c.tc : Thread nD τ) ↦[(cfg0.win 1).arr.view.set]{dat.share 1} G 1 : sProp 𝕄)
      = ((c.tc : Thread nD τ).loc main_v0 ↦{fullShare.right} W main_v0) := by
    rw [hs1, hG 1, show (cfg0.win 1).arr.view.set = Finset.univ from (arr_whole0 1).set_eq_univ]
  have e2 : ((cfg0.win 2).arr.view.loc (c.tc : Thread nD τ) ↦[(cfg0.win 2).arr.view.set]{dat.share 2} G 2 : sProp 𝕄)
      = ((c.tc : Thread nD τ).loc main_v38 ↦{fullShare} W main_v38) := by
    rw [hs2, hG 2, show (cfg0.win 2).arr.view.set = Finset.univ from (arr_whole0 2).set_eq_univ]
  -- two buffers on the left, three windows on the right
  unfold Pipeline.arrBufs Dat.arrays
  rw [arrRefs_eq, bigSep_W0, bigSep_insert (by decide), bigSep_singleton, e0, e1, e2]
  show iprop(((c.tc : Thread nD τ).loc main_v0 ↦{fullShare} W main_v0) ∗ ((c.tc : Thread nD τ).loc main_v38 ↦{fullShare} W main_v38))
    ⊣⊢ iprop(((c.tc : Thread nD τ).loc main_v0 ↦{fullShare.left} W main_v0) ∗ ((c.tc : Thread nD τ).loc main_v0 ↦{fullShare.right} W main_v0)
      ∗ ((c.tc : Thread nD τ).loc main_v38 ↦{fullShare} W main_v38))
  constructor
  · -- z's full share splits into its halves; the result column passes through
    iintro ⟨Hz, Hr⟩
    ihave Hz := (pointsTo_share (PosShare.mem_left_op_right fullShare)).1 $$ Hz
    icases Hz with ⟨Hz₁, Hz₂⟩
    isplitl [Hz₁]; · iexact Hz₁
    isplitl [Hz₂] <;> iassumption
  · -- the halves of z join to its full share
    iintro ⟨Hz₁, Hz₂, Hr⟩
    isplitl [Hz₁ Hz₂]
    · iapply (pointsTo_share (PosShare.mem_left_op_right fullShare)).2
      isplitl [Hz₁] <;> iassumption
    · iexact Hr

/-- Dealing: the buffers behind the arrays, each whole, make the proof data's arrays at the same contents. -/
theorem deal_split {c : Dev nD} (dat : Dat τ (Elt F) Unit ℕ (UR sig nD τ) ℕ cfg0 c)
    (hq0 : dat.q 0 = fullShare.left) (hq1 : dat.q 1 = fullShare.right)
    (W : (b : Ref sig .tc) → Buf (Elt F) ((c.tc : Thread nD τ).loc b))
    (G : (w : Fin cfg0.W) → Buf (Elt F) ((cfg0.win w).arr.view.loc (c.tc : Thread nD τ)))
    (hG : ∀ w, G w = W (Pipeline.arrRef spec0 w)) :
    (Pipeline.arrBufs spec0 c W : sProp 𝕄) ⊢ dat.arrays G :=
  (deal dat hq0 hq1 W G hG).1

/-- Gathering: the proof data's arrays give back the buffers behind them, each whole, at the same contents. -/
theorem deal_join {c : Dev nD} (dat : Dat τ (Elt F) Unit ℕ (UR sig nD τ) ℕ cfg0 c)
    (hq0 : dat.q 0 = fullShare.left) (hq1 : dat.q 1 = fullShare.right)
    (W : (b : Ref sig .tc) → Buf (Elt F) ((c.tc : Thread nD τ).loc b))
    (G : (w : Fin cfg0.W) → Buf (Elt F) ((cfg0.win w).arr.view.loc (c.tc : Thread nD τ)))
    (hG : ∀ w, G w = W (Pipeline.arrRef spec0 w)) :
    (dat.arrays G : sProp 𝕄) ⊢ Pipeline.arrBufs spec0 c W :=
  (deal dat hq0 hq1 W G hG).2

end Cert.Kernel.Region

end
-- ==== Proof.LibSharedTail.lean ====
import Idealize.ShloMosaic.Lib.Pipeline.FrameSuffix

noncomputable section

/-! # The frame run of a one-region pipeline whose windows may share an array, continued by host lines

A kernel handed one array through several input windows holds that array once; the windows on it hold it at shares
that compose to the whole. When @main goes on after the region with lines of host operations, those lines run within
every unscoped buffer of the core, the arrays included: at the region's exit the windows' shares are joined back into
the distinct buffers behind the arrays (hexit), the lines run, and the buffers are dealt to the windows again
(hback), so that the arrays can be read at the end. The lines write no array. -/

namespace Idealize.ShloMosaic.Pipeline

open Idealize.SL
open Idealize.SL.BI (sProp bigSep bigSep_map bigSep_union bigSep_congr)
open scoped Idealize.SL.BI
open Idealize.SL.BI.BIBase Idealize.SL.BI.Laws Idealize.SL.Sem Idealize.SL.ProofMode
open Idealize.SL.RA
open Idealize.ShloMosaic.Rounds
open TcCoe

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

set_option backward.isDefEq.respectTransparency.types false in
/-- THE LINES AFTER THE REGION when windows may share an array. From the region's exit (the boundary, the windows'
    arrays at their final contents, each window at its share, and the bypassing buffers at the entry contents V₀)
    the lines opss run within the core's unscoped buffers held at the exit valuation Wx: the arrays' buffers at what
    the shares join to (hexit), the bypassing buffers as at entry (hWx). They write no array (hkeep), so the
    buffers behind the arrays are dealt back to the windows afterwards (hback), and the bypassing buffers end at the
    lines' StableHlo.after from Wx. -/
theorem shared_tail_seqs (cfgs : P → Cfg sig Λ₀)
    (dats : (p : P) → (c : Dev nD) → Dat τ Val Unit ℕ (UR sig nD τ) ℕ (cfgs p) c) (p : P)
    (hw : WinFacts₀ (cfgs p).spec) (defs₀ : Defs nD τ sig Val Λ₀) (𝒱₀ : Variants) (c : Dev nD)
    (V₀ Wx : Valuation τ sig Val) (opss : List (List (HloOp τ sig Val)))
    (hsub : ∀ ops ∈ opss, ∀ op ∈ ops, op.bufs ⊆ StableHlo.tcRefs τ sig)
    (hfresh : ∀ ops ∈ opss, ∀ op ∈ ops, op.fresh = ∅)
    (hkeep : ∀ ops ∈ opss, ∀ op ∈ ops, ∀ w, Proc.devRef .tc (arrRef (cfgs p).spec w) ∉ op.writes)
    (hexit : (dats p c).arrays ((dats p c).arrAt · (cfgs p).N)
      ⊢ (arrBufs (cfgs p).spec c (fun b => Wx (Proc.devRef .tc b)) : sProp 𝕄))
    (hback : (arrBufs (cfgs p).spec c (fun b => Wx (Proc.devRef .tc b)) : sProp 𝕄)
      ⊢ (dats p c).arrays ((dats p c).arrAt · (cfgs p).N))
    (hWx : ∀ b ∈ restRefs sig (cfgs p).spec, Wx (Proc.devRef .tc b) = V₀ (Proc.devRef .tc b))
    (Q' : PUnit → sProp 𝕄) :
    iprop((iprop((dats p c).arrays ((dats p c).arrAt · (cfgs p).N)
              ∗ unscopedRest (cfgs p).spec c (fun b => StableHlo.after opss.flatten Wx (Proc.devRef .tc b))) -∗ Q' ⟨⟩)
        ∗ boundary (c.tc : Thread nD τ) ∗ (dats p c).arrays ((dats p c).arrAt · (cfgs p).N)
        ∗ unscopedRest (cfgs p).spec c (fun b => V₀ (Proc.devRef .tc b)))
      ⊢ wp frame (wpE (Pipeline.defs (fun q => Cfg.toPCfg (Val := Val) (cfgs q)) defs₀) (Variants.lift 𝒱₀) (c.tc : Thread nD τ) none)
          Set.univ (chain (opss.map StableHlo.seq)) Q' := by
  classical
  have hR : (unscopedRest (cfgs p).spec c (fun b => V₀ (Proc.devRef .tc b)) : sProp 𝕄)
      = unscopedRest (cfgs p).spec c (fun b => Wx (Proc.devRef .tc b)) := by
    unfold unscopedRest
    exact bigSep_congr fun b hb => by dsimp only; rw [hWx b hb]
  have hA' : (arrBufs (cfgs p).spec c (fun b => StableHlo.after opss.flatten Wx (Proc.devRef .tc b)) : sProp 𝕄)
      = arrBufs (cfgs p).spec c (fun b => Wx (Proc.devRef .tc b)) := by
    unfold arrBufs
    refine bigSep_congr fun b hb => ?_
    obtain ⟨w, -, rfl⟩ := Finset.mem_image.mp hb
    dsimp only
    rw [StableHlo.after_of_forall_not_mem _ _ fun op hop => ?_]
    obtain ⟨ops, hops, hop⟩ := List.mem_flatten.mp hop
    exact hkeep ops hops op hop w
  have hH : ∀ W : Valuation τ sig Val, (StableHlo.held (c.tc : Thread nD τ) (ucRefs τ sig) W : sProp 𝕄)
      = iprop((arrBufs (cfgs p).spec c (fun b => W (Proc.devRef .tc b)) : sProp 𝕄) ∗ unscopedRest (cfgs p).spec c (fun b => W (Proc.devRef .tc b))) := fun W => by
    rw [← unscopedBufs_held (Ix := Unit) (Name := ℕ) (U := UR sig nD τ) (Lvl := ℕ) c W]
    exact unscopedBufs_split₀ cfgs p hw.arr_unscoped c (fun b => W (Proc.devRef .tc b))
  rw [← List.append_nil (opss.map StableHlo.seq), hR]
  iintro ⟨Hk, Hb, HA, HR⟩
  iapply (wp_seqs_then (fun q => Cfg.toPCfg (Val := Val) (cfgs q)) defs₀ 𝒱₀ c (ucRefs τ sig) [] opss
    (fun ops hops op hop => sub_ucRefs op (hsub ops hops op hop)) hfresh Wx) $$ [Hb HA HR]
  · isplitl [Hb]; · iexact Hb
    rw [hH Wx]
    isplitl [HA]
    · iapply hexit; iexact HA
    · iexact HR
  iintro Hb
  rw [chain_nil, wp_pure, hH (StableHlo.after opss.flatten Wx), hA']
  imodintro
  iapply Hk
  icases Hb with ⟨-, HA, HR⟩
  isplitl [HA]
  · iapply hback; iexact HA
  · iexact HR

/-- THE FRAME RUN of a one-region pipeline whose windows may share an array, for an @main that goes on after the
    region with the host lines opss (hmain). The layout facts are taken by name, the arrays not required
    distinct (hw). hsplit deals the distinct buffers behind the arrays, whole at the entry contents V₀, to the
    windows at the first point; hexit joins the windows' shares back at the last, into the buffers at the exit
    valuation Wx (which agrees with V₀ off the arrays, hWx), and hback deals them again once the lines, which
    write no array (hkeep), have run. The data's invariant is entered from and returned to the core's scoped buffers
    that are no staging buffer. Conclusion: every window's array ends at arrAt w N, every other unscoped buffer at
    the lines' StableHlo.after from Wx. -/
theorem θ_run_frame_shared_around (cfgs : P → Cfg sig Λ₀)
    (dats : (p : P) → (c : Dev nD) → Dat τ Val Unit ℕ (UR sig nD τ) ℕ (cfgs p) c) (p : P)
    (hinj : Function.Injective (cellOf (nD := nD) (τ := τ) cfgs))
    (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V₀ Wx : Dev nD → Valuation τ sig Val) (opss : List (List (HloOp τ sig Val)))
    (hsub : ∀ ops ∈ opss, ∀ op ∈ ops, op.bufs ⊆ StableHlo.tcRefs τ sig)
    (hfresh : ∀ ops ∈ opss, ∀ op ∈ ops, op.fresh = ∅)
    (hkeep : ∀ ops ∈ opss, ∀ op ∈ ops, ∀ w, Proc.devRef .tc (arrRef (cfgs p).spec w) ∉ op.writes)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hsplit : ∀ c, (arrBufs (cfgs p).spec c (fun b => V₀ c (Proc.devRef .tc b)) : sProp 𝕄)
      ⊢ (dats p c).arrays ((dats p c).arrAt · 0))
    (hexit : ∀ c, (dats p c).arrays ((dats p c).arrAt · (cfgs p).N)
      ⊢ (arrBufs (cfgs p).spec c (fun b => Wx c (Proc.devRef .tc b)) : sProp 𝕄))
    (hback : ∀ c, (arrBufs (cfgs p).spec c (fun b => Wx c (Proc.devRef .tc b)) : sProp 𝕄)
      ⊢ (dats p c).arrays ((dats p c).arrAt · (cfgs p).N))
    (hWx : ∀ c, ∀ b ∈ restRefs sig (cfgs p).spec, Wx c (Proc.devRef .tc b) = V₀ c (Proc.devRef .tc b))
    (hin : ∀ c, (scopedRest (cfgs p).spec c : sProp 𝕄) ⊢ (dats p c).Φ 0)
    (hout : ∀ c, (dats p c).Φ (Fin.last (cfgs p).N) ⊢ (scopedRest (cfgs p).spec c : sProp 𝕄)) :
    θ_run (Pipeline.defs (fun q => Cfg.toPCfg (Val := Val) (cfgs q)) defs₀) (onTc main) (s₀ m g)
      (FramePost cfgs dats p (fun c b => StableHlo.after opss.flatten (Wx c) (Proc.devRef .tc b))) := by
  classical
  exact θ_run_region_noSem_pf_tail (Ix := Unit) (Name := ℕ) (U := UR sig nD τ) (Lvl := ℕ)
    (fun q => (cfgs q).toPCfg (Val := Val)) (fun q => (cfgs q).toPCfg_adm) dats () hinj p hw (PreFacts.none _) emb₁ defs₀ 𝒱₀ m g main
    (fun _ => chain (opss.map StableHlo.seq)) hbody hne harr hstage howed
    (Rounds.initOf (cells cfgs hinj) (launchToks cfgs hinj)) .rfl (fun c b => V₀ c (Proc.devRef .tc b)) hmain hsplit
    (fun _ k => k.elim0)
    (fun _ => iprop(emp)) (fun _ => iprop(emp))
    (fun c => unscopedRest (Ix := Unit) (Name := ℕ) (U := UR sig nD τ) (Lvl := ℕ) (cfgs p).spec c (fun b => V₀ c (Proc.devRef .tc b)))
    (fun c => unscopedRest (Ix := Unit) (Name := ℕ) (U := UR sig nD τ) (Lvl := ℕ) (cfgs p).spec c
      (fun b => StableHlo.after opss.flatten (Wx c) (Proc.devRef .tc b)))
    (fun c => by
      rw [unscopedRestP_none]
      iintro HU
      isplitr
      · iempintro
      · iexact HU)
    (fun c => (show _ ⊢ (scopedRest (cfgs p).spec c : sProp 𝕄) from by
      iintro ⟨-, -, HR⟩; iexact HR).trans (hin c))
    (fun c => (hout c).trans (by
      iintro HR
      isplitr
      · iempintro
      · iexact HR))
    (fun c Q' => shared_tail_seqs cfgs dats p hw defs₀ 𝒱₀ c (V₀ c) (Wx c) opss hsub hfresh hkeep (hexit c) (hback c) (hWx c) Q')
    (fun c s => ∀ b ∈ restRefs sig (cfgs p).spec, s.mem ((c.tc : Thread nD τ).loc b) = StableHlo.after opss.flatten (Wx c) (Proc.devRef .tc b))
    (fun c s' => by
      iintro ⟨-, HU, HSI⟩
      unfold unscopedRest
      imodintro
      iapply (pointsTo_read_all (restRefs sig (cfgs p).spec) (fun b => (c.tc : Thread nD τ).loc b)
        (fun b => StableHlo.after opss.flatten (Wx c) (Proc.devRef .tc b)) s')
      isplitl [HU] <;> iassumption)
    (fun s h c => ⟨(h c).1, (h c).2.2⟩)

end Idealize.ShloMosaic.Pipeline

end
-- ==== Proof.Kernel.Whole.lean ====
/-
  The whole run of the program: the region launched on its proof data, with @main's host operations around it.

  At the region's exit the memory is as at its entry except for the result column's array, which holds what the
  sixteen write-backs of each row tile left. The buffer behind z was dealt to the two windows that read it, half
  and half, at the first point; at the last the halves are joined again, the seven host operations after the region
  run (they write neither z nor the result column), and the halves are dealt once more so that the arrays can be
  read at the end. The two arguments are never written: not by the host operations, which each write their own
  result, and not by the region, whose only output window is the result column.
-/
import proofs.«159962_j63264868270602_1_alg».proof.Proof.Kernel.Frame
import proofs.«159962_j63264868270602_1_alg».proof.Proof.Kernel.Shares
import proofs.«159962_j63264868270602_1_alg».proof.Proof.LibSharedTail

set_option maxRecDepth 16384

noncomputable section

namespace Cert.Kernel.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Classical in
/-- The memory at the region's exit: as at its entry, the result column's array at what the write-backs left. -/
def Wx (c : Dev nD) : Valuation τ sig (Elt F) :=
  Function.update (V0 m c) (Proc.devRef .tc main_v38) ((dats m 0 c).arrAt 2 cfg0.N)

theorem Wx_result (c : Dev nD) : Wx m c (Proc.devRef .tc main_v38) = (dats m 0 c).arrAt 2 cfg0.N := by
  unfold Wx; exact Function.update_self ..

theorem Wx_other (c : Dev nD) (b : DevRef τ sig) (h : b ≠ Proc.devRef .tc main_v38) : Wx m c b = V0 m c b := by
  unfold Wx; exact Function.update_of_ne h ..

/-- Off the region's arrays nothing changed. -/
theorem Wx_rest (c : Dev nD) : ∀ b ∈ Pipeline.restRefs sig spec0, Wx m c (Proc.devRef .tc b) = V0 m c (Proc.devRef .tc b) := by
  intro b hb
  refine Wx_other m c _ (fun h => ?_)
  have hb38 : b = main_v38 := Proc.devRef_injective _ h
  subst hb38
  exact (Finset.mem_sdiff.mp hb).2 (Finset.mem_image.mpr ⟨2, Finset.mem_univ _, rfl⟩)

/-- Window by window, the arrays at the exit are the exit memory: z was never written, the result column is. -/
theorem exit_eq (c : Dev nD) (w : Fin cfg0.W) :
    (dats m 0 c).arrAt w cfg0.N = Wx m c (Proc.devRef .tc (Pipeline.arrRef spec0 w)) := by
  match w with
  | ⟨0, _⟩ =>
    rw [(dats m 0 c).arrAt_in ⟨0, _⟩ rfl]
    exact (A_eq m c _).trans (Wx_other m c _ (StableHlo.devRef_ne_of_ne (by decide : (main_v0 : Ref sig .tc) ≠ main_v38))).symm
  | ⟨1, _⟩ =>
    rw [(dats m 0 c).arrAt_in ⟨1, _⟩ rfl]
    exact (A_eq m c _).trans (Wx_other m c _ (StableHlo.devRef_ne_of_ne (by decide : (main_v0 : Ref sig .tc) ≠ main_v38))).symm
  | ⟨2, _⟩ => exact (Wx_result m c).symm

theorem hsplit (c : Dev nD) :
    (Pipeline.arrBufs spec0 c (fun b => V0 m c (Proc.devRef .tc b)) : sProp 𝕄) ⊢ (dats m 0 c).arrays ((dats m 0 c).arrAt · 0) :=
  (deal (dats m 0 c) (q_0 m c) (q_1 m c) (V m c) ((dats m 0 c).arrAt · 0) (fun w => A_eq m c w)).1

theorem hexit (c : Dev nD) :
    (dats m 0 c).arrays ((dats m 0 c).arrAt · cfg0.N) ⊢ (Pipeline.arrBufs spec0 c (fun b => Wx m c (Proc.devRef .tc b)) : sProp 𝕄) :=
  (deal (dats m 0 c) (q_0 m c) (q_1 m c) (fun b => Wx m c (Proc.devRef .tc b)) ((dats m 0 c).arrAt · cfg0.N) (exit_eq m c)).2

theorem hback (c : Dev nD) :
    (Pipeline.arrBufs spec0 c (fun b => Wx m c (Proc.devRef .tc b)) : sProp 𝕄) ⊢ (dats m 0 c).arrays ((dats m 0 c).arrAt · cfg0.N) :=
  (deal (dats m 0 c) (q_0 m c) (q_1 m c) (fun b => Wx m c (Proc.devRef .tc b)) ((dats m 0 c).arrAt · cfg0.N) (exit_eq m c)).1

set_option backward.isDefEq.respectTransparency.types false in
/-- From any memory with zero counters, every weakly fair execution of @main terminates; at the end every array of
    the region holds what the proof data computes, and every other unscoped buffer what the seven later operations
    leave from the exit memory. -/
theorem run_main : θ_run defs (onTc (τ := τ) (main (F := F))) (s₀ m ρ)
    (Pipeline.FramePost cfgs (dats m) 0 (fun c b => StableHlo.after (List.flatten [hostOps1]) (Wx m c) (Proc.devRef .tc b))) :=
  Pipeline.θ_run_frame_shared_around cfgs (dats m) (0 : Fin 1) cellOf_inj winFacts₀0 block_pos0 arr_whole0 stage_whole0 defs₀ Variants.none m ρ main
    (hbody := fun c => (body_obligation m c).loose) (howed := fun _ _ => rfl) (V₀ := V0 m) (Wx := Wx m) (opss := [hostOps1])
    (hsub := tail_sub) (hfresh := tail_fresh) (hkeep := tail_keeps) (hmain := hmain m Variants.none)
    (hsplit := hsplit m) (hexit := hexit m) (hback := hback m) (hWx := Wx_rest m) (hin := hin m) (hout := hout m)

/-- An argument of @main is no array of the region and no host operation writes it: it ends as it began. -/
theorem kept (c : Dev nD) (b : Ref sig .tc) (hb : b ∈ Pipeline.restRefs sig spec0)
    (h0 : ∀ op ∈ (hostOps0 : List (HloOp τ sig (Elt F))), Proc.devRef .tc b ∉ op.writes)
    (h1 : ∀ op ∈ (hostOps1 : List (HloOp τ sig (Elt F))), Proc.devRef .tc b ∉ op.writes) :
    StableHlo.after (List.flatten [hostOps1]) (Wx m c) (Proc.devRef .tc b) = m ((c.tc : Thread nD τ).loc b) := by
  rw [StableHlo.after_of_forall_not_mem _ _ (by simpa only [List.flatten_cons, List.flatten_nil, List.append_nil] using h1),
    Wx_rest m c b hb]
  show StableHlo.after (List.flatten [hostOps0]) (fun b => m (c, b)) (Proc.devRef .tc b) = _
  rw [StableHlo.after_of_forall_not_mem _ _ (by simpa only [List.flatten_cons, List.flatten_nil, List.append_nil] using h0)]

end Cert.Kernel.Region

end
-- ==== Proof.Kernel.Kept.lean ====
/-
  The program leaves its two arguments as it found them.

  @main is 48 host operations, the one region, and 7 more host operations. Each host operation writes exactly one
  buffer, its own result, and none of those 55 results is an argument. The region writes through its one output
  window, whose array is the result column, and reads z through the other two; the arguments are no array of the
  region and are unscoped, so they bypass it. Hence at the end of every execution each argument holds its launch
  contents.
-/
import proofs.«159962_j63264868270602_1_alg».proof.Proof.Kernel.Whole

set_option maxRecDepth 16384

noncomputable section

namespace Cert.Kernel.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first argument is unscoped and is no array of the region. -/
theorem arg0_rest : main_arg0 ∈ Pipeline.restRefs sig spec0 :=
  Pipeline.mem_restRefs_of main_arg0 rfl (by decide)

/-- So is the second. -/
theorem arg1_rest : main_arg1 ∈ Pipeline.restRefs sig spec0 :=
  Pipeline.mem_restRefs_of main_arg1 rfl (by decide)

/-- None of the 48 operations before the region writes an argument: each writes its own result only. -/
theorem hostOps0_keeps (b : Ref sig .tc) (hb : b = main_arg0 ∨ b = main_arg1) :
    ∀ op ∈ (hostOps0 : List (HloOp τ sig (Elt F))), Proc.devRef (τ := τ) .tc b ∉ op.writes := by
  refine List.forall_iff_forall_mem.mp ?_
  simp only [List.Forall, hostOps0, StableHlo.binary_writes, StableHlo.unary_writes, StableHlo.nullary_writes,
    Finset.mem_singleton]
  rcases hb with rfl | rfl
  all_goals (repeat' constructor)
  all_goals exact StableHlo.devRef_ne_of_ne (by decide)

/-- Nor does any of the 7 after it. -/
theorem hostOps1_keeps (b : Ref sig .tc) (hb : b = main_arg0 ∨ b = main_arg1) :
    ∀ op ∈ (hostOps1 : List (HloOp τ sig (Elt F))), Proc.devRef (τ := τ) .tc b ∉ op.writes := by
  refine List.forall_iff_forall_mem.mp ?_
  simp only [List.Forall, hostOps1, StableHlo.binary_writes, StableHlo.unary_writes, StableHlo.nullary_writes,
    StableHlo.reshape_writes, Finset.mem_singleton]
  rcases hb with rfl | rfl
  all_goals (repeat' constructor)
  all_goals exact StableHlo.devRef_ne_of_ne (by decide)

/-- Every weakly fair execution of @main terminates and the two arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 arg0_rest).trans
        (kept m c main_arg0 arg0_rest (hostOps0_keeps main_arg0 (.inl rfl)) (hostOps1_keeps main_arg0 (.inl rfl))),
      ((h c).2 main_arg1 arg1_rest).trans
        (kept m c main_arg1 arg1_rest (hostOps0_keeps main_arg1 (.inr rfl)) (hostOps1_keeps main_arg1 (.inr rfl)))⟩)
    (run_main m ρ)

end Cert.Kernel.Region

end
-- ==== Proof.KernelIdeal.Kit.lean ====
/-
  The region of the contrastive-loss program as the launch sees it.

  @main is three stretches: 48 host operations (the stacked rows z, and the positive pair's term from the two
  batches normalised row by row), the one region, and 7 host operations (a reshape of the region's result, the
  logarithm, the difference with the positive term, the sum and the mean). The region walks a 4 × 16 grid, point
  t = 16·i + j: window 0 is rows 2048·i … of z, window 1 rows 512·j … of the SAME array z, window 2 rows 2048·i …
  of the result column, written back when j = 15. Between points the body keeps a column of 2048 partial sums in
  a scratch buffer: cleared when j = 0, added to at every point, copied into window 2's buffer each time.

  Here: the memory as the region finds it, @main around the region, the three facts the lines after the region owe
  (they touch unscoped TensorCore buffers only, allocate nothing, write no array of the region), each window's
  block at a point, the one branch condition of the body in closed form over the grid, and the invariant the
  launch hands the body (the scratch at some contents, the generator register at some state).
-/
import proofs.«159962_j63264868270602_1_alg».proof.Proof.Gen.KernelIdeal.Launch
import proofs.«159962_j63264868270602_1_alg».proof.Proof.Gen.KernelIdeal.Skeleton
import proofs.«159962_j63264868270602_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s TensorCore buffers when the region is entered: the launch memory after the 48 host operations. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

/-- @main is the host operations before the region, the region, and the host operations after it; so a run of
    @main reduces to a run of the region continued by the later operations, from the memory `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (show List.Forall _ [hostOps0] from hostOps0_sub)
    (show List.Forall _ [hostOps0] from hostOps0_fresh) main_chain

/-- The operations after the region touch TensorCore buffers only. -/
theorem tail_sub : ∀ ops ∈ ([hostOps1] : List (List (HloOp τ sig (Elt F)))), ∀ op ∈ ops,
    op.bufs ⊆ StableHlo.tcRefs τ sig := by
  intro ops hops op hop
  simp only [List.mem_cons, List.mem_nil_iff, or_false] at hops
  rcases hops with rfl
  exact (List.forall_iff_forall_mem.mp hostOps1_sub) op hop

/-- They allocate nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- And write neither z nor the region's result: each writes its own result buffer only. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl
  all_goals intro w; fin_cases w <;> simp only [StableHlo.nullary_writes, StableHlo.unary_writes, StableHlo.binary_writes, StableHlo.reshape_writes, Finset.mem_singleton] <;> exact StableHlo.devRef_ne_of_ne (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or carried over from the
    point before (window 0 is fetched only when its row tile changes), for any proof data whose array is `V`'s and
    whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's one branch -/

/-- The condition of the body's branch, from the grid coordinates: the column tile is the first. -/
abbrev firstTile (i : grid0.Coords) : Prop := (Scalar.cmpi .ne (Scalar.extui (Scalar.cmpi .eq (BitVec.ofNat 32 (i 1).val) 0#32)) 0#32) = 1#1
/-- It holds at the points 0, 16, 32, 48. -/
theorem firstTile_iff : ∀ t : Fin cfg0.N, firstTile (grid0.coords t) ↔ t.val % 16 = 0 :=
  (by decide +kernel : ∀ t : Fin grid0.N, firstTile (grid0.coords t) ↔ t.val % 16 = 0)

/-- No window is idle at any point: the body loads both inputs and stores the result column every time. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel

/-! ## The memrefs the body is called with -/

abbrev ms0 (t : Fin cfg0.N) : Memref sig .tc .vmem S2048x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x1 .f32 := win0_2.stage (cfg0.slots t 2)
abbrev hs2 (t : Fin cfg0.N) : (ms2 t).IsWhole := hstage0_2 ((cfg0.slots t 2).cast nbuf0_2)
/-- The column of partial sums: a whole scoped buffer of the kernel's own. -/
abbrev accM : Memref sig .tc .vmem S2048x1 .f32 := Memref.whole cc0_scratch0

/-- What the launch hands the body before the first point and takes back after the last: the scratch at some
    contents and the generator register at some state. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.KernelIdeal.Region

end
-- ==== Proof.KernelIdeal.Runs.lean ====
/-
  The body of the region run once, in each of its two cases.

  At a point the body is handed its row block `x0` (2048 rows of z), its column block `x1` (512 rows of z), the
  result column's staging buffer and the scratch column. When the column tile is the first it clears the scratch;
  in either case it then adds this point's 2048 partial sums to the scratch and copies the scratch into the result
  buffer. So both buffers end with one store each over their whole extent; the stores, as pieces, are what the run
  finds, and the two input buffers are handed back as they were.
-/
import proofs.«159962_j63264868270602_1_alg».proof.Proof.KernelIdeal.Kit

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 1000000 in
/-- THE FIRST COLUMN TILE. From the inputs at `x0`, `x1` and the result buffer and the scratch at anything, the body runs
    to the inputs as they were and the two columns with their pieces written. -/
noncomputable def runFirst (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S2048x1 .f32) (harg4 : arg4.IsWhole) (arg5 : Memref sig .tc .vmem S2048x1 .f32) (harg5 : arg5.IsWhole) (hc : firstTile i)
    (x0 : Vec F S2048x256 .f32) (x1 : Vec F S512x256 .f32) :
    Σ' (LO : List (View.Piece (Elt F) S2048x1 .f32)), { LS : List (View.Piece (Elt F) S2048x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc0_ntxent_kernel i arg2 harg2 arg3 harg3 arg4 harg4 arg5 harg5) K } := by
  refine ⟨?_, ?_, fun E K => ?run⟩
  case run =>
    simp only [cc0_ntxent_kernel_eq_skeleton]; unfold cc0_ntxent_kernel_skel
    simp only [k0_part1_eq_skeleton]
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact H3

set_option maxHeartbeats 1000000 in
/-- A LATER COLUMN TILE. The same, from the scratch at `xs`, what the point before left in it. -/
noncomputable def runLater (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S2048x1 .f32) (harg4 : arg4.IsWhole) (arg5 : Memref sig .tc .vmem S2048x1 .f32) (harg5 : arg5.IsWhole) (hc : ¬firstTile i)
    (x0 : Vec F S2048x256 .f32) (x1 : Vec F S512x256 .f32) (xs : Vec F S2048x1 .f32) :
    Σ' (LO : List (View.Piece (Elt F) S2048x1 .f32)), { LS : List (View.Piece (Elt F) S2048x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc0_ntxent_kernel i arg2 harg2 arg3 harg3 arg4 harg4 arg5 harg5) K } := by
  refine ⟨?_, ?_, fun E K => ?run⟩
  case run =>
    simp only [cc0_ntxent_kernel_eq_skeleton]; unfold cc0_ntxent_kernel_skel
    simp only [k0_part1_eq_skeleton]
    unfold owns
    iintro ⟨⟨%f0, %hf0, H0⟩, ⟨%f1, %hf1, H1⟩, ⟨%d2, %f2, -, H2⟩, ⟨%f3, %hf3, H3⟩, Hk⟩
    obtain rfl := harg2.eq_unread hf0; obtain rfl := harg3.eq_unread hf1; obtain rfl := harg5.eq_unread hf3
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact H3

end Cert.KernelIdeal.Region

end
-- ==== Proof.KernelIdeal.Frame.lean ====
/-
  The region's proof data and its body, point by point.

  After the body has run at point t = 16·i + j, the result column's staging buffer and the scratch column hold the
  same 2048 numbers: this row tile's partial sums over the column tiles 0 … j. They are obtained by recursion on
  the point: at j = 0 from the cleared column, otherwise from what the point before left in the scratch. The two
  input windows' buffers hold their blocks of z at every point and are handed back untouched. The invariant
  between points is the scratch at what the point before left (before the first point: at anything). Both input
  windows read one array; the first holds it at the left half of the full share, the second at the right half.
-/
import proofs.«159962_j63264868270602_1_alg».proof.Proof.KernelIdeal.Runs

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What each case leaves in the two columns -/

/-- One staging buffer of the result column, and the scratch, as views: what a column holds is stated through one
    (the choice of buffer does not matter once the stores cover the column). -/
abbrev VO : View sig .tc .vmem S2048x1 .f32 := (Memref.whole cc0_stg2_0 : Memref sig .tc .vmem S2048x1 .f32).view
abbrev VS : View sig .tc .vmem S2048x1 .f32 := accM.view

/-- In either case the one store into each column covers it. -/
theorem coverFirstO (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S2048x1 .f32) (harg4 : arg4.IsWhole) (arg5 : Memref sig .tc .vmem S2048x1 .f32) (harg5 : arg5.IsWhole) (hc : firstTile i) (x0 : Vec F S2048x256 .f32) (x1 : Vec F S512x256 .f32) (y : S2048x1.Idx) :
    ∃ pc ∈ (runFirst c i arg2 harg2 arg3 harg3 arg4 harg4 arg5 harg5 hc x0 x1).1, y ∈ pc.1.set :=
  View.cover_of_tiledL (runFirst c i arg2 harg2 arg3 harg3 arg4 harg4 arg5 harg5 hc x0 x1).1 S2048x1.size (by sl_kernel_rfl) y
theorem coverFirstS (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S2048x1 .f32) (harg4 : arg4.IsWhole) (arg5 : Memref sig .tc .vmem S2048x1 .f32) (harg5 : arg5.IsWhole) (hc : firstTile i) (x0 : Vec F S2048x256 .f32) (x1 : Vec F S512x256 .f32) (y : S2048x1.Idx) :
    ∃ pc ∈ (runFirst c i arg2 harg2 arg3 harg3 arg4 harg4 arg5 harg5 hc x0 x1).2.1, y ∈ pc.1.set :=
  View.cover_of_tiledL (runFirst c i arg2 harg2 arg3 harg3 arg4 harg4 arg5 harg5 hc x0 x1).2.1 S2048x1.size (by sl_kernel_rfl) y
theorem coverLaterO (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S2048x1 .f32) (harg4 : arg4.IsWhole) (arg5 : Memref sig .tc .vmem S2048x1 .f32) (harg5 : arg5.IsWhole) (hc : ¬firstTile i) (x0 : Vec F S2048x256 .f32) (x1 : Vec F S512x256 .f32) (xs : Vec F S2048x1 .f32) (y : S2048x1.Idx) :
    ∃ pc ∈ (runLater c i arg2 harg2 arg3 harg3 arg4 harg4 arg5 harg5 hc x0 x1 xs).1, y ∈ pc.1.set :=
  View.cover_of_tiledL (runLater c i arg2 harg2 arg3 harg3 arg4 harg4 arg5 harg5 hc x0 x1 xs).1 S2048x1.size (by sl_kernel_rfl) y
theorem coverLaterS (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S2048x1 .f32) (harg4 : arg4.IsWhole) (arg5 : Memref sig .tc .vmem S2048x1 .f32) (harg5 : arg5.IsWhole) (hc : ¬firstTile i) (x0 : Vec F S2048x256 .f32) (x1 : Vec F S512x256 .f32) (xs : Vec F S2048x1 .f32) (y : S2048x1.Idx) :
    ∃ pc ∈ (runLater c i arg2 harg2 arg3 harg3 arg4 harg4 arg5 harg5 hc x0 x1 xs).2.1, y ∈ pc.1.set :=
  View.cover_of_tiledL (runLater c i arg2 harg2 arg3 harg3 arg4 harg4 arg5 harg5 hc x0 x1 xs).2.1 S2048x1.size (by sl_kernel_rfl) y

/-- The result column and the scratch after the body at a first column tile: the stores read back. -/
def outFirst (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S2048x1 .f32) (harg4 : arg4.IsWhole) (arg5 : Memref sig .tc .vmem S2048x1 .f32) (harg5 : arg5.IsWhole) (hc : firstTile i) (x0 : Vec F S2048x256 .f32) (x1 : Vec F S512x256 .f32) : Vec F S2048x1 .f32 :=
  VO.read (Elt F) (VO.writes (Elt F) VO.junk (runFirst c i arg2 harg2 arg3 harg3 arg4 harg4 arg5 harg5 hc x0 x1).1)
def accFirst (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S2048x1 .f32) (harg4 : arg4.IsWhole) (arg5 : Memref sig .tc .vmem S2048x1 .f32) (harg5 : arg5.IsWhole) (hc : firstTile i) (x0 : Vec F S2048x256 .f32) (x1 : Vec F S512x256 .f32) : Vec F S2048x1 .f32 :=
  VS.read (Elt F) (VS.writes (Elt F) VS.junk (runFirst c i arg2 harg2 arg3 harg3 arg4 harg4 arg5 harg5 hc x0 x1).2.1)
/-- And at a later one, over what the point before left in the scratch. -/
def outLater (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S2048x1 .f32) (harg4 : arg4.IsWhole) (arg5 : Memref sig .tc .vmem S2048x1 .f32) (harg5 : arg5.IsWhole) (hc : ¬firstTile i) (x0 : Vec F S2048x256 .f32) (x1 : Vec F S512x256 .f32) (xs : Vec F S2048x1 .f32) : Vec F S2048x1 .f32 :=
  VO.read (Elt F) (VO.writes (Elt F) VO.junk (runLater c i arg2 harg2 arg3 harg3 arg4 harg4 arg5 harg5 hc x0 x1 xs).1)
def accLater (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S2048x1 .f32) (harg4 : arg4.IsWhole) (arg5 : Memref sig .tc .vmem S2048x1 .f32) (harg5 : arg5.IsWhole) (hc : ¬firstTile i) (x0 : Vec F S2048x256 .f32) (x1 : Vec F S512x256 .f32) (xs : Vec F S2048x1 .f32) : Vec F S2048x1 .f32 :=
  VS.read (Elt F) (VS.writes (Elt F) VS.junk (runLater c i arg2 harg2 arg3 harg3 arg4 harg4 arg5 harg5 hc x0 x1 xs).2.1)

/-! ## The two columns after each point -/

/-- THE ACCUMULATION. The result column's buffer and the scratch after the body at position `n`: at a first column
    tile from nothing, otherwise from what position `n - 1` left in the scratch. -/
def colsAt (c : Dev nD) : (n : ℕ) → n < cfg0.N → Vec F S2048x1 .f32 × Vec F S2048x1 .f32
  | 0, hn => (outFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) accM (Memref.isWhole_whole _) ((firstTile_iff ⟨0, hn⟩).mpr (Nat.zero_mod _)) (iblk m c 0 ⟨0, hn⟩) (iblk m c 1 ⟨0, hn⟩),
              accFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) accM (Memref.isWhole_whole _) ((firstTile_iff ⟨0, hn⟩).mpr (Nat.zero_mod _)) (iblk m c 0 ⟨0, hn⟩) (iblk m c 1 ⟨0, hn⟩))
  | n + 1, hn =>
    if h : (n + 1) % 16 = 0 then
      (outFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) accM (Memref.isWhole_whole _) ((firstTile_iff ⟨n + 1, hn⟩).mpr h) (iblk m c 0 ⟨n + 1, hn⟩) (iblk m c 1 ⟨n + 1, hn⟩),
       accFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) accM (Memref.isWhole_whole _) ((firstTile_iff ⟨n + 1, hn⟩).mpr h) (iblk m c 0 ⟨n + 1, hn⟩) (iblk m c 1 ⟨n + 1, hn⟩))
    else
      (outLater c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) accM (Memref.isWhole_whole _) (fun hh => h ((firstTile_iff ⟨n + 1, hn⟩).mp hh)) (iblk m c 0 ⟨n + 1, hn⟩) (iblk m c 1 ⟨n + 1, hn⟩) (colsAt c n (Nat.lt_of_succ_lt hn)).2,
       accLater c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) accM (Memref.isWhole_whole _) (fun hh => h ((firstTile_iff ⟨n + 1, hn⟩).mp hh)) (iblk m c 0 ⟨n + 1, hn⟩) (iblk m c 1 ⟨n + 1, hn⟩) (colsAt c n (Nat.lt_of_succ_lt hn)).2)

/-- `colsAt` at a first column tile. -/
theorem colsAt_first (c : Dev nD) (t : Fin cfg0.N) (h : t.val % 16 = 0) :
    colsAt m c t.val t.isLt = (outFirst c (grid0.coords t) (ms0 t) (hs0 t) (ms1 t) (hs1 t) (ms2 t) (hs2 t) accM (Memref.isWhole_whole _) ((firstTile_iff t).mpr h) (iblk m c 0 t) (iblk m c 1 t),
                               accFirst c (grid0.coords t) (ms0 t) (hs0 t) (ms1 t) (hs1 t) (ms2 t) (hs2 t) accM (Memref.isWhole_whole _) ((firstTile_iff t).mpr h) (iblk m c 0 t) (iblk m c 1 t)) := by
  obtain ⟨n, hn⟩ := t
  cases n with
  | zero => exact rfl
  | succ n => exact (dif_pos h).trans rfl

/-- `colsAt` at a later column tile: over what the point before left. -/
theorem colsAt_later (c : Dev nD) (t : Fin cfg0.N) (h : ¬t.val % 16 = 0) :
    colsAt m c t.val t.isLt = (outLater c (grid0.coords t) (ms0 t) (hs0 t) (ms1 t) (hs1 t) (ms2 t) (hs2 t) accM (Memref.isWhole_whole _) (fun hh => h ((firstTile_iff t).mp hh)) (iblk m c 0 t) (iblk m c 1 t) (colsAt m c (t.val - 1) (Nat.lt_of_le_of_lt (Nat.sub_le _ _) t.isLt)).2,
                               accLater c (grid0.coords t) (ms0 t) (hs0 t) (ms1 t) (hs1 t) (ms2 t) (hs2 t) accM (Memref.isWhole_whole _) (fun hh => h ((firstTile_iff t).mp hh)) (iblk m c 0 t) (iblk m c 1 t) (colsAt m c (t.val - 1) (Nat.lt_of_le_of_lt (Nat.sub_le _ _) t.isLt)).2) := by
  obtain ⟨n, hn⟩ := t
  cases n with
  | zero => exact (by exfalso; (try dsimp only at h); exact absurd (Nat.zero_mod _) h)
  | succ n => exact (dif_neg h).trans rfl

/-! ## The invariant between points -/

/-- The scoped buffer that is no staging buffer is the scratch column, whole, at some contents. -/
theorem scopedRest_eq (c : Dev nD) :
    (Pipeline.scopedRest (Ix := Unit) (Name := ℕ) (U := UR sig nD τ) (Lvl := ℕ) (Val := Elt F) spec0 c : sProp 𝕄)
      = iprop(∃ d, owns (c : Thread nD τ) accM fullShare d) := by
  rw [scopedRest0_eq]; simp only [accM, owns_whole]; try rfl

/-- Before position `n`: the scratch at anything before the first point, then at what position `n - 1` left. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => owns (c : Thread nD τ) accM fullShare ((colsAt m c n hn).2)

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = owns (c : Thread nD τ) accM fullShare ((colsAt m c n hn).2) := rfl

theorem PhiS_pos (c : Dev nD) (n : ℕ) (h : n ≤ cfg0.N) (hz : n ≠ 0) :
    PhiS m c n h = owns (c : Thread nD τ) accM fullShare ((colsAt m c (n - 1) (by omega)).2) := by
  cases n with
  | zero => exact absurd rfl hz
  | succ n => rfl

/-! ## The proof data -/

/-- The proof data of the region on core `c`: the arrays as the region finds them; after the body each input's buffer
    at its block and the result column's at `colsAt`; the invariant `PhiS`; nothing owed; z held half and half by
    the two windows that read it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (colsAt m c t.val t.isLt).1
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem q_0 (c : Dev nD) : (dats m 0 c).q 0 = fullShare.left := by dsimp only [dats]
theorem q_1 (c : Dev nD) : (dats m 0 c).q 1 = fullShare.right := by dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = (colsAt m c t.val t.isLt).1 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point. The inputs' buffers hold their blocks; the grid says which case the point is in; the
    invariant hands the body the scratch (at anything at a first column tile, at what the point before left
    otherwise) and takes it back at this point's contents; the result column's buffer, whatever it held, ends at this
    point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after_0]
  rw [show (dats m 0 c).leavesExact 1 t = owns (c : Thread nD τ) (ms1 t) fullShare ((dats m 0 c).after 1 t) from by
    unfold Dat.leavesExact; rw [live1 t], after_1]
  rw [show (dats m 0 c).leavesExact 2 t = owns (c : Thread nD τ) (ms2 t) fullShare ((dats m 0 c).after 2 t) from by
    unfold Dat.leavesExact; rw [live2 t], after_2]
  by_cases h0 : t.val % 16 = 0
  · rw [colsAt_first m c t h0]
    unfold outFirst accFirst; (try dsimp only)
    have hS : (dats m 0 c).Φ t.castSucc ⊢ (iprop(∃ d, owns (c : Thread nD τ) accM fullShare d) : sProp 𝕄) := by
      rw [PhiS_castSucc m c t]
      by_cases hz : t.val = 0
      · rw [PhiS_zero m c _ _ hz, scopedRest_eq]; try exact Idealize.SL.BI.Entails.refl _
      · rw [PhiS_pos m c _ _ hz]; iintro HS; iexists _; iexact HS
    iintro ⟨HS, Ho, ⟨%d0, H0⟩, ⟨%d1, H1⟩, ⟨%d2, H2⟩⟩
    iapply ((runFirst c (grid0.coords t) _ _ _ _ _ _ _ _ ((firstTile_iff t).mpr h0) (iblk m c 0 t) (iblk m c 1 t)).2.2 Set.univ _)
    isplitl [H0]; · iexact H0
    isplitl [H1]; · iexact H1
    isplitl [H2]; · iexists _; iexact H2
    isplitl [HS]; · iapply hS; iexact HS
    iintro ⟨H0, H1, ⟨%e2, H2⟩, ⟨%es, HS⟩⟩
    isplitl [HS]
    · unfold owns; iexists _; isplitr
      swap; · iexact HS
      ipureintro; exact View.read_writes_of_cover _ _ _ _ _ (coverFirstS c _ _ _ _ _ _ _ _ _ _ _ _)
    isplitl [Ho]; · iexact Ho
    isplitl [H0]; · iexact H0
    isplitl [H1]; · iexact H1
    unfold owns; iexists _; isplitr
    swap; · iexact H2
    ipureintro; exact View.read_writes_of_cover _ _ _ _ _ (coverFirstO c _ _ _ _ _ _ _ _ _ _ _ _)
  · rw [colsAt_later m c t h0]
    unfold outLater accLater; (try dsimp only)
    have hz : t.val ≠ 0 := fun hz => h0 (by rw [hz])
    rw [PhiS_castSucc m c t, PhiS_pos m c _ _ hz]
    iintro ⟨HS, Ho, ⟨%d0, H0⟩, ⟨%d1, H1⟩, ⟨%d2, H2⟩⟩
    iapply ((runLater c (grid0.coords t) _ _ _ _ _ _ _ _ (fun hh => h0 ((firstTile_iff t).mp hh)) (iblk m c 0 t) (iblk m c 1 t) _).2.2 Set.univ _)
    isplitl [H0]; · iexact H0
    isplitl [H1]; · iexact H1
    isplitl [H2]; · iexists _; iexact H2
    isplitl [HS]; · iexact HS
    iintro ⟨H0, H1, ⟨%e2, H2⟩, ⟨%es, HS⟩⟩
    isplitl [HS]
    · unfold owns; iexists _; isplitr
      swap; · iexact HS
      ipureintro; exact View.read_writes_of_cover _ _ _ _ _ (coverLaterS c _ _ _ _ _ _ _ _ _ _ _ _ _)
    isplitl [Ho]; · iexact Ho
    isplitl [H0]; · iexact H0
    isplitl [H1]; · iexact H1
    unfold owns; iexists _; isplitr
    swap; · iexact H2
    ipureintro; exact View.read_writes_of_cover _ _ _ _ _ (coverLaterO c _ _ _ _ _ _ _ _ _ _ _ _ _)

/-- The body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) :
    (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the scratch back, its contents forgotten. -/
theorem hout (c : Dev nD) :
    (dats m 0 c).Φ (Fin.last cfg0.N) ⊢ (Pipeline.scopedRest (Ix := Unit) (Name := ℕ) (U := UR sig nD τ) (Lvl := ℕ) (Val := Elt F) spec0 c : sProp 𝕄) := by
  have hN : (Fin.last cfg0.N).val ≠ 0 := by rw [Fin.val_last]; have : cfg0.N = 64 := N_0; omega
  rw [show (dats m 0 c).Φ (Fin.last cfg0.N) = PhiS m c (Fin.last cfg0.N).val (Nat.le_of_lt_succ (Fin.last cfg0.N).isLt) from rfl, PhiS_pos m c _ _ hN, scopedRest_eq]
  iintro HS; iexists _; iexact HS

end Cert.KernelIdeal.Region

end
-- ==== Proof.KernelIdeal.Shares.lean ====
/-
  The shares of the region's arrays.

  The region's two input windows read ONE array: at a grid point window 0's block is rows 2048·i … and window 1's
  rows 512·j … of the same stacked matrix z, and each window's array is the whole of z; window 2's array is the whole
  result column. The launch hands the pipeline the DISTINCT buffers behind the
  windows' arrays, each whole at the full share; the pipeline's proof data holds one points-to PER WINDOW, an input
  window's at the share the proof data names for it, the output window's at the full share. A buffer's full share
  is its left half and its right half, so z's buffer at the full share is window 0's points-to at the left half and
  window 1's at the right half, as long as both windows are said to hold what the buffer holds; the result's buffer
  is window 2's points-to as it stands. Read in the other direction, the three windows' points-tos at the region's
  exit join to the two buffers whole.
-/
import proofs.«159962_j63264868270602_1_alg».proof.Proof.KernelIdeal.Kit
import Idealize.ShloMosaic.Rules.PointsTo
import Idealize.SL.RA.TreeShare
import Idealize.SL.ProofMode.BigOp

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-- The three windows sit on two buffers: z (windows 0 and 1) and the result column (window 2). -/
theorem arrRefs_eq : Finset.univ.image (Pipeline.arrRef spec0) = {main_v0, main_v38} := by decide

/-- The buffer behind z at the full share is its two windows' halves, and the result's buffer its window's: the
    buffers behind the arrays at contents `W` are the proof data's arrays at contents `G`, when `G` is `W` window by
    window. Window 0 holds z at the left half of the full share and window 1 at the right half (`hq0`, `hq1`);
    window 2, an output, holds the result column at the full share whatever the proof data says. -/
theorem deal {c : Dev nD} (dat : Dat τ (Elt F) Unit ℕ (UR sig nD τ) ℕ cfg0 c)
    (hq0 : dat.q 0 = fullShare.left) (hq1 : dat.q 1 = fullShare.right)
    (W : (b : Ref sig .tc) → Buf (Elt F) ((c.tc : Thread nD τ).loc b))
    (G : (w : Fin cfg0.W) → Buf (Elt F) ((cfg0.win w).arr.view.loc (c.tc : Thread nD τ)))
    (hG : ∀ w, G w = W (Pipeline.arrRef spec0 w)) :
    (Pipeline.arrBufs spec0 c W : sProp 𝕄) ⊣⊢ dat.arrays G := by
  -- each window's share: the two inputs' are the proof data's, the output's is the full share
  have hs0 : dat.share 0 = fullShare.left := (if_neg (by decide)).trans hq0
  have hs1 : dat.share 1 = fullShare.right := (if_neg (by decide)).trans hq1
  have hs2 : dat.share 2 = fullShare := if_pos (by decide)
  -- each window's points-to, over its buffer: the array is the whole buffer, so the element set is every index
  have e0 : ((cfg0.win 0).arr.view.loc (c.tc : Thread nD τ) ↦[(cfg0.win 0).arr.view.set]{dat.share 0} G 0 : sProp 𝕄)
      = ((c.tc : Thread nD τ).loc main_v0 ↦{fullShare.left} W main_v0) := by
    rw [hs0, hG 0, show (cfg0.win 0).arr.view.set = Finset.univ from (arr_whole0 0).set_eq_univ]
  have e1 : ((cfg0.win 1).arr.view.loc (c.tc : Thread nD τ) ↦[(cfg0.win 1).arr.view.set]{dat.share 1} G 1 : sProp 𝕄)
      = ((c.tc : Thread nD τ).loc main_v0 ↦{fullShare.right} W main_v0) := by
    rw [hs1, hG 1, show (cfg0.win 1).arr.view.set = Finset.univ from (arr_whole0 1).set_eq_univ]
  have e2 : ((cfg0.win 2).arr.view.loc (c.tc : Thread nD τ) ↦[(cfg0.win 2).arr.view.set]{dat.share 2} G 2 : sProp 𝕄)
      = ((c.tc : Thread nD τ).loc main_v38 ↦{fullShare} W main_v38) := by
    rw [hs2, hG 2, show (cfg0.win 2).arr.view.set = Finset.univ from (arr_whole0 2).set_eq_univ]
  -- two buffers on the left, three windows on the right
  unfold Pipeline.arrBufs Dat.arrays
  rw [arrRefs_eq, bigSep_W0, bigSep_insert (by decide), bigSep_singleton, e0, e1, e2]
  show iprop(((c.tc : Thread nD τ).loc main_v0 ↦{fullShare} W main_v0) ∗ ((c.tc : Thread nD τ).loc main_v38 ↦{fullShare} W main_v38))
    ⊣⊢ iprop(((c.tc : Thread nD τ).loc main_v0 ↦{fullShare.left} W main_v0) ∗ ((c.tc : Thread nD τ).loc main_v0 ↦{fullShare.right} W main_v0)
      ∗ ((c.tc : Thread nD τ).loc main_v38 ↦{fullShare} W main_v38))
  constructor
  · -- z's full share splits into its halves; the result column passes through
    iintro ⟨Hz, Hr⟩
    ihave Hz := (pointsTo_share (PosShare.mem_left_op_right fullShare)).1 $$ Hz
    icases Hz with ⟨Hz₁, Hz₂⟩
    isplitl [Hz₁]; · iexact Hz₁
    isplitl [Hz₂] <;> iassumption
  · -- the halves of z join to its full share
    iintro ⟨Hz₁, Hz₂, Hr⟩
    isplitl [Hz₁ Hz₂]
    · iapply (pointsTo_share (PosShare.mem_left_op_right fullShare)).2
      isplitl [Hz₁] <;> iassumption
    · iexact Hr

/-- Dealing: the buffers behind the arrays, each whole, make the proof data's arrays at the same contents. -/
theorem deal_split {c : Dev nD} (dat : Dat τ (Elt F) Unit ℕ (UR sig nD τ) ℕ cfg0 c)
    (hq0 : dat.q 0 = fullShare.left) (hq1 : dat.q 1 = fullShare.right)
    (W : (b : Ref sig .tc) → Buf (Elt F) ((c.tc : Thread nD τ).loc b))
    (G : (w : Fin cfg0.W) → Buf (Elt F) ((cfg0.win w).arr.view.loc (c.tc : Thread nD τ)))
    (hG : ∀ w, G w = W (Pipeline.arrRef spec0 w)) :
    (Pipeline.arrBufs spec0 c W : sProp 𝕄) ⊢ dat.arrays G :=
  (deal dat hq0 hq1 W G hG).1

/-- Gathering: the proof data's arrays give back the buffers behind them, each whole, at the same contents. -/
theorem deal_join {c : Dev nD} (dat : Dat τ (Elt F) Unit ℕ (UR sig nD τ) ℕ cfg0 c)
    (hq0 : dat.q 0 = fullShare.left) (hq1 : dat.q 1 = fullShare.right)
    (W : (b : Ref sig .tc) → Buf (Elt F) ((c.tc : Thread nD τ).loc b))
    (G : (w : Fin cfg0.W) → Buf (Elt F) ((cfg0.win w).arr.view.loc (c.tc : Thread nD τ)))
    (hG : ∀ w, G w = W (Pipeline.arrRef spec0 w)) :
    (dat.arrays G : sProp 𝕄) ⊢ Pipeline.arrBufs spec0 c W :=
  (deal dat hq0 hq1 W G hG).2

end Cert.KernelIdeal.Region

end
-- ==== Proof.KernelIdeal.Whole.lean ====
/-
  The whole run of the program: the region launched on its proof data, with @main's host operations around it.

  At the region's exit the memory is as at its entry except for the result column's array, which holds what the
  sixteen write-backs of each row tile left. The buffer behind z was dealt to the two windows that read it, half
  and half, at the first point; at the last the halves are joined again, the seven host operations after the region
  run (they write neither z nor the result column), and the halves are dealt once more so that the arrays can be
  read at the end. The two arguments are never written: not by the host operations, which each write their own
  result, and not by the region, whose only output window is the result column.
-/
import proofs.«159962_j63264868270602_1_alg».proof.Proof.KernelIdeal.Frame
import proofs.«159962_j63264868270602_1_alg».proof.Proof.KernelIdeal.Shares
import proofs.«159962_j63264868270602_1_alg».proof.Proof.LibSharedTail

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

open Classical in
/-- The memory at the region's exit: as at its entry, the result column's array at what the write-backs left. -/
def Wx (c : Dev nD) : Valuation τ sig (Elt F) :=
  Function.update (V0 m c) (Proc.devRef .tc main_v38) ((dats m 0 c).arrAt 2 cfg0.N)

theorem Wx_result (c : Dev nD) : Wx m c (Proc.devRef .tc main_v38) = (dats m 0 c).arrAt 2 cfg0.N := by
  unfold Wx; exact Function.update_self ..

theorem Wx_other (c : Dev nD) (b : DevRef τ sig) (h : b ≠ Proc.devRef .tc main_v38) : Wx m c b = V0 m c b := by
  unfold Wx; exact Function.update_of_ne h ..

/-- Off the region's arrays nothing changed. -/
theorem Wx_rest (c : Dev nD) : ∀ b ∈ Pipeline.restRefs sig spec0, Wx m c (Proc.devRef .tc b) = V0 m c (Proc.devRef .tc b) := by
  intro b hb
  refine Wx_other m c _ (fun h => ?_)
  have hb38 : b = main_v38 := Proc.devRef_injective _ h
  subst hb38
  exact (Finset.mem_sdiff.mp hb).2 (Finset.mem_image.mpr ⟨2, Finset.mem_univ _, rfl⟩)

/-- Window by window, the arrays at the exit are the exit memory: z was never written, the result column is. -/
theorem exit_eq (c : Dev nD) (w : Fin cfg0.W) :
    (dats m 0 c).arrAt w cfg0.N = Wx m c (Proc.devRef .tc (Pipeline.arrRef spec0 w)) := by
  match w with
  | ⟨0, _⟩ =>
    rw [(dats m 0 c).arrAt_in ⟨0, _⟩ rfl]
    exact (A_eq m c _).trans (Wx_other m c _ (StableHlo.devRef_ne_of_ne (by decide : (main_v0 : Ref sig .tc) ≠ main_v38))).symm
  | ⟨1, _⟩ =>
    rw [(dats m 0 c).arrAt_in ⟨1, _⟩ rfl]
    exact (A_eq m c _).trans (Wx_other m c _ (StableHlo.devRef_ne_of_ne (by decide : (main_v0 : Ref sig .tc) ≠ main_v38))).symm
  | ⟨2, _⟩ => exact (Wx_result m c).symm

theorem hsplit (c : Dev nD) :
    (Pipeline.arrBufs spec0 c (fun b => V0 m c (Proc.devRef .tc b)) : sProp 𝕄) ⊢ (dats m 0 c).arrays ((dats m 0 c).arrAt · 0) :=
  (deal (dats m 0 c) (q_0 m c) (q_1 m c) (V m c) ((dats m 0 c).arrAt · 0) (fun w => A_eq m c w)).1

theorem hexit (c : Dev nD) :
    (dats m 0 c).arrays ((dats m 0 c).arrAt · cfg0.N) ⊢ (Pipeline.arrBufs spec0 c (fun b => Wx m c (Proc.devRef .tc b)) : sProp 𝕄) :=
  (deal (dats m 0 c) (q_0 m c) (q_1 m c) (fun b => Wx m c (Proc.devRef .tc b)) ((dats m 0 c).arrAt · cfg0.N) (exit_eq m c)).2

theorem hback (c : Dev nD) :
    (Pipeline.arrBufs spec0 c (fun b => Wx m c (Proc.devRef .tc b)) : sProp 𝕄) ⊢ (dats m 0 c).arrays ((dats m 0 c).arrAt · cfg0.N) :=
  (deal (dats m 0 c) (q_0 m c) (q_1 m c) (fun b => Wx m c (Proc.devRef .tc b)) ((dats m 0 c).arrAt · cfg0.N) (exit_eq m c)).1

set_option backward.isDefEq.respectTransparency.types false in
/-- From any memory with zero counters, every weakly fair execution of @main terminates; at the end every array of
    the region holds what the proof data computes, and every other unscoped buffer what the seven later operations
    leave from the exit memory. -/
theorem run_main : θ_run defs (onTc (τ := τ) (main (F := F))) (s₀ m ρ)
    (Pipeline.FramePost cfgs (dats m) 0 (fun c b => StableHlo.after (List.flatten [hostOps1]) (Wx m c) (Proc.devRef .tc b))) :=
  Pipeline.θ_run_frame_shared_around cfgs (dats m) (0 : Fin 1) cellOf_inj winFacts₀0 block_pos0 arr_whole0 stage_whole0 defs₀ Variants.none m ρ main
    (hbody := fun c => (body_obligation m c).loose) (howed := fun _ _ => rfl) (V₀ := V0 m) (Wx := Wx m) (opss := [hostOps1])
    (hsub := tail_sub) (hfresh := tail_fresh) (hkeep := tail_keeps) (hmain := hmain m Variants.none)
    (hsplit := hsplit m) (hexit := hexit m) (hback := hback m) (hWx := Wx_rest m) (hin := hin m) (hout := hout m)

/-- An argument of @main is no array of the region and no host operation writes it: it ends as it began. -/
theorem kept (c : Dev nD) (b : Ref sig .tc) (hb : b ∈ Pipeline.restRefs sig spec0)
    (h0 : ∀ op ∈ (hostOps0 : List (HloOp τ sig (Elt F))), Proc.devRef .tc b ∉ op.writes)
    (h1 : ∀ op ∈ (hostOps1 : List (HloOp τ sig (Elt F))), Proc.devRef .tc b ∉ op.writes) :
    StableHlo.after (List.flatten [hostOps1]) (Wx m c) (Proc.devRef .tc b) = m ((c.tc : Thread nD τ).loc b) := by
  rw [StableHlo.after_of_forall_not_mem _ _ (by simpa only [List.flatten_cons, List.flatten_nil, List.append_nil] using h1),
    Wx_rest m c b hb]
  show StableHlo.after (List.flatten [hostOps0]) (fun b => m (c, b)) (Proc.devRef .tc b) = _
  rw [StableHlo.after_of_forall_not_mem _ _ (by simpa only [List.flatten_cons, List.flatten_nil, List.append_nil] using h0)]

end Cert.KernelIdeal.Region

end
-- ==== Proof.KernelIdeal.Kept.lean ====
/-
  The program leaves its two arguments as it found them.

  @main is 48 host operations, the one region, and 7 more host operations. Each host operation writes exactly one
  buffer, its own result, and none of those 55 results is an argument. The region writes through its one output
  window, whose array is the result column, and reads z through the other two; the arguments are no array of the
  region and are unscoped, so they bypass it. Hence at the end of every execution each argument holds its launch
  contents.
-/
import proofs.«159962_j63264868270602_1_alg».proof.Proof.KernelIdeal.Whole

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The first argument is unscoped and is no array of the region. -/
theorem arg0_rest : main_arg0 ∈ Pipeline.restRefs sig spec0 :=
  Pipeline.mem_restRefs_of main_arg0 rfl (by decide)

/-- So is the second. -/
theorem arg1_rest : main_arg1 ∈ Pipeline.restRefs sig spec0 :=
  Pipeline.mem_restRefs_of main_arg1 rfl (by decide)

/-- None of the 48 operations before the region writes an argument: each writes its own result only. -/
theorem hostOps0_keeps (b : Ref sig .tc) (hb : b = main_arg0 ∨ b = main_arg1) :
    ∀ op ∈ (hostOps0 : List (HloOp τ sig (Elt F))), Proc.devRef (τ := τ) .tc b ∉ op.writes := by
  refine List.forall_iff_forall_mem.mp ?_
  simp only [List.Forall, hostOps0, StableHlo.binary_writes, StableHlo.unary_writes, StableHlo.nullary_writes,
    Finset.mem_singleton]
  rcases hb with rfl | rfl
  all_goals (repeat' constructor)
  all_goals exact StableHlo.devRef_ne_of_ne (by decide)

/-- Nor does any of the 7 after it. -/
theorem hostOps1_keeps (b : Ref sig .tc) (hb : b = main_arg0 ∨ b = main_arg1) :
    ∀ op ∈ (hostOps1 : List (HloOp τ sig (Elt F))), Proc.devRef (τ := τ) .tc b ∉ op.writes := by
  refine List.forall_iff_forall_mem.mp ?_
  simp only [List.Forall, hostOps1, StableHlo.binary_writes, StableHlo.unary_writes, StableHlo.nullary_writes,
    StableHlo.reshape_writes, Finset.mem_singleton]
  rcases hb with rfl | rfl
  all_goals (repeat' constructor)
  all_goals exact StableHlo.devRef_ne_of_ne (by decide)

/-- Every weakly fair execution of @main terminates and the two arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 arg0_rest).trans
        (kept m c main_arg0 arg0_rest (hostOps0_keeps main_arg0 (.inl rfl)) (hostOps1_keeps main_arg0 (.inl rfl))),
      ((h c).2 main_arg1 arg1_rest).trans
        (kept m c main_arg1 arg1_rest (hostOps0_keeps main_arg1 (.inr rfl)) (hostOps1_keeps main_arg1 (.inr rfl)))⟩)
    (run_main m ρ)

end Cert.KernelIdeal.Region

end
-- ==== Proof.KernelIdeal.Pieces.lean ====
/-
  What each case of the body leaves in the two columns, as the body's own arithmetic.

  The scratch column and the result column end every point with the same contents: this point's update of the
  column of partial sums, applied to the cleared column at a first column tile and to what the point before left
  otherwise. (The result column is a copy of the scratch, loaded after the update was stored.)
-/
import proofs.«159962_j63264868270602_1_alg».proof.Proof.KernelIdeal.Frame
import Idealize.ShloMosaic.Lib.Pipeline.Value

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

/-- The offset of every load and store of the body: the origin. -/
theorem hz : (![0, 0] : Fin 2 → Nat) = fun _ => 0 := funext fun a => by fin_cases a <;> rfl

/-- A load of the whole buffer after a list of stores whose last one covers the buffer reads that last store. -/
theorem readCov_cons_whole {Val : EltTy → Type} [∀ e, Nonempty (Val e)] {S : Shape} {e : EltTy} {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, View.mem_set_unit_zero rfl inb y⟩),
    View.canon_cons_unit_zero rfl, View.ld_unit_zero rfl]

/-- One point's update of the column of partial sums `s`, from the point's coordinates and its two blocks. -/
def update (i : grid0.Coords) (x0 : Vec F S2048x256 .f32) (x1 : Vec F S512x256 .f32) (s : Vec F S2048x1 .f32) : Vec F S2048x1 .f32 :=
  k0_pay1 (BitVec.ofNat 32 (i 0).val) (BitVec.ofNat 32 (i 1).val) (k0_pay3 x0 x1) s

theorem accLater_eq (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S2048x1 .f32) (harg4 : arg4.IsWhole) (arg5 : Memref sig .tc .vmem S2048x1 .f32) (harg5 : arg5.IsWhole) (hc : ¬firstTile i) (x0 : Vec F S2048x256 .f32) (x1 : Vec F S512x256 .f32) (xs : Vec F S2048x1 .f32) :
    accLater c i arg2 harg2 arg3 harg3 arg4 harg4 arg5 harg5 hc x0 x1 xs = update i x0 x1 xs := by
  unfold accLater update
  rw [View.read_writes_eq_canon _ _ _ (coverLaterS c i arg2 harg2 arg3 harg3 arg4 harg4 arg5 harg5 hc x0 x1 xs)]
  unfold runLater
  dsimp only
  sl_unfold_words
  rw [View.canon_unit_zero (S := S2048x1) hz]
  simp only [View.readAt_eq_ld, harg2.read_unread, harg3.read_unread, harg5.read_unread, View.ld_unit_zero (S := S2048x256) hz, View.ld_unit_zero (S := S512x256) hz, View.ld_unit_zero (S := S2048x1) hz]

theorem outLater_eq (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S2048x1 .f32) (harg4 : arg4.IsWhole) (arg5 : Memref sig .tc .vmem S2048x1 .f32) (harg5 : arg5.IsWhole) (hc : ¬firstTile i) (x0 : Vec F S2048x256 .f32) (x1 : Vec F S512x256 .f32) (xs : Vec F S2048x1 .f32) :
    outLater c i arg2 harg2 arg3 harg3 arg4 harg4 arg5 harg5 hc x0 x1 xs = update i x0 x1 xs := by
  unfold outLater update
  rw [View.read_writes_eq_canon _ _ _ (coverLaterO c i arg2 harg2 arg3 harg3 arg4 harg4 arg5 harg5 hc x0 x1 xs)]
  unfold runLater
  dsimp only
  sl_unfold_words
  rw [View.canon_unit_zero (S := S2048x1) hz]
  simp only [View.readCov_unit_zero (S := S2048x1) _ hz]
  simp only [View.readAt_eq_ld, harg2.read_unread, harg3.read_unread, harg5.read_unread, View.ld_unit_zero (S := S2048x256) hz, View.ld_unit_zero (S := S512x256) hz, View.ld_unit_zero (S := S2048x1) hz]

theorem accFirst_eq (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S2048x1 .f32) (harg4 : arg4.IsWhole) (arg5 : Memref sig .tc .vmem S2048x1 .f32) (harg5 : arg5.IsWhole) (hc : firstTile i) (x0 : Vec F S2048x256 .f32) (x1 : Vec F S512x256 .f32) :
    accFirst c i arg2 harg2 arg3 harg3 arg4 harg4 arg5 harg5 hc x0 x1 = update i x0 x1 (k0_pay2 (F := F)) := by
  unfold accFirst update
  rw [View.read_writes_eq_canon _ _ _ (coverFirstS c i arg2 harg2 arg3 harg3 arg4 harg4 arg5 harg5 hc x0 x1)]
  unfold runFirst
  dsimp only
  sl_unfold_words
  rw [View.canon_cons_unit_zero (S := S2048x1) hz, View.readCov_unit_zero (S := S2048x1) _ hz]
  simp only [View.readAt_eq_ld, harg2.read_unread, harg3.read_unread, harg5.read_unread, View.ld_unit_zero (S := S2048x256) hz, View.ld_unit_zero (S := S512x256) hz, View.ld_unit_zero (S := S2048x1) hz]

theorem outFirst_eq (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S2048x1 .f32) (harg4 : arg4.IsWhole) (arg5 : Memref sig .tc .vmem S2048x1 .f32) (harg5 : arg5.IsWhole) (hc : firstTile i) (x0 : Vec F S2048x256 .f32) (x1 : Vec F S512x256 .f32) :
    outFirst c i arg2 harg2 arg3 harg3 arg4 harg4 arg5 harg5 hc x0 x1 = update i x0 x1 (k0_pay2 (F := F)) := by
  unfold outFirst update
  rw [View.read_writes_eq_canon _ _ _ (coverFirstO c i arg2 harg2 arg3 harg3 arg4 harg4 arg5 harg5 hc x0 x1)]
  unfold runFirst
  dsimp only
  sl_unfold_words
  rw [View.canon_unit_zero (S := S2048x1) hz, readCov_cons_whole (S := S2048x1) _ hz, View.readCov_unit_zero (S := S2048x1) _ hz]
  simp only [View.readAt_eq_ld, harg2.read_unread, harg3.read_unread, harg5.read_unread, View.ld_unit_zero (S := S2048x256) hz, View.ld_unit_zero (S := S512x256) hz, View.ld_unit_zero (S := S2048x1) hz]

end Cert.KernelIdeal.Region

end
-- ==== Proof.Spec.lean ====
/-
  The contrastive loss both programs compute, written once over the extended reals.

  Stack the two batches into 8192 rows of 256 entries. Each row is divided by its Euclidean norm floored at a
  small constant, and the result once more with a second floor. The similarity of rows r and s is the inner product
  of their normalised forms. Row r contributes

      log (sum over s ≠ r of exp (similarity r s / T))  -  similarity r (r ± 4096) / T

  and the loss is the mean of the contributions. The quotient by the temperature T is the product with 1 / T on
  every extended real, T being a nonzero real; the sum over the other rows may be taken in any grouping, in
  particular sixteen groups of 512 consecutive rows. This file names the pieces; it states nothing about either
  program.
-/
import Idealize.ShloMosaic.PureOps.Ideal
import Idealize.ShloMosaic.Lib.ValueIdx

noncomputable section

open scoped BigOperators

namespace Cert.Contrastive

open Idealize.ShloMosaic

/-- The first norm floor: the real number the single-precision word nearest 1e-12 denotes. -/
def floor₁ : EReal := Ideal.ofBits .f32 0x2B8CBCCC#32
/-- The second norm floor: the real number the single-precision word nearest 1e-8 denotes. -/
def floor₂ : EReal := Ideal.ofBits .f32 0x322BCC77#32
/-- The temperature T: the real number 9395241 / 2^27 the single-precision word nearest 0.07 denotes. -/
def temp : EReal := Ideal.ofBits .f32 0x3D8F5C29#32
/-- 1 / T as a rational. -/
def invTemp : EReal := ((134217728 / 9395241 : ℝ) : EReal)

/-- A row divided by its Euclidean norm, the norm floored at `ε`. -/
def unit (ε : EReal) (x : Fin 256 → EReal) : Fin 256 → EReal :=
  fun d => Ideal.div (x d) (max (Ideal.sqrt (∑ k : Fin 256, x k * x k)) ε)

/-- The two normalisations in turn. -/
def unit₂ (x : Fin 256 → EReal) : Fin 256 → EReal := unit floor₂ (unit floor₁ x)

/-- The inner product of two normalised rows. -/
def cosine (x y : Fin 256 → EReal) : EReal := ∑ d : Fin 256, unit₂ x d * unit₂ y d

/-- The two batches stacked: rows 0 … 4095 from the first, rows 4096 … 8191 from the second. -/
def stack (a b : Fin 4096 → Fin 256 → EReal) : Fin 8192 → Fin 256 → EReal :=
  fun r => if h : r.val < 4096 then a ⟨r.val, h⟩ else b ⟨r.val - 4096, by omega⟩

/-- One term of row `r`'s sum: nothing for the row itself, else the exponential of the similarity times 1 / T. -/
def term (z : Fin 8192 → Fin 256 → EReal) (r s : Fin 8192) : EReal :=
  if r.val = s.val then 0 else Ideal.exp (cosine (z r) (z s) * invTemp)

/-- Row `r`'s sum of exponentials over every other row. -/
def others (z : Fin 8192 → Fin 256 → EReal) (r : Fin 8192) : EReal := ∑ s : Fin 8192, term z r s

/-- The positive pair's similarity over the temperature: row `r mod 4096` of the first batch against the same row
    of the second. -/
def partner (a b : Fin 4096 → Fin 256 → EReal) (r : Fin 8192) : EReal :=
  Ideal.div (cosine (a ⟨r.val % 4096, Nat.mod_lt _ (by norm_num)⟩) (b ⟨r.val % 4096, Nat.mod_lt _ (by norm_num)⟩)) temp

/-- The mean over the 8192 rows of `log (sum over the other rows) − positive term`: the loss, from the two columns. -/
def mean (n p : Fin 8192 → EReal) : EReal :=
  Ideal.div (∑ r : Fin 8192, (Ideal.log (n r) - p r)) (Ideal.ofBits .f32 0x46000000#32)

/-- A two-axis array of extended reals read as a function of its row and its column. -/
abbrev rows {A B : Nat} (x : (⟨2, ![A, B]⟩ : Shape).Idx → EReal) : Fin A → Fin B → EReal :=
  fun r d => x (ValueIdx.ix2 r d)

end Cert.Contrastive

end
-- ==== Proof.LibTransposedRhsDot.lean ====
/-
  A matrix product against a transposed right operand, read at an entry, at the ideal instance.

  For a left operand [M, K] and a right operand [N, K] contracted on the LAST axis of both (the dimension record
  `DotDims.transposedRhs M K N`: no batch axis, the left rows first in the result, then the right rows), the
  product accumulated into the zero array holds at entry (i, j) the sum over k of l[i, k] · r[j, k]: the
  extended reals' sum and product, the zero accumulator's word being the real 0. The operand indices the record
  computes at a result index and a contraction position are read off coordinate by coordinate: the left one is
  (i, k), the right one (j, k); the contraction positions, a rank-1 index set of K entries, are renumbered by Fin K.
  Stated for any record EQUAL to `transposedRhs M K N`, so that a program's own record, whose fields are these
  lists, is used through `rfl`.
-/
import Idealize.ShloMosaic.PureOps.Ideal.Laws
import Idealize.ShloMosaic.Lib.ValueIdx

noncomputable section

namespace Idealize.ShloMosaic.TransposedRhsDot

open Idealize.ShloMosaic Idealize.ShloMosaic.ValueIdx

variable {M K N : Nat}

/-- The left operand's row is the result's row. -/
theorem lhs_0 (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.2 rfl)]
  rfl

/-- The left operand's column is the contraction position. -/
theorem lhs_1 (j : (⟨2, ![M, N]⟩ : Shape).Idx) (q : (DotDims.transposedRhs M K N).contr.Idx) :
    ((DotDims.transposedRhs M K N).lhsIdx j q 1).val = (q ⟨0, Nat.one_pos⟩).val :=
  (DotDims.transposedRhs M K N).lhsIdx_val_of_single rfl j q

/-- The right operand's row is the result's column. -/
theorem rhs_0 (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.2 rfl)]
  rfl

/-- The right operand's column is the contraction position. -/
theorem rhs_1 (j : (⟨2, ![M, N]⟩ : Shape).Idx) (q : (DotDims.transposedRhs M K N).contr.Idx) :
    ((DotDims.transposedRhs M K N).rhsIdx j q 1).val = (q ⟨0, Nat.one_pos⟩).val :=
  (DotDims.transposedRhs M K N).rhsIdx_val_of_single rfl j q

/-- A `tpu.matmul` into the zero accumulator, its record `transposedRhs M K N`, at entry `j`: the sum over `k` of
    the left operand at (j 0, k) times the right operand at (j 1, k). -/
theorem matmul_zero_apply {φ₁ φ₂ : FTy} (d : DotDims ⟨2, ![M, K]⟩ ⟨2, ![N, K]⟩ ⟨2, ![M, N]⟩)
    (hd : d = DotDims.transposedRhs M K N) (prec : Option ContractPrecision)
    (l : FVec Ideal ⟨2, ![M, K]⟩ φ₁) (r : FVec Ideal ⟨2, ![N, K]⟩ φ₂) (j : (⟨2, ![M, N]⟩ : Shape).Idx) :
    FloatOps.matmul d prec l r (constant (F := Ideal) ⟨2, ![M, N]⟩ .f32 0x00000000#32) j
      = ∑ k : Fin K, l (ix2 (j 0) k) * r (ix2 (j 1) k) := by
  subst hd
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx j ((contrEquiv1 (DotDims.transposedRhs M K N) K rfl rfl).symm k) = ix2 (j 0) k :=
    funext fun a => Fin.ext (by
      match a with
      | ⟨0, _⟩ => exact lhs_0 _ _
      | ⟨1, _⟩ => exact (lhs_1 _ _).trans hk)
  have er : (DotDims.transposedRhs M K N).rhsIdx j ((contrEquiv1 (DotDims.transposedRhs M K N) K rfl rfl).symm k) = ix2 (j 1) k :=
    funext fun a => Fin.ext (by
      match a with
      | ⟨0, _⟩ => exact rhs_0 _ _
      | ⟨1, _⟩ => exact (rhs_1 _ _).trans hk)
  rw [el, er]
  rfl

end Idealize.ShloMosaic.TransposedRhsDot

end
-- ==== Proof.LibKeepdims.lean ====
/-
  Column and unit-axis layouts read at an index, by coordinates.

  A vector of `a` entries viewed as a column `[a, 1]`, a column `[a, 1]` broadcast across `b` columns, a
  `[1, 1, a]` block viewed as a vector, and an `[a, b]` array given a middle unit axis: each only re-addresses its operand, and each is read here at an index written
  by its coordinates, so that a chain of them rewrites to the operand at one explicit index. They stand beside the
  library's row forms (`[a]` as `[1, a]`, a row `[1, b]` broadcast down `a` rows).
-/
import Idealize.ShloMosaic.Lib.Pipeline.Value
import Idealize.ShloMosaic.Lib.ValueIdx

namespace Cert.Keepdims

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[1, 1, a]` array cast to `[a]` reads, at `i`, the operand at `(0, 0, i)`. -/
theorem shapeCast_11a_a_apply {a : ℕ} (x : (⟨3, ![1, 1, a]⟩ : Shape).Idx → α) (h : (⟨3, ![1, 1, a]⟩ : Shape).ShapeCasts ⟨1, ![a]⟩)
    (i : Fin a) : shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp)

/-- An `[a, b]` array cast to `[a, 1, b]` reads, at `(i, u, j)`, the operand at `(i, j)`, whatever the unit coordinate `u`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.KernelIdeal.Payload.lean ====
/-
  What the body's three payloads hold, entry by entry, over the extended reals.

  The similarity tile. The row block [2048, 256] and the column block [512, 256] are each normalised twice: a row is
  divided by the square root of the sum of its squares, floored at a small constant, and the result once more with a
  second floor. A sum along a row, kept as a column [a, 1] and broadcast back across the 256 entries, reads at (p, d)
  the sum over row p, so each normalisation at (p, d) is the row's entry d over the row's floored norm. The change of
  format before the product is the identity on extended reals, and the product into the zero array, contracted on the
  last axis of both operands, holds at (p, q) the inner product of normalised row p and normalised row q.

  The update of the partial sums. The tile is multiplied by the constant that denotes 1 / T. The mask compares two
  32-bit words: the tile's first global row 2048 · i0 plus the row p, and its first global column 512 · i1 plus the
  column q; both numbers are below 8192, so the words differ exactly when the numbers do. Where they differ the entry
  is the exponential, elsewhere zero; the 512 entries of row p are summed and added to what the column held.

  The cleared column is the zero word everywhere, the real 0.
-/
import proofs.«159962_j63264868270602_1_alg».proof.Proof.Gen.KernelIdeal.Skeleton
import proofs.«159962_j63264868270602_1_alg».proof.Proof.Spec
import proofs.«159962_j63264868270602_1_alg».proof.Proof.LibTransposedRhsDot
import proofs.«159962_j63264868270602_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Idealize.ShloMosaic Idealize.ShloMosaic.ValueIdx Cert.KernelIdeal Cert.KernelIdeal.Gen Cert.Contrastive

/-- Over row p of the reduced shape [a], inserting column k gives the index (p, k) of the [a, b] array. -/
theorem lift_row {a b : ℕ} (h : (⟨2, ![a, b]⟩ : Shape).Reduces [1] ⟨1, ![a]⟩) (p : Fin a) (k : Fin b) :
    h.lift (ix1 p) k = ix2 p k := by
  funext c
  refine Fin.ext ?_
  show h.liftVal (ix1 p) k.val c = _
  match c with
  | ⟨0, _⟩ => rfl
  | ⟨1, _⟩ => rfl

/-- The sum of squares along a row of an [a, 256] block, read at row p. -/
theorem sumsq_apply {a : ℕ} (x : FVec Ideal ⟨2, ![a, 256]⟩ .f32)
    (hR : (⟨2, ![a, 256]⟩ : Shape).Reduces [1] ⟨1, ![a]⟩) (p : Fin a) :
    multiReduction .add [1] ⟨1, ![a]⟩ (mulf x x) 0x00000000#32 hR (.inl rfl) rfl (ix1 p)
      = ∑ k : Fin 256, x (ix2 p k) * x (ix2 p k) := by
  refine (Ideal.multiReduction_add_single (mulf x x) _ hR _ _ (ix1 p)).trans ?_
  exact Finset.sum_congr rfl fun (k : Fin 256) _ => congrArg (mulf x x) (lift_row hR p k)

/-- One normalisation of an [a, 256] block read at (p, d): row p divided by its floored norm. -/
theorem normalise_apply {a : ℕ} (x : FVec Ideal ⟨2, ![a, 256]⟩ .f32) (w : BitVec 32)
    (hR : (⟨2, ![a, 256]⟩ : Shape).Reduces [1] ⟨1, ![a]⟩) (hC : (⟨1, ![a]⟩ : Shape).ShapeCasts ⟨2, ![a, 1]⟩)
    (hB : (⟨2, ![a, 1]⟩ : Shape).Broadcasts ⟨2, ![a, 256]⟩) (p : Fin a) (d : Fin 256) :
    divf x (broadcastTo ⟨2, ![a, 256]⟩ (maximumf (sqrt (shapeCast ⟨2, ![a, 1]⟩
        (multiReduction .add [1] ⟨1, ![a]⟩ (mulf x x) 0x00000000#32 hR (.inl rfl) rfl) hC))
        (broadcast ⟨2, ![a, 1]⟩ (Scalar.ofBits .f32 w))) hB) (ix2 p d)
      = unit (Ideal.ofBits .f32 w) (fun d => x (ix2 p d)) d := by
  rw [divf_apply, Cert.Keepdims.broadcastTo_a1_ab_apply, maximumf_apply]
  show Ideal.div (x (ix2 p d)) (max (Ideal.sqrt (shapeCast _ _ hC (ix2 p 0))) (Ideal.ofBits .f32 w)) = _
  rw [Cert.Keepdims.shapeCast_a_a1_apply]
  exact congrArg (fun t => Ideal.div (x (ix2 p d)) (max (Ideal.sqrt t) (Ideal.ofBits .f32 w))) (sumsq_apply x hR p)

/-- The two normalisations in turn of an [a, 256] block, read at (p, d). -/
theorem normalise₂_apply {a : ℕ} (x : FVec Ideal ⟨2, ![a, 256]⟩ .f32)
    (hR : (⟨2, ![a, 256]⟩ : Shape).Reduces [1] ⟨1, ![a]⟩) (hC : (⟨1, ![a]⟩ : Shape).ShapeCasts ⟨2, ![a, 1]⟩)
    (hB : (⟨2, ![a, 1]⟩ : Shape).Broadcasts ⟨2, ![a, 256]⟩) (p : Fin a) (d : Fin 256) :
    divf
        (divf x (broadcastTo ⟨2, ![a, 256]⟩ (maximumf (sqrt (shapeCast ⟨2, ![a, 1]⟩
          (multiReduction .add [1] ⟨1, ![a]⟩ (mulf x x) 0x00000000#32 hR (.inl rfl) rfl) hC))
          (broadcast ⟨2, ![a, 1]⟩ (Scalar.ofBits .f32 0x2B8CBCCC#32))) hB))
        (broadcastTo ⟨2, ![a, 256]⟩ (maximumf (sqrt (shapeCast ⟨2, ![a, 1]⟩
          (multiReduction .add [1] ⟨1, ![a]⟩
            (mulf
              (divf x (broadcastTo ⟨2, ![a, 256]⟩ (maximumf (sqrt (shapeCast ⟨2, ![a, 1]⟩
                (multiReduction .add [1] ⟨1, ![a]⟩ (mulf x x) 0x00000000#32 hR (.inl rfl) rfl) hC))
                (broadcast ⟨2, ![a, 1]⟩ (Scalar.ofBits .f32 0x2B8CBCCC#32))) hB))
              (divf x (broadcastTo ⟨2, ![a, 256]⟩ (maximumf (sqrt (shapeCast ⟨2, ![a, 1]⟩
                (multiReduction .add [1] ⟨1, ![a]⟩ (mulf x x) 0x00000000#32 hR (.inl rfl) rfl) hC))
                (broadcast ⟨2, ![a, 1]⟩ (Scalar.ofBits .f32 0x2B8CBCCC#32))) hB)))
            0x00000000#32 hR (.inl rfl) rfl) hC))
          (broadcast ⟨2, ![a, 1]⟩ (Scalar.ofBits .f32 0x322BCC77#32))) hB) (ix2 p d)
      = unit₂ (fun d => x (ix2 p d)) d := by
  rw [normalise_apply]
  show unit floor₂ _ d = unit floor₂ (unit floor₁ fun d => x (ix2 p d)) d
  exact congrArg (fun r => unit floor₂ r d) (funext fun d' => normalise_apply x _ hR hC hB p d')

/-- The similarity tile: entry (p, q) is the inner product of row p of the row block and row q of the column
    block, each normalised twice. -/
theorem tile_apply (x0 : Vec Ideal S2048x256 .f32) (x1 : Vec Ideal S512x256 .f32) (p : Fin 2048) (q : Fin 512) :
    k0_pay3 (F := Ideal) x0 x1 (ix2 p q) = cosine (fun d => x0 (ix2 p d)) (fun d => x1 (ix2 q d)) := by
  unfold k0_pay3
  simp only [shapeCast_self]
  refine (Idealize.ShloMosaic.TransposedRhsDot.matmul_zero_apply (M := 2048) (K := 256) (N := 512) _ rfl none _ _ (ix2 p q)).trans ?_
  refine Finset.sum_congr rfl fun k _ => ?_
  rw [truncf_apply, truncf_apply]
  show _ * _ = unit₂ _ k * unit₂ _ k
  rw [normalise₂_apply, normalise₂_apply]

/-- The cleared column is zero everywhere. -/
theorem cleared_apply (y : S2048x1.Idx) : k0_pay2 (F := Ideal) y = 0 := by
  unfold k0_pay2
  simp only [shapeCast_self]
  exact Ideal.ofBits_zero_f32

/-- The named constant 1/T denotes the rational 134217728/9395241. -/
theorem inv_temperature :
    Named.named (F := Ideal) κ "inv_temperature" (φ := .f32) 0x41649249#32 = invTemp :=
  IdealRules.named_const.ideal_named_scalar _ _ _ _ rfl

/-- A block's first global index plus an offset inside it, computed on 32-bit words, is the word of the number. -/
theorem word_eq (i m n : ℕ) :
    IntOp.addi (Scalar.muli (BitVec.ofNat 32 i) (BitVec.ofNat 32 m)) (BitVec.ofNat 32 n) = BitVec.ofNat 32 (i * m + n) := by
  show BitVec.ofNat 32 i * BitVec.ofNat 32 m + BitVec.ofNat 32 n = _
  rw [← BitVec.ofNat_mul, ← BitVec.ofNat_add]

/-- Two numbers below 2^32 differ as 32-bit words exactly when they differ. -/
theorem cmpi_ne_ofNat (m n : ℕ) (hm : m < 2 ^ 32) (hn : n < 2 ^ 32) :
    IntOp.cmpi .ne (BitVec.ofNat 32 m) (BitVec.ofNat 32 n) = if m = n then 0#1 else 1#1 := by
  by_cases h : m = n
  · rw [if_pos h, h]; simp [IntOp.cmpi]
  · rw [if_neg h]
    have hne : BitVec.ofNat 32 m ≠ BitVec.ofNat 32 n := fun e => h (by
      have := congrArg BitVec.toNat e
      rw [BitVec.toNat_ofNat, BitVec.toNat_ofNat, Nat.mod_eq_of_lt hm, Nat.mod_eq_of_lt hn] at this
      exact this)
    have hb : (BitVec.ofNat 32 m != BitVec.ofNat 32 n) = true := bne_iff_ne.mpr hne
    show BitVec.ofBool (BitVec.ofNat 32 m != BitVec.ofNat 32 n) = 1#1
    rw [hb]; rfl

/-- The diagonal mask at entry (p, q) of the tile at grid point (i0, i1): clear exactly where the global row index
    i0 * 2048 + p is the global column index i1 * 512 + q. -/
theorem mask_apply (i0 : Fin 4) (i1 : Fin 16) (h0 : S2048x512.Iotas .tc 32 [0]) (h1 : S2048x512.Iotas .tc 32 [1])
    (p : Fin 2048) (q : Fin 512) :
    cmpi .ne
        (addi (broadcast S2048x512 (Scalar.muli (BitVec.ofNat 32 i0.val) 2048#32)) (iota .tc S2048x512 32 [0] h0))
        (addi (broadcast S2048x512 (Scalar.muli (BitVec.ofNat 32 i1.val) 512#32)) (iota .tc S2048x512 32 [1] h1))
        (ix2 p q)
      = if i0.val * 2048 + p.val = i1.val * 512 + q.val then 0#1 else 1#1 := by
  show IntOp.cmpi .ne
      (IntOp.addi (Scalar.muli (BitVec.ofNat 32 i0.val) 2048#32) (iota .tc S2048x512 32 [0] h0 (ix2 p q)))
      (IntOp.addi (Scalar.muli (BitVec.ofNat 32 i1.val) 512#32) (iota .tc S2048x512 32 [1] h1 (ix2 p q))) = _
  rw [iota_single_apply, iota_single_apply]
  show IntOp.cmpi .ne
      (IntOp.addi (Scalar.muli (BitVec.ofNat 32 i0.val) (BitVec.ofNat 32 2048)) (BitVec.ofNat 32 p.val))
      (IntOp.addi (Scalar.muli (BitVec.ofNat 32 i1.val) (BitVec.ofNat 32 512)) (BitVec.ofNat 32 q.val)) = _
  rw [word_eq, word_eq]
  exact cmpi_ne_ofNat _ _ (by have := i0.isLt; have := p.isLt; omega) (by have := i1.isLt; have := q.isLt; omega)

/-- One grid point's update of the column of partial sums, at row p of the tile: what was there plus, over the
    512 columns of the column tile, exp(similarity * 1/T), nothing where the global row index i0*2048+p equals the
    global column index i1*512+q. -/
theorem update_apply (i0 : Fin 4) (i1 : Fin 16) (x0 : Vec Ideal S2048x256 .f32) (x1 : Vec Ideal S512x256 .f32)
    (s : Vec Ideal S2048x1 .f32) (p : Fin 2048) :
    k0_pay1 (F := Ideal) (BitVec.ofNat 32 i0.val) (BitVec.ofNat 32 i1.val) (k0_pay3 x0 x1) s (ix2 p 0)
      = s (ix2 p 0) + ∑ q : Fin 512, (if i0.val * 2048 + p.val = i1.val * 512 + q.val then 0
          else Ideal.exp (cosine (fun d => x0 (ix2 p d)) (fun d => x1 (ix2 q d)) * invTemp)) := by
  unfold k0_pay1
  simp only [shapeCast_self]
  rw [addf_apply, Cert.Keepdims.shapeCast_a_a1_apply]
  refine congrArg (s (ix2 p 0) + ·) ?_
  refine (Ideal.multiReduction_add_single _ _ reduces_S2048x512_S2048 _ _ (ix1 p)).trans ?_
  refine Finset.sum_congr rfl fun (q : Fin 512) _ => ?_
  refine (congrArg (select _ _ _) (lift_row reduces_S2048x512_S2048 p q)).trans ?_
  show Scalar.select (cmpi .ne _ _ (ix2 p q)) (Ideal.exp (k0_pay3 x0 x1 (ix2 p q) * Named.named (F := Ideal) κ "inv_temperature" (φ := .f32) 0x41649249#32))
      (Ideal.ofBits .f32 0x00000000#32) = _
  rw [mask_apply, tile_apply, inv_temperature, Ideal.ofBits_zero_f32]
  split
  · exact select_zero _ _
  · exact select_one _ _

end Cert.KernelIdeal.Payload

end
-- ==== Proof.KernelIdeal.Blocks.lean ====
/-
  The grid point's coordinates and its two blocks of z.

  Point t of the 4 × 16 grid has row tile t / 16 and column tile t mod 16. Window 0's block there is rows
  2048·(t / 16) … of z and window 1's is rows 512·(t mod 16) … of the same array: entry (p, d) of the first is z at row
  2048·(t / 16) + p, entry (q, d) of the second is z at row 512·(t mod 16) + q, both at column d.
-/
import proofs.«159962_j63264868270602_1_alg».proof.Proof.KernelIdeal.Kit
import proofs.«159962_j63264868270602_1_alg».proof.Proof.Spec
import Idealize.ShloMosaic.Lib.ValueIdx
import Idealize.ShloMosaic.Lib.Pipeline.Value

set_option maxRecDepth 16384

noncomputable section

namespace Cert.KernelIdeal.Column

open Idealize.ShloMosaic Idealize.ShloMosaic.ValueIdx Idealize.ShloMosaic.TcCoe
open Cert.KernelIdeal Cert.KernelIdeal.Gen Cert.KernelIdeal.Region Cert.Contrastive

variable (m : (ℓ : Loc nD τ sig) → Buf (Elt Ideal) ℓ)

/-- z as the region finds it on core `c`, by row and column. -/
def zAt (c : Dev nD) : Fin 8192 → Fin 256 → EReal :=
  fun r d => (V m c main_v0 : S8192x256.Idx → EReal) (ix2 r d)

/-- The point's row tile and column tile. -/
theorem coords_row (t : Fin cfg0.N) : ((grid0.coords t) 0).val = t.val / 16 :=
  (by decide +kernel : ∀ t : Fin grid0.N, ((grid0.coords t) 0).val = t.val / 16) t

theorem coords_col (t : Fin cfg0.N) : ((grid0.coords t) 1).val = t.val % 16 :=
  (by decide +kernel : ∀ t : Fin grid0.N, ((grid0.coords t) 1).val = t.val % 16) t

theorem row_lt (t : Fin cfg0.N) (p : Fin 2048) : t.val / 16 * 2048 + p.val < 8192 := by
  have : t.val < 64 := lt_of_lt_of_eq t.isLt N_0
  omega

theorem col_lt (t : Fin cfg0.N) (q : Fin 512) : t.val % 16 * 512 + q.val < 8192 := by
  omega

/-- The two input windows' block numbers at a point: window 0 moves with the row tile, window 1 with the column
    tile, neither along the columns of z. -/
theorem idx_facts : ∀ t : Fin cfg0.N, win0_0.index t (0 : Fin 2) = t.val / 16 ∧ win0_0.index t (1 : Fin 2) = 0
    ∧ win0_1.index t (0 : Fin 2) = t.val % 16 ∧ win0_1.index t (1 : Fin 2) = 0 :=
  (by decide +kernel : ∀ t : Fin grid0.N, win0_0.index t (0 : Fin 2) = t.val / 16 ∧ win0_0.index t (1 : Fin 2) = 0
    ∧ win0_1.index t (0 : Fin 2) = t.val % 16 ∧ win0_1.index t (1 : Fin 2) = 0)

/-- Window 0's block at point `t`: 2048 rows of z from row 2048·(t / 16). A block's coordinate on an axis is the
    block number times the block's extent plus the coordinate inside the block. -/
theorem rowBlock_apply (c : Dev nD) (t : Fin cfg0.N) (p : Fin 2048) (d : Fin 256) :
    (iblk m c 0 t : S2048x256.Idx → EReal) (ix2 p d) = zAt m c ⟨t.val / 16 * 2048 + p.val, row_lt t p⟩ d := by
  obtain ⟨e0, e1, -, -⟩ := idx_facts t
  show (V m c main_v0 : S8192x256.Idx → EReal) (((cfg0.win 0).blk t).view.emb (ix2 p d))
    = (V m c main_v0 : S8192x256.Idx → EReal) (ix2 ⟨t.val / 16 * 2048 + p.val, row_lt t p⟩ d)
  refine congrArg (V m c main_v0 : S8192x256.Idx → EReal) ?_
  funext a; apply Fin.ext
  match a with
  | ⟨0, _⟩ => show win0_0.index t (0 : Fin 2) * 2048 + 1 * p.val = t.val / 16 * 2048 + p.val; omega
  | ⟨1, _⟩ => show win0_0.index t (1 : Fin 2) * 256 + 1 * d.val = d.val; omega

/-- Window 1's block at point `t`: 512 rows of z from row 512·(t mod 16). -/
theorem colBlock_apply (c : Dev nD) (t : Fin cfg0.N) (q : Fin 512) (d : Fin 256) :
    (iblk m c 1 t : S512x256.Idx → EReal) (ix2 q d) = zAt m c ⟨t.val % 16 * 512 + q.val, col_lt t q⟩ d := by
  obtain ⟨-, -, e0, e1⟩ := idx_facts t
  show (V m c main_v0 : S8192x256.Idx → EReal) (((cfg0.win 1).blk t).view.emb (ix2 q d))
    = (V m c main_v0 : S8192x256.Idx → EReal) (ix2 ⟨t.val % 16 * 512 + q.val, col_lt t q⟩ d)
  refine congrArg (V m c main_v0 : S8192x256.Idx → EReal) ?_
  funext a; apply Fin.ext
  match a with
  | ⟨0, _⟩ => show win0_1.index t (0 : Fin 2) * 512 + 1 * q.val = t.val % 16 * 512 + q.val; omega
  | ⟨1, _⟩ => show win0_1.index t (1 : Fin 2) * 256 + 1 * d.val = d.val; omega

end Cert.KernelIdeal.Column

end
-- ==== Proof.Tiles.lean ====
/-
  Row r's sum of exponentials taken sixteen column tiles at a time.

  The 8192 rows a row is compared with fall into sixteen tiles of 512 consecutive rows; the sum over all of them is
  the sum over the tiles of the sums within each tile, in any order, since addition of extended reals is
  commutative and associative. `upTo z r k` is the part of row r's sum that the tiles 0 … k contribute: the
  quantity a running total holds after tile k.
-/
import proofs.«159962_j63264868270602_1_alg».proof.Proof.Spec
import Mathlib.Algebra.BigOperators.Fin
import Mathlib.Algebra.BigOperators.Group.Finset.Basic
import Mathlib.Logic.Equiv.Fin.Basic
import Mathlib.Algebra.BigOperators.Group.Finset.Piecewise
import Mathlib.Data.Fintype.BigOperators

noncomputable section

open scoped BigOperators

namespace Cert.Contrastive

/-- Tile `j`'s contribution to row `r`'s sum: the terms against rows 512·j … 512·j + 511. -/
def tileSum (z : Fin 8192 → Fin 256 → EReal) (r : Fin 8192) (j : Fin 16) : EReal :=
  ∑ q : Fin 512, term z r ⟨j.val * 512 + q.val, by have := j.isLt; have := q.isLt; omega⟩

/-- The contribution of the tiles 0 … k. -/
def upTo (z : Fin 8192 → Fin 256 → EReal) (r : Fin 8192) (k : ℕ) : EReal :=
  ∑ j : Fin 16, if j.val ≤ k then tileSum z r j else 0

/-- After the first tile: that tile's contribution. -/
theorem upTo_zero (z : Fin 8192 → Fin 256 → EReal) (r : Fin 8192) : upTo z r 0 = tileSum z r 0 := by
  unfold upTo
  rw [Finset.sum_eq_single (0 : Fin 16)]
  · exact if_pos (Nat.le_refl 0)
  · intro j _ hj
    have hn : ¬ j.val ≤ 0 := fun h => hj (Fin.ext (Nat.le_zero.mp h))
    rw [if_neg hn]
  · intro h
    exact absurd (Finset.mem_univ _) h

/-- One more tile adds its contribution. -/
theorem upTo_succ (z : Fin 8192 → Fin 256 → EReal) (r : Fin 8192) (k : ℕ) (hk : k + 1 < 16) :
    upTo z r (k + 1) = upTo z r k + tileSum z r ⟨k + 1, hk⟩ := by
  unfold upTo
  have hsplit : ∀ j : Fin 16, (if j.val ≤ k + 1 then tileSum z r j else 0)
      = (if j.val ≤ k then tileSum z r j else 0) + (if j = ⟨k + 1, hk⟩ then tileSum z r j else 0) := by
    intro j
    by_cases h1 : j.val ≤ k
    · have h2 : j ≠ ⟨k + 1, hk⟩ := fun e => by
        have : j.val = k + 1 := congrArg Fin.val e
        omega
      rw [if_pos h1, if_pos (by omega), if_neg h2, add_zero]
    · by_cases h2 : j = ⟨k + 1, hk⟩
      · have h3 : j.val ≤ k + 1 := by
          have : j.val = k + 1 := congrArg Fin.val h2
          omega
        rw [if_neg h1, if_pos h2, if_pos h3, zero_add]
      · have h3 : ¬ j.val ≤ k + 1 := fun h => h2 (Fin.ext (by show j.val = k + 1; omega))
        rw [if_neg h1, if_neg h2, if_neg h3, add_zero]
  rw [Finset.sum_congr rfl (fun j _ => hsplit j), Finset.sum_add_distrib, Finset.sum_ite_eq',
    if_pos (Finset.mem_univ _)]

/-- After the last tile: the whole sum over the other rows. -/
theorem upTo_last (z : Fin 8192 → Fin 256 → EReal) (r : Fin 8192) : upTo z r 15 = others z r := by
  unfold upTo others
  have h15 : ∀ j : Fin 16, j.val ≤ 15 := fun j => by have := j.isLt; omega
  rw [Finset.sum_congr rfl (fun j _ => if_pos (h15 j))]
  unfold tileSum
  symm
  calc ∑ s : Fin 8192, term z r s
      = ∑ x : Fin 16 × Fin 512, term z r (finProdFinEquiv x) :=
        (Equiv.sum_comp (finProdFinEquiv (m := 16) (n := 512)) (fun s => term z r s)).symm
    _ = ∑ j : Fin 16, ∑ q : Fin 512, term z r (finProdFinEquiv (j, q)) := Fintype.sum_prod_type _
    _ = _ := Finset.sum_congr rfl fun j _ => Finset.sum_congr rfl fun q _ =>
        congrArg (term z r) (Fin.ext (by
          show (q.val + 512 * j.val : ℕ) = j.val * 512 + q.val
          omega))

end Cert.Contrastive

end
-- ==== Proof.KernelIdeal.Column.lean ====
/-
  The column of partial sums after each grid point.

  After the body has run at point t, entry p of both columns (the result column's staging buffer and the scratch) is
  row 2048·(t / 16) + p's sum of exponentials over the column tiles 0 … t mod 16. By induction on the point: at a
  first column tile the cleared column takes this tile's contribution; at a later one the running total of the
  point before, which has the same row tile and the column tile before, takes one more.
-/
import proofs.«159962_j63264868270602_1_alg».proof.Proof.KernelIdeal.Pieces
import proofs.«159962_j63264868270602_1_alg».proof.Proof.KernelIdeal.Payload
import proofs.«159962_j63264868270602_1_alg».proof.Proof.KernelIdeal.Blocks
import proofs.«159962_j63264868270602_1_alg».proof.Proof.Tiles

set_option maxRecDepth 16384

noncomputable section

namespace Cert.KernelIdeal.Column

open Idealize.ShloMosaic Idealize.ShloMosaic.ValueIdx Idealize.ShloMosaic.TcCoe
open Cert.KernelIdeal Cert.KernelIdeal.Gen Cert.KernelIdeal.Region Cert.KernelIdeal.Payload Cert.Contrastive

/-- One point's update of a column `s`, at entry `p`, for a row block and a column block that are rows of one array
    `z`: what was there plus the column tile's contribution to the row's sum. -/
theorem update_rows (i0 : Fin 4) (i1 : Fin 16) (x0 : Vec Ideal S2048x256 .f32) (x1 : Vec Ideal S512x256 .f32)
    (s : Vec Ideal S2048x1 .f32) (p : Fin 2048) (z : Fin 8192 → Fin 256 → EReal)
    (hr : i0.val * 2048 + p.val < 8192)
    (hrow : ∀ d : Fin 256, x0 (ix2 p d) = z ⟨i0.val * 2048 + p.val, hr⟩ d)
    (hcol : ∀ (q : Fin 512) (d : Fin 256), x1 (ix2 q d) = z ⟨i1.val * 512 + q.val, by have := i1.isLt; have := q.isLt; omega⟩ d) :
    k0_pay1 (F := Ideal) (BitVec.ofNat 32 i0.val) (BitVec.ofNat 32 i1.val) (k0_pay3 x0 x1) s (ix2 p 0)
      = s (ix2 p 0) + tileSum z ⟨i0.val * 2048 + p.val, hr⟩ i1 := by
  rw [update_apply i0 i1 x0 x1 s p]
  congr 1
  unfold tileSum
  refine Finset.sum_congr rfl fun q _ => ?_
  unfold term
  rw [show (fun d => x0 (ix2 p d)) = z ⟨i0.val * 2048 + p.val, hr⟩ from funext hrow,
    show (fun d => x1 (ix2 q d)) = z ⟨i1.val * 512 + q.val, by have := i1.isLt; have := q.isLt; omega⟩ from funext (hcol q)]

variable (m : (ℓ : Loc nD τ sig) → Buf (Elt Ideal) ℓ)

/-- The same at grid point `t`, on its two blocks of z. -/
theorem update_at (c : Dev nD) (t : Fin cfg0.N) (s : Vec Ideal S2048x1 .f32) (p : Fin 2048) :
    update (F := Ideal) (grid0.coords t) (iblk m c 0 t) (iblk m c 1 t) s (ix2 p 0)
      = s (ix2 p 0) + tileSum (zAt m c) ⟨t.val / 16 * 2048 + p.val, row_lt t p⟩ ⟨t.val % 16, Nat.mod_lt _ (by norm_num)⟩ := by
  have hN : t.val < 64 := lt_of_lt_of_eq t.isLt N_0
  have e0 : BitVec.ofNat 32 ((grid0.coords t) 0).val = BitVec.ofNat 32 (t.val / 16) := by rw [coords_row t]
  have e1 : BitVec.ofNat 32 ((grid0.coords t) 1).val = BitVec.ofNat 32 (t.val % 16) := by rw [coords_col t]
  unfold update
  rw [e0, e1]
  exact update_rows ⟨t.val / 16, by omega⟩ ⟨t.val % 16, Nat.mod_lt _ (by norm_num)⟩ (iblk m c 0 t) (iblk m c 1 t) s p (zAt m c)
    (row_lt t p) (fun d => rowBlock_apply m c t p d) (fun q d => colBlock_apply m c t q d)

/-- THE RUNNING TOTAL. After point `n` both columns hold, at entry `p`, the row's sum over the column tiles 0 … n mod 16. -/
theorem columns_apply (c : Dev nD) : ∀ (n : ℕ) (hn : n < cfg0.N) (p : Fin 2048),
    (colsAt m c n hn).1 (ix2 p 0) = upTo (zAt m c) ⟨n / 16 * 2048 + p.val, row_lt ⟨n, hn⟩ p⟩ (n % 16)
    ∧ (colsAt m c n hn).2 (ix2 p 0) = upTo (zAt m c) ⟨n / 16 * 2048 + p.val, row_lt ⟨n, hn⟩ p⟩ (n % 16) := by
  intro n
  induction n with
  | zero =>
    intro hn p
    have h0 : (⟨0, hn⟩ : Fin cfg0.N).val % 16 = 0 := rfl
    rw [colsAt_first m c ⟨0, hn⟩ h0, outFirst_eq, accFirst_eq]
    dsimp only
    rw [update_at m c ⟨0, hn⟩ _ p, cleared_apply, zero_add]
    exact ⟨(upTo_zero _ _).symm, (upTo_zero _ _).symm⟩
  | succ n ih =>
    intro hn p
    have hN : n + 1 < 64 := lt_of_lt_of_eq hn N_0
    by_cases h0 : (n + 1) % 16 = 0
    · rw [colsAt_first m c ⟨n + 1, hn⟩ h0, outFirst_eq, accFirst_eq]
      dsimp only
      rw [update_at m c ⟨n + 1, hn⟩ _ p, cleared_apply, zero_add]
      have e : (⟨(⟨n + 1, hn⟩ : Fin cfg0.N).val % 16, Nat.mod_lt _ (by norm_num)⟩ : Fin 16) = 0 := Fin.ext h0
      rw [e, show (n + 1) % 16 = 0 from h0]
      exact ⟨(upTo_zero _ _).symm, (upTo_zero _ _).symm⟩
    · have hl := colsAt_later m c ⟨n + 1, hn⟩ h0
      have hp : colsAt m c ((⟨n + 1, hn⟩ : Fin cfg0.N).val - 1) (Nat.lt_of_le_of_lt (Nat.sub_le _ _) (⟨n + 1, hn⟩ : Fin cfg0.N).isLt)
          = colsAt m c n (Nat.lt_of_succ_lt hn) := rfl
      rw [hp] at hl
      rw [hl, outLater_eq, accLater_eq]
      dsimp only
      rw [update_at m c ⟨n + 1, hn⟩ _ p, (ih (Nat.lt_of_succ_lt hn) p).2]
      have hr : (n + 1) % 16 = n % 16 + 1 := by omega
      have hlt : n % 16 + 1 < 16 := by omega
      have erow : (⟨(⟨n + 1, hn⟩ : Fin cfg0.N).val / 16 * 2048 + p.val, row_lt ⟨n + 1, hn⟩ p⟩ : Fin 8192)
          = ⟨n / 16 * 2048 + p.val, row_lt ⟨n, Nat.lt_of_succ_lt hn⟩ p⟩ := Fin.ext (by show (n + 1) / 16 * 2048 + p.val = n / 16 * 2048 + p.val; omega)
      have etile : (⟨(⟨n + 1, hn⟩ : Fin cfg0.N).val % 16, Nat.mod_lt _ (by norm_num)⟩ : Fin 16) = ⟨n % 16 + 1, hlt⟩ := Fin.ext hr
      rw [erow, etile, hr, upTo_succ _ _ _ hlt]
      exact ⟨rfl, rfl⟩

end Cert.KernelIdeal.Column

end
-- ==== Proof.KernelIdeal.Final.lean ====
/-
  The result column after the whole run.

  Window 2 writes its block back at the points t with t mod 16 = 15, the last column tile of each row tile; the
  four blocks written are rows 0 … 2047, 2048 … 4095, 4096 … 6143, 6144 … 8191 of the result column and tile it. At
  such a point the staging buffer holds, at entry p, row 2048·(t / 16) + p's sum over all sixteen column tiles: its
  whole sum of exponentials over the other rows.
-/
import proofs.«159962_j63264868270602_1_alg».proof.Proof.KernelIdeal.Whole
import proofs.«159962_j63264868270602_1_alg».proof.Proof.KernelIdeal.Column
import Idealize.ShloMosaic.Lib.Pipeline.Value

set_option maxRecDepth 16384

noncomputable section

namespace Cert.KernelIdeal.Column

open Idealize.ShloMosaic Idealize.ShloMosaic.ValueIdx Idealize.ShloMosaic.TcCoe
open Idealize.ShloMosaic.Pipeline (Dat)
open Cert.KernelIdeal Cert.KernelIdeal.Gen Cert.KernelIdeal.Region Cert.Contrastive

variable (m : (ℓ : Loc nD τ sig) → Buf (Elt Ideal) ℓ)

/-- What the result column ends holding: at row `r` the row's sum of exponentials over every other row. -/
def colG (c : Dev nD) : S8192x1.Idx → EReal := fun y => others (zAt m c) (y 0)

theorem colG_apply (c : Dev nD) (r : Fin 8192) : colG m c (ix2 r 0) = others (zAt m c) r := rfl

/-- The result window's block number at a point: the row tile, and no movement along the one column. -/
theorem outIdx : ∀ t : Fin cfg0.N, win0_2.index t (0 : Fin 2) = t.val / 16 ∧ win0_2.index t (1 : Fin 2) = 0 :=
  (by decide +kernel : ∀ t : Fin grid0.N, win0_2.index t (0 : Fin 2) = t.val / 16 ∧ win0_2.index t (1 : Fin 2) = 0)

/-- At a last column tile the running total has taken all sixteen tiles: entry `p` of the result column's buffer is
    row 2048·(t / 16) + p's whole sum. -/
theorem last_apply (c : Dev nD) (t : Fin cfg0.N) (ht : t.val % 16 = 15) (p : Fin 2048) :
    (colsAt m c t.val t.isLt).1 (ix2 p 0) = others (zAt m c) ⟨t.val / 16 * 2048 + p.val, row_lt t p⟩ := by
  rw [(columns_apply m c t.val t.isLt p).1, ht, upTo_last]

/-- What a last column tile writes back is its block of `colG`: the block's entry `p` sits at row
    2048·(t / 16) + p of the column (block number times the block's extent plus the coordinate inside the block),
    and the second axis has the one coordinate 0. -/
theorem flushed_eq (c : Dev nD) (t : Fin cfg0.N) (ht : t.val % 16 = 15) :
    (dats m 0 c).flushed 2 t = ((cfg0.win 2).blk t).view.read (Elt Ideal) (colG m c) := by
  show (cfg0.win 2).cut (grid0.coords t) ((dats m 0 c).after 2 t) = _
  rw [after_2]
  funext j
  obtain ⟨p, q, rfl⟩ : ∃ (p : Fin 2048) (q : Fin 1), j = ix2 p q := ⟨j 0, j 1, eq_ix2 (n0 := 2048) (n1 := 1) j⟩
  obtain rfl : q = 0 := Subsingleton.elim _ _
  show (colsAt m c t.val t.isLt).1 (ix2 p 0) = colG m c (((cfg0.win 2).blk t).view.emb (ix2 p 0))
  rw [last_apply m c t ht p]
  obtain ⟨e0, e1⟩ := outIdx t
  refine congrArg (others (zAt m c)) (Fin.ext ?_)
  show t.val / 16 * 2048 + p.val = win0_2.index t (0 : Fin 2) * 2048 + 1 * p.val
  omega

/-- An index of the column is in point `t`'s block iff each coordinate is in the block's range on its axis. -/
theorem mem_blk (t : Fin cfg0.N) (i : S8192x1.Idx) :
    i ∈ ((cfg0.win 2).blk t).view.set ↔ ∀ a : Fin 2, win0_2.index t a * S2048x1.size a ≤ (i a).val ∧ (i a).val < win0_2.index t a * S2048x1.size a + S2048x1.size a := by
  show i ∈ ((View.whole main_v38).slice (win0_2.rect t)).set ↔ _
  rw [View.set_slice_whole, Rect.mem_set_unit]
  exact Iff.rfl

/-- The four blocks written back tile the column: row `r` is in the block of the last column tile of row tile
    r / 2048, the point 16·(r / 2048) + 15. -/
theorem covered (i : S8192x1.Idx) : ∃ t : Fin cfg0.N, (cfg0.win 2).flush t = true ∧ i ∈ ((cfg0.win 2).blk t).view.set := by
  have hi0 : (i 0).val < 8192 := (i 0).isLt
  have hi1 : (i 1).val < 1 := (i 1).isLt
  have hN : 16 * ((i 0).val / 2048) + 15 < cfg0.N := lt_of_lt_of_eq (by omega : 16 * ((i 0).val / 2048) + 15 < 64) N_0.symm
  refine ⟨⟨16 * ((i 0).val / 2048) + 15, hN⟩, (flush0_2 _).mpr (by show (16 * ((i 0).val / 2048) + 15) % 16 = 15; omega), ?_⟩
  rw [mem_blk]
  obtain ⟨e0, e1⟩ := outIdx ⟨16 * ((i 0).val / 2048) + 15, hN⟩
  have e0' : win0_2.index ⟨16 * ((i 0).val / 2048) + 15, hN⟩ (0 : Fin 2) = (i 0).val / 2048 := by
    rw [e0]; show (16 * ((i 0).val / 2048) + 15) / 16 = (i 0).val / 2048; omega
  intro a
  match a with
  | ⟨0, _⟩ => show win0_2.index _ (0 : Fin 2) * 2048 ≤ (i 0).val ∧ (i 0).val < win0_2.index _ (0 : Fin 2) * 2048 + 2048; rw [e0']; omega
  | ⟨1, _⟩ => show win0_2.index _ (1 : Fin 2) * 1 ≤ (i 1).val ∧ (i 1).val < win0_2.index _ (1 : Fin 2) * 1 + 1; rw [e1]; omega

/-- Row `r` of the result column's array, after the run: the row's sum of exponentials over every other row. -/
theorem result_column (c : Dev nD) (r : Fin 8192) :
    ((dats m 0 c).arrAt 2 cfg0.N : S8192x1.Idx → EReal) (ix2 r 0) = others (zAt m c) r := by
  have h := (dats m 0 c).arrAt_eq_of_cover 2 (colG m c) (fun t ht => flushed_eq m c t ((flush0_2 t).mp ht)) covered
  exact (congrFun h (ix2 r 0)).trans (colG_apply m c r)

end Cert.KernelIdeal.Column

end
-- ==== Proof.KernelIdeal.Host.lean ====
/-
  The contrastive-loss program outside its region, over the extended reals.

  Before the region the program stacks the two batches into one array of 8192 rows, and computes the positive
  pair's term: each batch is normalised row by row twice (every entry over the row's Euclidean norm, the norm
  floored first at the number nearest 1e-12 and then at the number nearest 1e-8), the normalised rows of equal
  number are multiplied entry by entry and summed, the 4096 sums are divided by the temperature, and the column of
  quotients is laid end to end with itself, so that rows r and r ± 4096 carry the same term. After the region the
  program takes the logarithm of the region's result column, subtracts the positive term, sums the 8192 differences
  from zero and divides by 8192.

  Here each of the three is read at an index and met with the shared vocabulary: the stacked array is `stack`, the
  doubled column of quotients is `partner`, and the last stretch is `mean` of the two columns it starts from. Each
  stage is first stated over arbitrary arrays of its literal shape (a row sum, one normalisation, the quotient, the
  two concatenations, the closing mean) and only then applied to the program's buffers.
-/
import proofs.«159962_j63264868270602_1_alg».proof.Proof.KernelIdeal.Kit
import proofs.«159962_j63264868270602_1_alg».proof.Proof.Spec
import Idealize.ShloMosaic.Lib.StableHlo.Run
import Idealize.ShloMosaic.Lib.Pipeline.Value
import Idealize.ShloMosaic.Lib.ValueIdx
import Idealize.ShloMosaic.Lib.ValueIdxRank1
import Idealize.ShloMosaic.Lib.IdealHost
import Idealize.ShloMosaic.PureOps.Ideal.Laws

set_option maxRecDepth 16384

noncomputable section

namespace Cert.KernelIdeal.HostValue

open Idealize.ShloMosaic Idealize.ShloMosaic.ValueIdx Idealize.ShloMosaic.TcCoe
open Idealize.ShloMosaic.StableHlo
open Cert.KernelIdeal Cert.KernelIdeal.Gen Cert.KernelIdeal.Region Cert.Contrastive
open scoped BigOperators

variable (m : (ℓ : Loc nD τ sig) → Buf (Elt Ideal) ℓ)

/-! ## Single operations at an index -/

/-- The square root of an array at an index is the square root of the element. -/
theorem hostSqrt_apply {s : Shape} {φ : FTy} (x : FVec Ideal s φ) (i : s.Idx) : Host.sqrt x i = Ideal.sqrt (x i) := rfl

/-- Row `b` of a [4096, 256] array with column `k` put back on the summed axis is the entry (b, k). -/
theorem lift_row (h : S4096x256.Reduces [1] S4096) (b : Fin 4096) (k : Fin 256) : h.lift (ix1 b) k = ix2 b k := by
  funext a
  match a with
  | ⟨0, _⟩ => exact Fin.ext rfl
  | ⟨1, _⟩ => exact Fin.ext rfl

theorem red_row : S4096x256.Reduces [1] S4096 := by decide

/-- The sum along the rows from the zero word, read at row `k`: the sum of the row's entries. -/
theorem rowsum_apply (x : FVec Ideal S4096x256 .f32) (k : Fin 4096) :
    Host.reduceAdd x (constant (F := Ideal) S_ .f32 0x00000000#32) reducesTo_S4096x256_S4096_d1 h_S_ (ix1 k)
      = ∑ d : Fin 256, x (ix2 k d) := by
  rw [hostReduceAdd_apply, Ideal.hostReduceAdd_single reducesTo_S4096x256_S4096_d1 red_row, constant_apply,
    Ideal.ofBits_zero_f32, zero_add]
  exact Finset.sum_congr rfl fun d _ => congrArg x (lift_row red_row k d)

/-! ## The stacked rows -/

/-- Two batches stacked along the rows, read at (r, d): the first batch's row below 4096, else the second's. -/
theorem cat2_apply (x y : S4096x256.Idx → EReal) (h : Shape.Concatenates [S4096x256, S4096x256] S8192x256 0)
    (r : Fin 8192) (d : Fin 256) :
    concatenate S8192x256 0 [⟨S4096x256, x⟩, ⟨S4096x256, y⟩] h (ix2 r d) = stack (rows x) (rows y) r d := by
  unfold stack
  by_cases hr : r.val < 4096
  · rw [dif_pos hr]
    exact concatenate_pair_apply_left (t := S8192x256) (s₁ := S4096x256) (s₂ := S4096x256) 0 x y h (ix2 r d) rfl
      (ix2 ⟨r.val, hr⟩ d) (fun b => by
        match b with
        | ⟨0, _⟩ => rfl
        | ⟨1, _⟩ => rfl)
  · rw [dif_neg hr]
    exact concatenate_pair_apply_right (t := S8192x256) (s₁ := S4096x256) (s₂ := S4096x256) 0 x y h (ix2 r d) rfl rfl
      (ix2 ⟨r.val - 4096, by omega⟩ d) (fun b hb => by
        match b with
        | ⟨0, _⟩ => exact absurd rfl hb
        | ⟨1, _⟩ => rfl)
      (by show (r.val - 4096) + 4096 = r.val; omega)

/-- What the region finds in the array its two input windows read: the concatenation of the two arguments. -/
theorem v0_eq (c : Dev nD) :
    (V m c main_v0 : S8192x256.Idx → EReal)
      = concatenate S8192x256 0
          [⟨S4096x256, (m ((c.tc : Thread nD τ).loc main_arg0) : S4096x256.Idx → EReal)⟩,
           ⟨S4096x256, (m ((c.tc : Thread nD τ).loc main_arg1) : S4096x256.Idx → EReal)⟩]
          concatenates_S4096x256_S4096x256_S8192x256_d0 := by
  dsimp only [V, V0]
  simp only [hostOps0, List.flatten_cons, List.flatten_nil, List.append_nil]
  after_results

/-- The array both input windows read is the two batches stacked. -/
theorem entry_stack (c : Dev nD) (r : Fin 8192) (d : Fin 256) :
    (V m c main_v0 : S8192x256.Idx → EReal) (ix2 r d)
      = stack (rows (m ((c.tc : Thread nD τ).loc main_arg0))) (rows (m ((c.tc : Thread nD τ).loc main_arg1))) r d := by
  rw [v0_eq]
  exact cat2_apply _ _ _ r d

/-! ## The positive pair's term -/

/-- One normalisation of a batch: every entry over its row's Euclidean norm, the norm floored at the number the
    word `ε` denotes. -/
def hnorm (ε : BitVec 32) (x : FVec Ideal S4096x256 .f32) : FVec Ideal S4096x256 .f32 :=
  Host.divf x (broadcastInDim S4096x256 ![0, 1] bcast_S4096x1_S4096x256_0_1
    (maximumf (Host.sqrt (broadcastInDim S4096x1 ![0] bcast_S4096_S4096x1_0
        (Host.reduceAdd (mulf x x) (constant (F := Ideal) S_ .f32 0x00000000#32) reducesTo_S4096x256_S4096_d1 h_S_)))
      (broadcastInDim S4096x1 ![] bcast_S_S4096x1 (constant (F := Ideal) S_ .f32 ε))))

/-- Read at (b, d) it is the row's `unit`: the norm is one number per row, copied along the row; the floor is one
    number copied everywhere. -/
theorem hnorm_apply (ε : BitVec 32) (x : FVec Ideal S4096x256 .f32) (b : Fin 4096) (d : Fin 256) :
    hnorm ε x (ix2 b d) = unit (Ideal.ofBits .f32 ε) (rows x b) d := by
  unfold hnorm unit
  rw [hostDivf_apply,
    broadcastInDim_apply ![0, 1] bcast_S4096x1_S4096x256_0_1 _ (ix2 b d) (ix2 b (0 : Fin 1))
      (fun a => match a with | ⟨0, _⟩ => rfl | ⟨1, _⟩ => rfl),
    maximumf_apply, broadcastInDim_scalar_apply, constant_apply, hostSqrt_apply,
    broadcastInDim_apply ![0] bcast_S4096_S4096x1_0 _ (ix2 b (0 : Fin 1)) (ix1 b) (fun a => match a with | ⟨0, _⟩ => rfl),
    rowsum_apply]
  rfl

/-- A row of the normalised batch is the row's `unit`. -/
theorem hnorm_rows (ε : BitVec 32) (x : FVec Ideal S4096x256 .f32) (b : Fin 4096) :
    rows (hnorm ε x) b = unit (Ideal.ofBits .f32 ε) (rows x b) :=
  funext fun d => hnorm_apply ε x b d

/-- The column of quotients: both batches normalised twice, the inner products of the rows of equal number, each
    over the temperature. -/
def hquot (a b : FVec Ideal S4096x256 .f32) : FVec Ideal S4096 .f32 :=
  Host.divf
    (Host.reduceAdd (mulf (hnorm 0x322BCC77#32 (hnorm 0x2B8CBCCC#32 a)) (hnorm 0x322BCC77#32 (hnorm 0x2B8CBCCC#32 b)))
      (constant (F := Ideal) S_ .f32 0x00000000#32) reducesTo_S4096x256_S4096_d1 h_S_)
    (broadcastInDim S4096 ![] bcast_S_S4096 (constant (F := Ideal) S_ .f32 0x3D8F5C29#32))

/-- Read at row `k` it is the two rows' cosine over the temperature. -/
theorem hquot_apply (a b : FVec Ideal S4096x256 .f32) (k : Fin 4096) :
    hquot a b (ix1 k) = Ideal.div (cosine (rows a k) (rows b k)) temp := by
  unfold hquot
  rw [hostDivf_apply, broadcastInDim_scalar_apply, constant_apply, rowsum_apply]
  refine congrArg (fun s => Ideal.div s (Ideal.ofBits .f32 0x3D8F5C29#32)) ?_
  unfold cosine unit₂
  refine Finset.sum_congr rfl fun d _ => ?_
  rw [mulf_apply, hnorm_apply, hnorm_apply, hnorm_rows, hnorm_rows]
  rfl

/-- Two copies of a column laid end to end read, at row `r`, the column at `r mod 4096`. -/
theorem cat1_apply (q : S4096.Idx → EReal) (h : Shape.Concatenates [S4096, S4096] S8192 0) (r : Fin 8192) :
    concatenate S8192 0 [⟨S4096, q⟩, ⟨S4096, q⟩] h (ix1 r) = q (ix1 ⟨r.val % 4096, Nat.mod_lt _ (by norm_num)⟩) := by
  by_cases hr : r.val < 4096
  · refine (concatenate_pair_apply_left (t := S8192) (s₁ := S4096) (s₂ := S4096) 0 q q h (ix1 r) rfl
      (ix1 ⟨r.val, hr⟩) (fun b => by match b with | ⟨0, _⟩ => rfl)).trans ?_
    exact congrArg (fun k => q (ix1 k)) (Fin.ext (Nat.mod_eq_of_lt hr).symm)
  · refine (concatenate_pair_apply_right (t := S8192) (s₁ := S4096) (s₂ := S4096) 0 q q h (ix1 r) rfl rfl
      (ix1 ⟨r.val - 4096, by omega⟩) (fun b hb => by match b with | ⟨0, _⟩ => exact absurd rfl hb)
      (by show (r.val - 4096) + 4096 = r.val; omega)).trans ?_
    exact congrArg (fun k => q (ix1 k)) (Fin.ext (by show r.val - 4096 = r.val % 4096; omega))

/-- What the region finds in the positive term's buffer: the column of quotients twice. -/
theorem v37_eq (c : Dev nD) :
    (V m c main_v37 : S8192.Idx → EReal)
      = concatenate S8192 0
          [⟨S4096, hquot (m ((c.tc : Thread nD τ).loc main_arg0)) (m ((c.tc : Thread nD τ).loc main_arg1))⟩,
           ⟨S4096, hquot (m ((c.tc : Thread nD τ).loc main_arg0)) (m ((c.tc : Thread nD τ).loc main_arg1))⟩]
          concatenates_S4096_S4096_S8192_d0 := by
  dsimp only [V, V0]
  simp only [hostOps0, List.flatten_cons, List.flatten_nil, List.append_nil]
  after_results_simp
  rfl

/-- The positive pair's term before the region: at row `r`, the cosine of row `r mod 4096` of the first batch and
    the same row of the second, over the temperature. -/
theorem entry_partner (c : Dev nD) (r : Fin 8192) :
    (V m c main_v37 : S8192.Idx → EReal) (ix1 r)
      = partner (rows (m ((c.tc : Thread nD τ).loc main_arg0))) (rows (m ((c.tc : Thread nD τ).loc main_arg1))) r := by
  rw [v37_eq, cat1_apply, hquot_apply]
  rfl

/-! ## After the region -/

/-- The last stretch on a result column `n` and a positive-term column `p`: the mean of log n − p. The column
    [8192, 1] read as [8192] keeps row r at (r, 0); the sum from the zero word over a rank-1 index set is the sum
    over its coordinate range. -/
theorem tail_apply (n : S8192x1.Idx → EReal) (p : S8192.Idx → EReal) (hc : S8192x1.ShapeCasts S8192)
    (hr : S8192.ReducesTo [0] S_) (hu : 0 < S_.numel) :
    Host.divf (F := Ideal) (φ := .f32)
        (Host.reduceAdd (F := Ideal) (φ := .f32)
          (subf (F := Ideal) (φ := .f32) (Host.log (F := Ideal) (φ := .f32) (shapeCast S8192 n hc)) p)
          (constant (F := Ideal) S_ .f32 0x00000000#32) hr hu)
        (constant (F := Ideal) S_ .f32 0x46000000#32) ix0
      = mean (fun r => n (ix2 r 0)) (fun r => p (ix1 r)) := by
  unfold mean
  rw [hostDivf_apply, constant_apply, hostReduceAdd_apply, Ideal.hostReduceAdd_total hr (fun b => b.elim0), constant_apply,
    Ideal.ofBits_zero_f32, zero_add]
  refine congrArg (fun s => Ideal.div s (Ideal.ofBits .f32 0x46000000#32)) ?_
  rw [← Equiv.sum_comp (idxEquiv1 (n := 8192)).symm]
  refine Finset.sum_congr rfl fun r _ => ?_
  show Ideal.log (shapeCast S8192 n hc (ix1 r)) - p (ix1 r) = _
  rw [shapeCast_apply n hc (ix1 r) (ix2 r 0)
    (by rw [Shape.rowMajor_val_two, Shape.rowMajor_val_one]; show r.val * 1 + 0 = r.val; omega)]

/-- The scalar the seven operations after the region leave, from any contents of the buffers. -/
theorem v43_eq (W : Valuation τ sig (Elt Ideal)) :
    (StableHlo.after (List.flatten [hostOps1]) W (Proc.devRef .tc main_v43) : S_.Idx → EReal)
      = Host.divf (F := Ideal) (φ := .f32)
        (Host.reduceAdd (F := Ideal) (φ := .f32)
          (subf (F := Ideal) (φ := .f32)
            (Host.log (F := Ideal) (φ := .f32)
              (shapeCast S8192 (W (Proc.devRef .tc main_v38) : S8192x1.Idx → EReal) shapeCasts_S8192x1_S8192))
            (W (Proc.devRef .tc main_v37) : S8192.Idx → EReal))
          (constant (F := Ideal) S_ .f32 0x00000000#32) reducesTo_S8192_S_d0 h_S_)
        (constant (F := Ideal) S_ .f32 0x46000000#32) := by
  simp only [hostOps1, List.flatten_cons, List.flatten_nil, List.append_nil]
  after_results
  rfl

/-- The seven operations after the region, from any contents `W` of the buffers: the mean over the 8192 rows of
    the logarithm of the region's result column less the positive term. -/
theorem tail_mean (W : Valuation τ sig (Elt Ideal)) :
    (StableHlo.after (List.flatten [hostOps1]) W (Proc.devRef .tc main_v43) : S_.Idx → EReal) ix0
      = mean (fun r => (W (Proc.devRef .tc main_v38) : S8192x1.Idx → EReal) (ix2 r 0))
             (fun r => (W (Proc.devRef .tc main_v37) : S8192.Idx → EReal) (ix1 r)) := by
  rw [v43_eq]
  exact tail_apply _ _ _ _ _

end Cert.KernelIdeal.HostValue

end
-- ==== Proof.KernelIdeal.Result.lean ====
/-
  The idealized kernel program's result: the contrastive loss of the two batches.

  After the region, the seven host operations take the mean over the rows of `log (result column) − positive term`.
  The result column holds each row's sum of exponentials over the other rows of z, z is the two batches stacked,
  and the positive term, computed before the region and untouched by it, is the positive pair's similarity over
  the temperature. The two arguments end as they began.
-/
import proofs.«159962_j63264868270602_1_alg».proof.Proof.KernelIdeal.Kept
import proofs.«159962_j63264868270602_1_alg».proof.Proof.KernelIdeal.Final
import proofs.«159962_j63264868270602_1_alg».proof.Proof.KernelIdeal.Host

set_option maxRecDepth 16384

noncomputable section

namespace Cert.KernelIdeal.Column

open Idealize.ShloMosaic Idealize.ShloMosaic.ValueIdx Idealize.ShloMosaic.TcCoe Idealize.SL.Sem
open Cert.KernelIdeal Cert.KernelIdeal.Gen Cert.KernelIdeal.Region Cert.Contrastive

variable (m : (ℓ : Loc nD τ sig) → Buf (Elt Ideal) ℓ) (ρ : Dev nD → PrngReg)

/-- The loss of the two batches held in the arguments on core `c`. -/
def loss (c : Dev nD) : EReal :=
  mean (others (stack (rows (m ((c.tc : Thread nD τ).loc main_arg0))) (rows (m ((c.tc : Thread nD τ).loc main_arg1)))))
       (partner (rows (m ((c.tc : Thread nD τ).loc main_arg0))) (rows (m ((c.tc : Thread nD τ).loc main_arg1))))

/-- z as the region finds it is the two batches stacked. -/
theorem zAt_eq (c : Dev nD) :
    zAt m c = stack (rows (m ((c.tc : Thread nD τ).loc main_arg0))) (rows (m ((c.tc : Thread nD τ).loc main_arg1))) :=
  funext fun r => funext fun d => HostValue.entry_stack m c r d

theorem v43_rest : main_v43 ∈ Pipeline.restRefs sig spec0 := Pipeline.mem_restRefs_of main_v43 rfl (by decide)
theorem v37_rest : main_v37 ∈ Pipeline.restRefs sig spec0 := Pipeline.mem_restRefs_of main_v37 rfl (by decide)

/-- The result column at the exit, row by row. -/
theorem exit_column (c : Dev nD) :
    (fun r : Fin 8192 => (Wx m c (Proc.devRef .tc main_v38) : S8192x1.Idx → EReal) (ix2 r 0))
      = others (stack (rows (m ((c.tc : Thread nD τ).loc main_arg0))) (rows (m ((c.tc : Thread nD τ).loc main_arg1)))) := by
  funext r
  rw [Wx_result m c]
  exact (result_column m c r).trans (by rw [zAt_eq])

/-- The positive term at the exit, row by row: as before the region. -/
theorem exit_partner (c : Dev nD) :
    (fun r : Fin 8192 => (Wx m c (Proc.devRef .tc main_v37) : S8192.Idx → EReal) (ix1 r))
      = partner (rows (m ((c.tc : Thread nD τ).loc main_arg0))) (rows (m ((c.tc : Thread nD τ).loc main_arg1))) := by
  funext r
  rw [Wx_rest m c main_v37 v37_rest]
  exact HostValue.entry_partner m c r

/-- The one entry of the result buffer after the operations that follow the region. -/
theorem result_value (c : Dev nD) :
    (StableHlo.after (List.flatten [hostOps1]) (Wx m c) (Proc.devRef .tc main_v43) : S_.Idx → EReal) = fun _ => loss m c := by
  funext i
  have hi : i = ix0 := funext fun d => d.elim0
  rw [hi, HostValue.tail_mean (Wx m c), exit_column m c, exit_partner m c]
  rfl

/-- From any memory with zero counters, every weakly fair execution of the idealized kernel program terminates with
    its result at the loss of the two batches and its arguments unchanged. -/
theorem run_value : θ_run defs (onTc (τ := τ) (main (F := Ideal))) ⟨m, fun _ => 0, ρ⟩ (fun r => ∀ c : Dev nD,
      r.2.mem ((c.tc : Thread nD τ).loc main_v43) = (fun _ => loss m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v43 v43_rest).trans (result_value m c),
     ((h c).2 main_arg0 arg0_rest).trans (kept m c main_arg0 arg0_rest (hostOps0_keeps main_arg0 (.inl rfl)) (hostOps1_keeps main_arg0 (.inl rfl))),
     ((h c).2 main_arg1 arg1_rest).trans (kept m c main_arg1 arg1_rest (hostOps0_keeps main_arg1 (.inr rfl)) (hostOps1_keeps main_arg1 (.inr rfl)))⟩)
    (run_main m ρ)

end Cert.KernelIdeal.Column

end
-- ==== Proof.LibIndex.lean ====
/-
  Row gathers and row scatters read at an index.

  `x[idx]` along the leading axis of a two-axis array lowers to a gather whose start indices are a column `[E, 1]`:
  result row `e` is operand row `idx[e, 0]`, the index read as a signed integer and clamped into `[0, N - 1]`. The same
  holds for a one-axis operand. A scatter of rows along the leading axis sends update row `e` to operand row `idx[e, 0]`,
  read signed and NOT clamped: an update whose row is outside the operand is dropped.
-/
import Idealize.ShloMosaic.PureOps.ShapeOps
import Idealize.ShloMosaic.Lib.ValueIdx

namespace Cert.Gcn

open Idealize.ShloMosaic Idealize.ShloMosaic.ValueIdx

/-- A signed 32-bit word clamped into `[0, N - 1]`, as a row number. -/
def crow (N : Nat) (hN : 0 < N) (v : BitVec 32) : Fin N := ⟨min v.toInt.toNat (N - 1), by omega⟩

/-- A word already in `[0, N)` is its own clamp. -/
theorem crow_val_of_range {N : Nat} (hN : 0 < N) (v : BitVec 32) (h0 : 0 ≤ v.toInt) (h1 : v.toInt < N) :
    ((crow N hN v).val : Int) = v.toInt := by
  show ((min v.toInt.toNat (N - 1) : Nat) : Int) = v.toInt
  omega

/-- The dimension numbers of a row gather: operand `[N, D]`, start indices `[E, 1]`, result `[E, D]`. -/
abbrev rowGatherDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- A row gather at `(e, c)` is the operand at row `clamp idx[e, 0]`, column `c`. -/
theorem gatherRows_apply {α : Type} {N E D : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ 32) (j : (⟨2, ![E, D]⟩ : Shape).Idx) :
    Host.gather (rowGatherDims N E D wf) x idx j = x (ix2 (crow N hN (idx (ix2 (j 0) 0))) (j 1)) := by
  unfold Host.gather
  congr 1
  funext a
  refine Fin.ext ?_
  match a with
  | ⟨0, _⟩ =>
    -- axis 0 is collapsed and named by the start index map: only the clamped start index, read at `[e, 0]`
    show (rowGatherDims N E D wf).start j idx 0 + (rowGatherDims N E D wf).batchCoord j 0
      + (rowGatherDims N E D wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E D wf).startIndexMap from List.mem_singleton.mpr rfl)]
    have hsi : (rowGatherDims N E D wf).siIdx j ⟨List.idxOf (0 : Fin 2) (rowGatherDims N E D wf).startIndexMap,
        List.idxOf_lt_length_iff.2 (List.mem_singleton.mpr rfl)⟩ = ix2 (j 0) 0 := by
      funext b; refine Fin.ext ?_
      match b with
      | ⟨0, _⟩ => rfl
      | ⟨1, _⟩ => rfl
    rw [hsi]
    rfl
  | ⟨1, _⟩ =>
    -- axis 1 is the one kept axis and no start index names it: start zero, offset the result's column
    show (rowGatherDims N E D wf).start j idx 1 + (rowGatherDims N E D wf).batchCoord j 1
      + (rowGatherDims N E D wf).offCoord j 1 = (j 1).val
    rw [GatherDims.batchCoord_eq_zero _ _ _ List.not_mem_nil]
    unfold GatherDims.start
    rw [dif_neg (show ¬ (1 : Fin 2) ∈ (rowGatherDims N E D wf).startIndexMap from
      (show ¬ (1 : Fin 2) ∈ ([0] : List (Fin 2)) by decide))]
    unfold GatherDims.offCoord
    rw [dif_pos (show (1 : Fin 2) ∈ (rowGatherDims N E D wf).sKept from
      (GatherDims.mem_sKept _ _).mpr ⟨(show ¬ (1 : Fin 2) ∈ ([0] : List (Fin 2)) by decide), List.not_mem_nil⟩)]
    simp only [Nat.zero_add, Nat.add_zero]
    rfl

/-- The dimension numbers of an element gather: operand `[N]`, start indices `[E, 1]`, result `[E]`. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- An element gather at `e` is the operand at `clamp idx[e, 0]`. -/
theorem gatherVec_apply {α : Type} {N E : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ 32) (e : (⟨1, ![E]⟩ : Shape).Idx) :
    Host.gather (vecGatherDims N E wf) x idx e = x (ix1 (crow N hN (idx (ix2 (e 0) 0)))) := by
  unfold Host.gather
  congr 1
  funext a
  obtain rfl : a = 0 := Subsingleton.elim _ _
  refine Fin.ext ?_
  -- the one operand axis is collapsed: no batching coordinate, no offset coordinate, only the clamped start
  show (vecGatherDims N E wf).start e idx 0 + (vecGatherDims N E wf).batchCoord e 0
    + (vecGatherDims N E wf).offCoord e 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  -- the start index is read at `[e, 0]`
  have hsi : (vecGatherDims N E wf).siIdx e ⟨List.idxOf (0 : Fin 1) (vecGatherDims N E wf).startIndexMap,
      List.idxOf_lt_length_iff.2 (List.mem_singleton.mpr rfl)⟩ = ix2 (e 0) 0 := by
    funext b; refine Fin.ext ?_
    match b with
    | ⟨0, _⟩ => rfl
    | ⟨1, _⟩ => rfl
  rw [hsi]
  rfl

/-- The dimension numbers of a row scatter: operand `[N, D]`, scatter indices `[E, 1]`, updates `[E, D]`. -/
abbrev rowScatterDims (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- An update `(e, c)` that lands at `(n, c')` has `idx[e, 0] = n` as a signed integer and `c = c'`. -/
theorem scatterRows_resultIdx {N E D : Nat}
    (wf : ScatterDims.WF ⟨2, ![N, D]⟩ ⟨2, ![E, 1]⟩ ⟨2, ![E, D]⟩ [1] [0] [0] 1)
    (idx : IVec ⟨2, ![E, 1]⟩ 32) (j : (⟨2, ![E, D]⟩ : Shape).Idx) (i : (⟨2, ![N, D]⟩ : Shape).Idx)
    (h : (rowScatterDims N E D wf).resultIdx? j idx = some i) :
    (idx (ix2 (j 0) 0)).toInt = ((i 0).val : Int) ∧ (j 1).val = (i 1).val := by
  unfold ScatterDims.resultIdx? at h
  split at h
  · rename_i hr
    have hf := Option.some.inj h
    have h0 : ((rowScatterDims N E D wf).start j idx 0 + ((rowScatterDims N E D wf).window j 0 : Nat)).toNat
        = (i 0).val := congrArg Fin.val (congrFun hf 0)
    have h1 : ((rowScatterDims N E D wf).start j idx 1 + ((rowScatterDims N E D wf).window j 1 : Nat)).toNat
        = (i 1).val := congrArg Fin.val (congrFun hf 1)
    have hr0 := hr 0
    have hr1 := hr 1
    -- axis 0 is named by the map and inserted: the start is the signed index, the window coordinate is zero
    have hs0 : (rowScatterDims N E D wf).start j idx 0 = (idx (ix2 (j 0) 0)).toInt := by
      unfold ScatterDims.start
      rw [dif_pos (show (0 : Fin 2) ∈ (rowScatterDims N E D wf).scatterDimsToOperandDims from
        List.mem_singleton.mpr rfl)]
      have hsi : (rowScatterDims N E D wf).siIdx j
          ⟨List.idxOf (0 : Fin 2) (rowScatterDims N E D wf).scatterDimsToOperandDims,
            List.idxOf_lt_length_iff.2 (List.mem_singleton.mpr rfl)⟩ = ix2 (j 0) 0 := by
        funext b; refine Fin.ext ?_
        match b with
        | ⟨0, _⟩ => rfl
        | ⟨1, _⟩ => rfl
      rw [hsi]
      rfl
    have hw0 : (rowScatterDims N E D wf).window j 0 = 0 := by
      unfold ScatterDims.window
      rw [dif_neg (show ¬ (0 : Fin 2) ∈ (rowScatterDims N E D wf).sKept from
        (show ¬ (0 : Fin 2) ∈ (List.finRange 2).filter (fun a => a ∉ ([0] : List (Fin 2))) by decide))]
    -- axis 1 is not named by the map and is the one window axis: the start is zero, the window coordinate is the update's column
    have hs1 : (rowScatterDims N E D wf).start j idx 1 = 0 := by
      unfold ScatterDims.start
      rw [dif_neg (show ¬ (1 : Fin 2) ∈ (rowScatterDims N E D wf).scatterDimsToOperandDims from
        (show ¬ (1 : Fin 2) ∈ ([0] : List (Fin 2)) by decide))]
    have hw1 : (rowScatterDims N E D wf).window j 1 = (j 1).val := by
      unfold ScatterDims.window
      rw [dif_pos (show (1 : Fin 2) ∈ (rowScatterDims N E D wf).sKept from
        (show (1 : Fin 2) ∈ (List.finRange 2).filter (fun a => a ∉ ([0] : List (Fin 2))) by decide))]
      rfl
    rw [hs0, hw0] at h0 hr0
    rw [hs1, hw1] at h1 hr1
    simp only [Nat.cast_zero, Int.add_zero, Int.zero_add, Int.toNat_natCast] at h0 h1 hr0
    refine ⟨?_, h1⟩
    omega
  · exact absurd h (by simp)

end Cert.Gcn
-- ==== Proof.LibPairGather.lean ====
/-
  A gather of single entries of a two-axis table by pairs of indices, read at an index.

  `x[i, j]` with two index arrays lowers to a gather whose start indices are the pairs `[E, 2]`, both operand axes
  collapsed: result element `e` is the table's entry at row `idx[e, 0]` and column `idx[e, 1]`, each read as a signed
  integer and clamped into its axis.
-/
import proofs.«159962_j63264868270602_1_alg».proof.Proof.LibIndex

namespace Cert.Gcn

open Idealize.ShloMosaic Idealize.ShloMosaic.ValueIdx

/-- The dimension numbers of a pair gather: operand `[A, B]`, start indices `[E, 2]`, result `[E]`. -/
abbrev pairGatherDims (A B E : Nat)
    (wf : GatherDims.WF ⟨2, ![A, B]⟩ ⟨2, ![E, 2]⟩ ⟨1, ![E]⟩ [] [0, 1] [] [0, 1] [] 1 ![1, 1]) :
    GatherDims ⟨2, ![A, B]⟩ ⟨2, ![E, 2]⟩ ⟨1, ![E]⟩ where
  offsetDims := []
  collapsedSliceDims := [0, 1]
  operandBatchingDims := []
  startIndicesBatchingDims := []
  startIndexMap := [0, 1]
  indexVectorDim := 1
  sliceSizes := ![1, 1]
  wf := wf

/-- A pair gather at `e` is the table at row `clamp idx[e, 0]`, column `clamp idx[e, 1]`. -/
theorem gatherPair_apply {α : Type} {A B E : Nat} (hA : 0 < A) (hB : 0 < B)
    (wf : GatherDims.WF ⟨2, ![A, B]⟩ ⟨2, ![E, 2]⟩ ⟨1, ![E]⟩ [] [0, 1] [] [0, 1] [] 1 ![1, 1])
    (x : (⟨2, ![A, B]⟩ : Shape).Idx → α) (idx : IVec ⟨2, ![E, 2]⟩ 32) (e : (⟨1, ![E]⟩ : Shape).Idx) :
    Host.gather (pairGatherDims A B E wf) x idx e
      = x (ix2 (crow A hA (idx (ix2 (e 0) (0 : Fin 2)))) (crow B hB (idx (ix2 (e 0) (1 : Fin 2))))) := by
  unfold Host.gather
  congr 1
  funext a
  refine Fin.ext ?_
  -- neither axis is a batching axis, and neither is kept (both are collapsed)
  have hnb : ∀ a : Fin 2, a ∉ (pairGatherDims A B E wf).operandBatchingDims := fun _ => List.not_mem_nil
  have hall : ∀ a : Fin 2, a ∈ ([0, 1] : List (Fin 2)) := by decide
  have hnk : ∀ a : Fin 2, a ∉ (pairGatherDims A B E wf).sKept := fun a h =>
    ((GatherDims.mem_sKept _ _).mp h).1 (hall a)
  match a with
  | ⟨0, _⟩ =>
    -- axis 0 is named first by the start index map: only the clamped start index, read at `[e, 0]`
    show (pairGatherDims A B E wf).start e idx 0 + (pairGatherDims A B E wf).batchCoord e 0
      + (pairGatherDims A B E wf).offCoord e 0 = _
    rw [GatherDims.batchCoord_eq_zero _ _ _ (hnb 0), GatherDims.offCoord_eq_zero _ _ _ (hnk 0)]
    simp only [Nat.add_zero]
    unfold GatherDims.start
    have hm : (0 : Fin 2) ∈ (pairGatherDims A B E wf).startIndexMap :=
      show (0 : Fin 2) ∈ ([0, 1] : List (Fin 2)) by decide
    rw [dif_pos hm]
    have hsi : (pairGatherDims A B E wf).siIdx e ⟨List.idxOf (0 : Fin 2) (pairGatherDims A B E wf).startIndexMap,
        List.idxOf_lt_length_iff.2 hm⟩ = ix2 (e 0) (0 : Fin 2) := by
      funext b; refine Fin.ext ?_
      match b with
      | ⟨0, _⟩ => rfl
      | ⟨1, _⟩ => rfl
    rw [hsi]
    rfl
  | ⟨1, _⟩ =>
    -- axis 1 is named second by the start index map: only the clamped start index, read at `[e, 1]`
    show (pairGatherDims A B E wf).start e idx 1 + (pairGatherDims A B E wf).batchCoord e 1
      + (pairGatherDims A B E wf).offCoord e 1 = _
    rw [GatherDims.batchCoord_eq_zero _ _ _ (hnb 1), GatherDims.offCoord_eq_zero _ _ _ (hnk 1)]
    simp only [Nat.add_zero]
    unfold GatherDims.start
    have hm : (1 : Fin 2) ∈ (pairGatherDims A B E wf).startIndexMap :=
      show (1 : Fin 2) ∈ ([0, 1] : List (Fin 2)) by decide
    rw [dif_pos hm]
    have hsi : (pairGatherDims A B E wf).siIdx e ⟨List.idxOf (1 : Fin 2) (pairGatherDims A B E wf).startIndexMap,
        List.idxOf_lt_length_iff.2 hm⟩ = ix2 (e 0) (1 : Fin 2) := by
      funext b; refine Fin.ext ?_
      match b with
      | ⟨0, _⟩ => rfl
      | ⟨1, _⟩ => rfl
    rw [hsi]
    rfl

end Cert.Gcn
-- ==== Proof.Reference.Value.lean ====
/-
  The reference program's result, entry for entry, as the contrastive loss of the shared vocabulary.

  The reference stacks the two batches into 8192 rows, divides every row by its Euclidean norm floored at the first
  constant and the result once more with the second floor, takes all inner products of the normalised rows, and
  divides them by the temperature T. Row r's positive term is read off the two diagonals at distance 4096 from the
  main one: entry (r, r + 4096) for the first 4096 rows, entry (r, r − 4096) for the rest; both are the inner
  product of row r mod 4096 of the first batch with the same row of the second, the inner product being symmetric.
  The other rows' terms are the exponentials of the similarities times one minus the indicator of the main diagonal:
  on the diagonal exp · (1 − 1) = exp · 0 = 0, off it exp · (1 − 0) = exp, whatever extended real the exponential
  is. Dividing by T is multiplying by 1 / T, T being a nonzero real. Summing over the columns, taking logarithms,
  subtracting the positive terms, summing over the rows from the zero word and dividing by 8192 gives the mean.

  Each stage is read at an index written by its coordinates, in the program's order, and the last lemma joins the
  program's composed term to the stages.
-/
import proofs.«159962_j63264868270602_1_alg».proof.Proof.Gen.ReferenceIdeal.Read
import proofs.«159962_j63264868270602_1_alg».proof.Proof.Spec
import proofs.«159962_j63264868270602_1_alg».proof.Proof.LibPairGather
import Idealize.ShloMosaic.Lib.Pipeline.Value
import Idealize.ShloMosaic.Lib.ValueIdx
import Idealize.ShloMosaic.PureOps.Ideal.Laws

noncomputable section

open scoped BigOperators

namespace Cert.ReferenceIdeal.RefValue
open Idealize.ShloMosaic Idealize.ShloMosaic.ValueIdx Idealize.ShloMosaic.TcCoe Cert.ReferenceIdeal Cert.Contrastive

/-! ## Constants -/

/-- The temperature word denotes the rational 9395241 / 2^27. -/
theorem temp_eq : temp = ((9395241 / 134217728 : ℝ) : EReal) := by
  unfold temp
  simp [Ideal.ofBits, Ideal.ieee, -EReal.coe_mul]; norm_num

/-- The word of 1.0 denotes 1. -/
theorem ofBits_one : Ideal.ofBits .f32 0x3F800000#32 = 1 := by
  simp [Ideal.ofBits, Ideal.ieee, -EReal.coe_mul]; norm_num

/-- Dividing by the temperature is multiplying by its inverse, on every extended real. -/
theorem div_temp (x : EReal) : Ideal.div x temp = x * invTemp := by
  rw [temp_eq, Ideal.div_coe (by norm_num)]
  unfold invTemp
  congr 2
  norm_num

/-! ## Rows of the stack -/

/-- A normalised row at an entry: the entry over the floored norm. -/
theorem unit_apply (ε : EReal) (x : Fin 256 → EReal) (d : Fin 256) :
    unit ε x d = Ideal.div (x d) (max (Ideal.sqrt (∑ k : Fin 256, x k * x k)) ε) := rfl

/-- The first 4096 rows of the stack are the first batch. -/
theorem stack_lo (a b : Fin 4096 → Fin 256 → EReal) (q : Fin 4096) :
    stack a b ⟨q.val, by omega⟩ = a q := by
  show (if h : q.val < 4096 then a ⟨q.val, h⟩ else _) = a q
  rw [dif_pos q.isLt]

/-- The last 4096 rows of the stack are the second batch. -/
theorem stack_hi (a b : Fin 4096 → Fin 256 → EReal) (q : Fin 4096) :
    stack a b ⟨q.val + 4096, by omega⟩ = b q := by
  show (if h : q.val + 4096 < 4096 then _ else b ⟨q.val + 4096 - 4096, _⟩) = b q
  rw [dif_neg (by omega)]
  exact congrArg b (Fin.ext (by simp))

/-- The inner product of two normalised rows does not depend on their order. -/
theorem cosine_comm (x y : Fin 256 → EReal) : cosine x y = cosine y x := by
  unfold cosine
  exact Finset.sum_congr rfl fun d _ => mul_comm _ _

/-! ## The reference's stages at an index -/

variable (x0 x1 : (⟨S4096x256, .f32⟩ : BufTy).Contents (Elt Ideal))

/-- The concatenation of the two batches along the rows is the stack. -/
theorem v0_at (r : Fin 8192) (d : Fin 256) :
    Read.val_main_v0 (F := Ideal) x0 x1 (ix2 r d) = stack (rows x0) (rows x1) r d := by
  unfold Read.val_main_v0 stack
  by_cases h : r.val < 4096
  · rw [dif_pos h]
    exact concatenate_pair_apply_left _ x0 x1 _ (ix2 r d) rfl (ix2 ⟨r.val, h⟩ d)
      (fun b => by match b with | ⟨0, _⟩ => rfl | ⟨1, _⟩ => rfl)
  · rw [dif_neg h]
    exact concatenate_pair_apply_right _ x0 x1 _ (ix2 r d) rfl rfl (ix2 ⟨r.val - 4096, by omega⟩ d)
      (fun b hb => by
        match b with
        | ⟨0, _⟩ => exact absurd rfl hb
        | ⟨1, _⟩ => rfl)
      (by show r.val - 4096 + 4096 = r.val; omega)

/-- The first normalisation: every row divided by its norm floored at the first constant. -/
theorem v5_at (r : Fin 8192) (d : Fin 256) :
    Read.val_main_v5 (F := Ideal) x0 x1 (ix2 r d) = unit floor₁ (stack (rows x0) (rows x1) r) d := by
  have e1 : Read.idx_main_v4 (ix2 r d) = ix2 r (0 : Fin 1) :=
    funext fun a => Fin.ext (by match a with | ⟨0, _⟩ => rfl | ⟨1, _⟩ => rfl)
  have e2 : Read.idx_main_call0_v2 (ix2 r (0 : Fin 1)) = ix1 r :=
    funext fun a => Fin.ext (by match a with | ⟨0, _⟩ => rfl)
  have e3 : ∀ k : Fin 256, Read.idx_main_call0_v1 (ix1 r) k = ix2 r k := fun k =>
    funext fun a => Fin.ext (by match a with | ⟨0, _⟩ => rfl | ⟨1, _⟩ => rfl)
  rw [Read.val_main_v5_apply, Read.val_main_v4_apply, e1, Read.val_main_v3_apply, Read.val_main_v1_apply,
    Read.val_main_call0_v2_apply, e2, Read.val_main_call0_v1_apply, Read.val_main_v2_apply,
    Read.val_main_cst_apply, Read.val_main_call0_cst_apply]
  simp only [e3, Read.val_main_call0_v0_apply, v0_at, Ideal.hostDivf_def, Ideal.maximumf_def,
    Ideal.hostUnary_sqrt_def, Ideal.mulf_def, Ideal.ofBits_def, Ideal.ofBits_zero_f32, zero_add]
  rfl

/-- The second normalisation, of the rows already normalised once. -/
theorem v10_at (r : Fin 8192) (d : Fin 256) :
    Read.val_main_v10 (F := Ideal) x0 x1 (ix2 r d) = unit₂ (stack (rows x0) (rows x1) r) d := by
  have e1 : Read.idx_main_v9 (ix2 r d) = ix2 r (0 : Fin 1) :=
    funext fun a => Fin.ext (by match a with | ⟨0, _⟩ => rfl | ⟨1, _⟩ => rfl)
  have e2 : Read.idx_main_call1_v2 (ix2 r (0 : Fin 1)) = ix1 r :=
    funext fun a => Fin.ext (by match a with | ⟨0, _⟩ => rfl)
  have e3 : ∀ k : Fin 256, Read.idx_main_call1_v1 (ix1 r) k = ix2 r k := fun k =>
    funext fun a => Fin.ext (by match a with | ⟨0, _⟩ => rfl | ⟨1, _⟩ => rfl)
  rw [Read.val_main_v10_apply, Read.val_main_v9_apply, e1, Read.val_main_v8_apply, Read.val_main_v6_apply,
    Read.val_main_call1_v2_apply, e2, Read.val_main_call1_v1_apply, Read.val_main_v7_apply,
    Read.val_main_cst_0_apply, Read.val_main_call1_cst_apply]
  simp only [e3, Read.val_main_call1_v0_apply, v5_at, Ideal.hostDivf_def, Ideal.maximumf_def,
    Ideal.hostUnary_sqrt_def, Ideal.mulf_def, Ideal.ofBits_def, Ideal.ofBits_zero_f32, zero_add]
  rfl

/-- The Gram matrix of the normalised rows. -/
theorem v11_at (r s : Fin 8192) :
    Read.val_main_v11 (F := Ideal) x0 x1 (ix2 r s)
      = cosine (stack (rows x0) (rows x1) r) (stack (rows x0) (rows x1) s) := by
  have el : ∀ k : Fin 256, Read.lidx_main_v11 (ix2 r s) k = ix2 r k := fun k =>
    funext fun a => Fin.ext (by match a with | ⟨0, _⟩ => rfl | ⟨1, _⟩ => rfl)
  have er : ∀ k : Fin 256, Read.ridx_main_v11 (ix2 r s) k = ix2 s k := fun k =>
    funext fun a => Fin.ext (by match a with | ⟨0, _⟩ => rfl | ⟨1, _⟩ => rfl)
  rw [Read.val_main_v11_apply]
  simp only [el, er, v10_at]
  rfl

/-- The similarities over the temperature. -/
theorem v13_at (r s : Fin 8192) :
    Read.val_main_v13 (F := Ideal) x0 x1 (ix2 r s)
      = Ideal.div (cosine (stack (rows x0) (rows x1) r) (stack (rows x0) (rows x1) s)) temp := by
  rw [Read.val_main_v13_apply, v11_at, Read.val_main_v12_apply, Read.val_main_cst_1_apply]
  rfl

/-! ## The mask that drops each row's own term -/

/-- A one-bit word converted to a float is its value as a number. -/
theorem uitofp_bit (b : BitVec 1) : FloatOps.uitofp (F := Ideal) .f32 b = ((b.toNat : ℝ) : EReal) := rfl

/-- Two row numbers below 8192 are the same 32-bit word exactly when they are equal. -/
theorem ofNat_eq_iff (r s : Nat) (hr : r < 8192) (hs : s < 8192) :
    BitVec.ofNat 32 r = BitVec.ofNat 32 s ↔ r = s := by
  constructor
  · intro h
    have := congrArg BitVec.toNat h
    rw [BitVec.toNat_ofNat, BitVec.toNat_ofNat, Nat.mod_eq_of_lt (by omega), Nat.mod_eq_of_lt (by omega)] at this
    exact this
  · intro h; rw [h]

/-- One minus the indicator of the diagonal: nothing on the diagonal, one off it. -/
theorem mask_at (r s : Fin 8192) :
    Read.val_main_v24 (F := Ideal) (ix2 r s) = if r.val = s.val then 0 else 1 := by
  rw [Read.val_main_v24_apply, Read.val_main_v23_apply, Read.val_main_cst_2_apply, Read.val_main_v22_apply,
    Read.val_main_v21_apply, Read.val_main_v20_apply, Read.val_main_v17_apply, Read.val_main_v19_apply,
    Read.val_main_c_apply, Read.val_main_v18_apply, uitofp_bit]
  simp only [Ideal.subf_def, Ideal.ofBits_def, ofBits_one]
  show (1 : EReal) - (((IntOp.cmpi .eq (IntOp.addi (BitVec.ofNat 32 r.val) 0#32) (BitVec.ofNat 32 s.val)).toNat : ℝ) : EReal) = _
  have hadd : IntOp.addi (BitVec.ofNat 32 r.val) 0#32 = BitVec.ofNat 32 r.val := BitVec.add_zero _
  rw [hadd]
  by_cases h : r.val = s.val
  · rw [if_pos h, h]
    have : IntOp.cmpi .eq (BitVec.ofNat 32 s.val) (BitVec.ofNat 32 s.val) = 1#1 := by
      show BitVec.ofBool (BitVec.ofNat 32 s.val == BitVec.ofNat 32 s.val) = 1#1
      rw [beq_self_eq_true]; rfl
    rw [this]
    show (1 : EReal) - (((1 : ℕ) : ℝ) : EReal) = 0
    rw [Nat.cast_one, EReal.coe_one]
    exact EReal.sub_self (by decide) (by decide)
  · rw [if_neg h]
    have : IntOp.cmpi .eq (BitVec.ofNat 32 r.val) (BitVec.ofNat 32 s.val) = 0#1 := by
      show BitVec.ofBool (BitVec.ofNat 32 r.val == BitVec.ofNat 32 s.val) = 0#1
      rw [beq_eq_false_iff_ne.mpr (fun e => h ((ofNat_eq_iff _ _ r.isLt s.isLt).mp e))]; rfl
    rw [this]
    show (1 : EReal) - (((0 : ℕ) : ℝ) : EReal) = 1
    rw [Nat.cast_zero, EReal.coe_zero, sub_zero]

/-- The exponentials with each row's own term dropped. -/
theorem v26_at (r s : Fin 8192) :
    Read.val_main_v26 (F := Ideal) x0 x1 (ix2 r s) = term (stack (rows x0) (rows x1)) r s := by
  rw [Read.val_main_v26_apply, Read.val_main_v25_apply, v13_at, mask_at]
  simp only [Ideal.mulf_def, Ideal.hostUnary_exp_def]
  unfold term
  by_cases h : r.val = s.val
  · rw [if_pos h, if_pos h, mul_zero]
  · rw [if_neg h, if_neg h, mul_one, div_temp]

/-- Each row's sum of exponentials over the other rows. -/
theorem v27_at (r : Fin 8192) :
    Read.val_main_v27 (F := Ideal) x0 x1 (ix1 r) = others (stack (rows x0) (rows x1)) r := by
  have e : ∀ k : Fin 8192, Read.idx_main_v27 (ix1 r) k = ix2 r k := fun k =>
    funext fun a => Fin.ext (by match a with | ⟨0, _⟩ => rfl | ⟨1, _⟩ => rfl)
  rw [Read.val_main_v27_apply, Read.val_main_cst_3_apply]
  simp only [e, v26_at, Ideal.ofBits_def, Ideal.ofBits_zero_f32, zero_add]
  rfl

/-! ## The two off-diagonals: index words, the gathers, and their concatenation -/

/-- A number below 2^31 is its 32-bit word read as a signed integer. -/
theorem toInt_ofNat_small (n : Nat) (h : n < 2147483648) : (BitVec.ofNat 32 n).toInt = (n : Int) := by
  rw [BitVec.toInt_eq_toNat_cond, BitVec.toNat_ofNat]
  have e : n % 2 ^ 32 = n := Nat.mod_eq_of_lt (by omega)
  rw [e, if_pos (by omega)]

/-- Such a word is not negative: the wrap-around test on it answers no. -/
theorem slt_zero_of_small (n : Nat) (h : n < 2147483648) :
    IntOp.cmpi .slt (BitVec.ofNat 32 n) 0#32 = 0#1 := by
  have e : (BitVec.ofNat 32 n).slt 0#32 = false := by
    rw [BitVec.slt, toInt_ofNat_small n h]
    simp
  show BitVec.ofBool ((BitVec.ofNat 32 n).slt 0#32) = 0#1
  rw [e]; rfl

/-- The wrap-around select keeps a word that is not negative. -/
theorem wrap_keep (n : Nat) (h : n < 2147483648) (alt : BitVec 32) :
    Scalar.select (IntOp.cmpi .slt (BitVec.ofNat 32 n) 0#32) alt (BitVec.ofNat 32 n) = BitVec.ofNat 32 n := by
  rw [slt_zero_of_small n h]
  exact select_zero _ _

/-- The word of a row number below the extent clamps to that row. -/
theorem crow_ofNat (n : Nat) (h : n < 8192) :
    Cert.Gcn.crow 8192 (by decide) (BitVec.ofNat 32 n) = ⟨n, h⟩ := by
  refine Fin.ext ?_
  have e := Cert.Gcn.crow_val_of_range (N := 8192) (by decide) (BitVec.ofNat 32 n)
    (by rw [toInt_ofNat_small n (by omega)]; omega) (by rw [toInt_ofNat_small n (by omega)]; omega)
  rw [toInt_ofNat_small n (by omega)] at e
  exact_mod_cast e

/-- The pair gather of the program, at an index. -/
theorem gather_at (x : S8192x8192.Idx → EReal) (idx : IVec S4096x2 32) (q : Fin 4096) :
    Host.gather gather_S8192x8192_S4096x2_S4096_n_01_n_n_01_1_11 x idx (ix1 q)
      = x (ix2 (Cert.Gcn.crow 8192 (by decide) (idx (ix2 q (0 : Fin 2))))
              (Cert.Gcn.crow 8192 (by decide) (idx (ix2 q (1 : Fin 2))))) :=
  Cert.Gcn.gatherPair_apply (A := 8192) (B := 8192) (E := 4096) (by decide) (by decide)
    Facts₀.gather_S8192x8192_S4096x2_S4096_n_01_n_n_01_1_11_wf x idx (ix1 q)

/-- Two columns joined side by side: the first column is the left piece. -/
theorem pair_col0 (u v : IVec S4096x1 32) (h : Shape.Concatenates [S4096x1, S4096x1] S4096x2 1) (q : Fin 4096) :
    concatenate S4096x2 1 [⟨S4096x1, u⟩, ⟨S4096x1, v⟩] h (ix2 q (0 : Fin 2)) = u (ix2 q (0 : Fin 1)) :=
  concatenate_pair_apply_left _ u v h (ix2 q (0 : Fin 2)) rfl (ix2 q (0 : Fin 1))
    (fun b => by match b with | ⟨0, _⟩ => rfl | ⟨1, _⟩ => rfl)

/-- … and the second column is the right piece. -/
theorem pair_col1 (u v : IVec S4096x1 32) (h : Shape.Concatenates [S4096x1, S4096x1] S4096x2 1) (q : Fin 4096) :
    concatenate S4096x2 1 [⟨S4096x1, u⟩, ⟨S4096x1, v⟩] h (ix2 q (1 : Fin 2)) = v (ix2 q (0 : Fin 1)) :=
  concatenate_pair_apply_right _ u v h (ix2 q (1 : Fin 2)) rfl rfl (ix2 q (0 : Fin 1))
    (fun b hb => by
      match b with
      | ⟨0, _⟩ => rfl
      | ⟨1, _⟩ => exact absurd rfl hb)
    rfl

/-- The first off-diagonal's row numbers: entry q reads row q … -/
theorem call2_rowIdx (q : Fin 4096) :
    Read.val_main_call2_v16 (F := Ideal) (ix2 q (0 : Fin 2)) = BitVec.ofNat 32 q.val := by
  have e : Read.idx_main_call2_v14 (ix2 q (0 : Fin 1)) = ix1 q :=
    funext fun a => Fin.ext (by match a with | ⟨0, _⟩ => rfl)
  unfold Read.val_main_call2_v16
  rw [pair_col0, Read.val_main_call2_v14_apply, e, Read.val_main_call2_v8_apply, Read.val_main_call2_v5_apply,
    Read.val_main_call2_v0_apply, Read.val_main_call2_v4_apply, Read.val_main_call2_c_0_apply]
  exact wrap_keep q.val (by omega) _

/-- … and column q + 4096. -/
theorem call2_colIdx (q : Fin 4096) :
    Read.val_main_call2_v16 (F := Ideal) (ix2 q (1 : Fin 2)) = BitVec.ofNat 32 (q.val + 4096) := by
  have e : Read.idx_main_call2_v15 (ix2 q (0 : Fin 1)) = ix1 q :=
    funext fun a => Fin.ext (by match a with | ⟨0, _⟩ => rfl)
  have hw : IntOp.addi (4096#32) (BitVec.ofNat 32 q.val) = BitVec.ofNat 32 (q.val + 4096) := by
    show BitVec.ofNat 32 4096 + BitVec.ofNat 32 q.val = _
    rw [← BitVec.ofNat_add, Nat.add_comm]
  unfold Read.val_main_call2_v16
  rw [pair_col1, Read.val_main_call2_v15_apply, e, Read.val_main_call2_v13_apply, Read.val_main_call2_v10_apply,
    Read.val_main_call2_v3_apply, Read.val_main_call2_v2_apply, Read.val_main_call2_c_apply,
    Read.val_main_call2_v1_apply, Read.val_main_call2_v9_apply, Read.val_main_call2_c_2_apply]
  show Scalar.select (IntOp.cmpi .slt (IntOp.addi (4096#32) (BitVec.ofNat 32 q.val)) 0#32) _
    (IntOp.addi (4096#32) (BitVec.ofNat 32 q.val)) = _
  rw [hw]
  exact wrap_keep (q.val + 4096) (by omega) _

/-- The second off-diagonal's row numbers: entry q reads row q + 4096 … -/
theorem call3_rowIdx (q : Fin 4096) :
    Read.val_main_call3_v16 (F := Ideal) (ix2 q (0 : Fin 2)) = BitVec.ofNat 32 (q.val + 4096) := by
  have e : Read.idx_main_call3_v14 (ix2 q (0 : Fin 1)) = ix1 q :=
    funext fun a => Fin.ext (by match a with | ⟨0, _⟩ => rfl)
  have hw : IntOp.addi (4096#32) (BitVec.ofNat 32 q.val) = BitVec.ofNat 32 (q.val + 4096) := by
    show BitVec.ofNat 32 4096 + BitVec.ofNat 32 q.val = _
    rw [← BitVec.ofNat_add, Nat.add_comm]
  unfold Read.val_main_call3_v16
  rw [pair_col0, Read.val_main_call3_v14_apply, e, Read.val_main_call3_v8_apply, Read.val_main_call3_v5_apply,
    Read.val_main_call3_v3_apply, Read.val_main_call3_v2_apply, Read.val_main_call3_c_apply,
    Read.val_main_call3_v1_apply, Read.val_main_call3_v4_apply, Read.val_main_call3_c_0_apply]
  show Scalar.select (IntOp.cmpi .slt (IntOp.addi (4096#32) (BitVec.ofNat 32 q.val)) 0#32) _
    (IntOp.addi (4096#32) (BitVec.ofNat 32 q.val)) = _
  rw [hw]
  exact wrap_keep (q.val + 4096) (by omega) _

/-- … and column q. -/
theorem call3_colIdx (q : Fin 4096) :
    Read.val_main_call3_v16 (F := Ideal) (ix2 q (1 : Fin 2)) = BitVec.ofNat 32 q.val := by
  have e : Read.idx_main_call3_v15 (ix2 q (0 : Fin 1)) = ix1 q :=
    funext fun a => Fin.ext (by match a with | ⟨0, _⟩ => rfl)
  unfold Read.val_main_call3_v16
  rw [pair_col1, Read.val_main_call3_v15_apply, e, Read.val_main_call3_v13_apply, Read.val_main_call3_v10_apply,
    Read.val_main_call3_v0_apply, Read.val_main_call3_v9_apply, Read.val_main_call3_c_2_apply]
  exact wrap_keep q.val (by omega) _

/-- The first off-diagonal: a first-batch row against the same row of the second batch. -/
theorem v14_at (q : Fin 4096) :
    Read.val_main_v14 (F := Ideal) x0 x1 (ix1 q) = Ideal.div (cosine (rows x0 q) (rows x1 q)) temp := by
  unfold Read.val_main_v14
  rw [gather_at, call2_rowIdx, call2_colIdx, crow_ofNat q.val (by omega), crow_ofNat (q.val + 4096) (by omega),
    v13_at, stack_lo, stack_hi]

/-- The second off-diagonal: the same pair the other way round. -/
theorem v15_at (q : Fin 4096) :
    Read.val_main_v15 (F := Ideal) x0 x1 (ix1 q) = Ideal.div (cosine (rows x1 q) (rows x0 q)) temp := by
  unfold Read.val_main_v15
  rw [gather_at, call3_rowIdx, call3_colIdx, crow_ofNat q.val (by omega), crow_ofNat (q.val + 4096) (by omega),
    v13_at, stack_lo, stack_hi]

/-- The two off-diagonals end to end: every row's positive term. -/
theorem v16_at (r : Fin 8192) :
    Read.val_main_v16 (F := Ideal) x0 x1 (ix1 r) = partner (rows x0) (rows x1) r := by
  unfold Read.val_main_v16 partner
  by_cases h : r.val < 4096
  · have hm : r.val % 4096 = r.val := Nat.mod_eq_of_lt h
    refine (concatenate_pair_apply_left _ (Read.val_main_v14 (F := Ideal) x0 x1) (Read.val_main_v15 (F := Ideal) x0 x1) _
      (ix1 r) rfl (ix1 ⟨r.val, h⟩) (fun b => by match b with | ⟨0, _⟩ => rfl)).trans ?_
    rw [v14_at]
    have e : (⟨r.val, h⟩ : Fin 4096) = ⟨r.val % 4096, Nat.mod_lt _ (by norm_num)⟩ := Fin.ext hm.symm
    rw [e]
  · have hm : r.val % 4096 = r.val - 4096 := by have := r.isLt; omega
    refine (concatenate_pair_apply_right _ (Read.val_main_v14 (F := Ideal) x0 x1) (Read.val_main_v15 (F := Ideal) x0 x1) _
      (ix1 r) rfl rfl (ix1 ⟨r.val - 4096, by have := r.isLt; omega⟩)
      (fun b hb => by match b with | ⟨0, _⟩ => exact absurd rfl hb)
      (by show r.val - 4096 + 4096 = r.val; omega)).trans ?_
    rw [v15_at, cosine_comm]
    have e : (⟨r.val - 4096, by have := r.isLt; omega⟩ : Fin 4096) = ⟨r.val % 4096, Nat.mod_lt _ (by norm_num)⟩ :=
      Fin.ext hm.symm
    rw [e]

/-! ## The mean -/

/-- A one-axis index set is its coordinate's range … -/
def idxEquiv1 {n : Nat} : (⟨1, ![n]⟩ : Shape).Idx ≃ Fin n where
  toFun i := i 0
  invFun p := ix1 p
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Every row's contribution: the logarithm of its sum over the other rows, less its positive term. -/
theorem v29_at (r : Fin 8192) :
    Read.val_main_v29 (F := Ideal) x0 x1 (ix1 r)
      = Ideal.log (others (stack (rows x0) (rows x1)) r) - partner (rows x0) (rows x1) r := by
  rw [Read.val_main_v29_apply, Read.val_main_v28_apply, v27_at, v16_at]
  rfl

/-- The reference's last stage is the mean of the contributions. -/
theorem v31_at :
    Read.val_main_v31 (F := Ideal) x0 x1 ix0
      = mean (others (stack (rows x0) (rows x1))) (partner (rows x0) (rows x1)) := by
  rw [Read.val_main_v31_apply, Read.val_main_v30_apply, Read.val_main_cst_4_apply, Read.val_main_cst_5_apply,
    sum_idx1]
  simp only [v29_at, Ideal.hostDivf_def, Ideal.ofBits_def, Ideal.ofBits_zero_f32, zero_add]
  rfl

/-- The reference's one result entry is the mean, over the 8192 stacked rows, of log(sum over the other rows of exp(similarity/T)) minus the positive pair's similarity/T. -/
theorem result_mean (m : (ℓ : Loc nD τ sig) → Buf (Elt Ideal) ℓ) (c : Dev nD) :
    (Cert.ReferenceIdeal.Value.res_main_v31 (F := Ideal) m c : S_.Idx → EReal) ix0
      = mean (others (stack (rows (m ((c.tc : Thread nD τ).loc main_arg0))) (rows (m ((c.tc : Thread nD τ).loc main_arg1)))))
             (partner (rows (m ((c.tc : Thread nD τ).loc main_arg0))) (rows (m ((c.tc : Thread nD τ).loc main_arg1)))) := by
  rw [Read.val_main_v31_eq]
  exact v31_at _ _

end Cert.ReferenceIdeal.RefValue

end
-- ==== Proof.lean ====
/-
  The contrastive-loss kernel against its reference, over the extended reals.

  Both programs stack two batches of 4096 rows into 8192, normalise every row twice by its floored Euclidean
  norm, and take the mean over the rows of

      log (sum over the other rows of exp (similarity / T))  −  similarity with the partner row / T .

  The reference forms the whole 8192 × 8192 similarity matrix and divides it by the temperature T. The kernel walks a
  4 × 16 grid of 2048 × 512 tiles of that matrix, multiplies each tile by a constant named 1 / T — the exact
  inverse of the reference's temperature — masks the diagonal, and adds the tile's row sums into a column it keeps
  between grid points, cleared at the first column tile of each row tile and written out after the last. The
  quotient by T is the product with 1 / T on every extended real, exp(x)·0 = 0, and the sum over the other rows may
  be taken sixteen tiles at a time: so the two results are one number, for any inputs.

  The frames: the kernel programs' by the region's proof data (the column's contents after every point, by
  recursion on the point) under the launch for windows that share an array; the reference's from its run.
-/
import proofs.«159962_j63264868270602_1_alg».proof.Defs
import proofs.«159962_j63264868270602_1_alg».proof.Proof.Gen.Kernel
import proofs.«159962_j63264868270602_1_alg».proof.Proof.Gen.KernelIdeal
import proofs.«159962_j63264868270602_1_alg».proof.Proof.Gen.ReferenceIdeal
import proofs.«159962_j63264868270602_1_alg».proof.Proof.Gen.Pre_finite_inputs
import proofs.«159962_j63264868270602_1_alg».proof.Proof.Gen.ReferenceIdeal.Run
import proofs.«159962_j63264868270602_1_alg».proof.Proof.Gen.ReferenceIdeal.Read
import proofs.«159962_j63264868270602_1_alg».proof.Proof.Kernel.Kept
import proofs.«159962_j63264868270602_1_alg».proof.Proof.KernelIdeal.Result
import proofs.«159962_j63264868270602_1_alg».proof.Proof.Reference.Value
import Idealize.ShloMosaic.Adequacy
import Idealize.ShloMosaic.Init

noncomputable section

namespace Cert.Proof

open Idealize.ShloMosaic Idealize.ShloMosaic.TcCoe Idealize.ShloMosaic.ValueIdx Idealize.SL.Sem

theorem frame_kernel : Cert.frame_Kernel := fun m ρ _ => Cert.Kernel.Region.frame m ρ

theorem frame_kernelIdeal : Cert.frame_KernelIdeal := fun m ρ _ => Cert.KernelIdeal.Region.frame m ρ

theorem frame_reference : Cert.frame_ReferenceIdeal := fun m ρ _ =>
  (θ_run Cert.ReferenceIdeal.defs _ _).mono (fun _ h c => (h c).2) (Cert.ReferenceIdeal.Value.run (F := Ideal) m ρ)

/-- The one rewrite of the idealization: the kernel's scale, the single-precision word nearest 1 / 0.07, is named
    the exact inverse 134217728 / 9395241 of the reference's temperature, and the name denotes that rational. -/
theorem preserves : Cert.preserves_Kernel_KernelIdeal :=
  IdealRules.named_const.statement Cert.KernelIdeal.κ "inv_temperature" .f32 0x41649249#32 ((134217728 / 9395241 : ℝ) : EReal) rfl

/-- From memories that agree on the two batches, both programs end at the loss of the batches. -/
theorem algebraic : Cert.algebraic_KernelIdeal_ReferenceIdeal := by
  intro m ρ m' ρ' _ hagree
  refine ⟨fun c => (fun _ => Cert.KernelIdeal.Column.loss m c), Cert.KernelIdeal.Column.run_value m ρ, ?_⟩
  refine (θ_run Cert.ReferenceIdeal.defs _ _).mono (fun _ h c => ⟨(h c).1.trans ?_, (h c).2⟩)
    (Cert.ReferenceIdeal.Value.run (F := Ideal) m' ρ')
  funext i
  have hi : i = ix0 := funext fun d => d.elim0
  rw [hi, Cert.ReferenceIdeal.RefValue.result_mean m' c, (hagree c).1, (hagree c).2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
